-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x1024 : Shape := ⟨3, ![2, 1024, 1024]⟩
abbrev S2x1024 : Shape := ⟨2, ![2, 1024]⟩
abbrev S2x16x1024x1024 : Shape := ⟨4, ![2, 16, 1024, 1024]⟩
abbrev S1024x1024 : Shape := ⟨2, ![1024, 1024]⟩
abbrev S1024 : Shape := ⟨1, ![1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2x16x1024x1024 : S_.BroadcastsInDim S2x16x1024x1024 (![] : Fin 0 → Fin S2x16x1024x1024.rank)
  reducesTo_S2x16x1024x1024_S_d0_1_2_3 : S2x16x1024x1024.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x1024x1024 .f32) (main_arg1 : FVec F S2x1024 .f32) (main_arg2 : FVec F S2x16x1024x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024 .f32) (main_arg12 : FVec F S1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2x16x1024x1024 .f32 := Host.absf main_arg2
  let main_cst_2 : FVec F S_ .f32 := constant S_ .f32 0x7F800000#32
  let main_v10 : FVec F S2x16x1024x1024 .f32 := broadcastInDim S2x16x1024x1024 ![] bcast_S_S2x16x1024x1024 main_cst_2
  let main_v11 : IVec S2x16x1024x1024 1 := cmpf .olt main_v9 main_v10
  let main_c_3 : IVec S_ 1 := constantI S_ 1 1#1
  let main_v12 : IVec S_ 1 := (fun x v => Host.reduce IntOp.andi x v reducesTo_S2x16x1024x1024_S_d0_1_2_3 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S2x1024x1024 : Shape := ⟨3, ![2, 1024, 1024]⟩
abbrev S2x1024 : Shape := ⟨2, ![2, 1024]⟩
abbrev S2x16x1024x1024 : Shape := ⟨4, ![2, 16, 1024, 1024]⟩
abbrev S1024x1024 : Shape := ⟨2, ![1024, 1024]⟩
abbrev S1024 : Shape := ⟨1, ![1024]⟩
abbrev S2048x1024 : Shape := ⟨2, ![2048, 1024]⟩
abbrev S1x1024 : Shape := ⟨2, ![1, 1024]⟩
abbrev S2048x3072 : Shape := ⟨2, ![2048, 3072]⟩
abbrev S512x1024 : Shape := ⟨2, ![512, 1024]⟩
abbrev S512x3072 : Shape := ⟨2, ![512, 3072]⟩
abbrev S2x1024x1 : Shape := ⟨3, ![2, 1024, 1]⟩
abbrev S2x1x1024 : Shape := ⟨3, ![2, 1, 1024]⟩
abbrev S1024x128 : Shape := ⟨2, ![1024, 128]⟩
abbrev S1x2x1024x1024 : Shape := ⟨4, ![1, 2, 1024, 1024]⟩
abbrev S1x1024x1 : Shape := ⟨3, ![1, 1024, 1]⟩
abbrev S1x1x1024 : Shape := ⟨3, ![1, 1, 1024]⟩
abbrev S1024x1 : Shape := ⟨2, ![1024, 1]⟩
abbrev S1024x64 : Shape := ⟨2, ![1024, 64]⟩
abbrev S1x1x1024x1024 : Shape := ⟨4, ![1, 1, 1024, 1024]⟩
abbrev S512 : Shape := ⟨1, ![512]⟩
abbrev S512x1 : Shape := ⟨2, ![512, 1]⟩

abbrev nBuf : Space → Nat
  | .hbm => 30
  | .vmem => 34
  | .smem => 0
  | _ => 0

abbrev bufTy : (tb : Table) → Fin (tcTables nBuf tb) → BufTy
  | .hbm, ⟨0, _⟩ => ⟨S2x1024x1024, .f32⟩
  | .hbm, ⟨1, _⟩ => ⟨S2x1024, .f32⟩
  | .hbm, ⟨2, _⟩ => ⟨S2x16x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S2048x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S2048x3072, .f32⟩
  | .hbm, ⟨22, _⟩ => ⟨S2x1024x1, .f32⟩
  | .hbm, ⟨23, _⟩ => ⟨S2x1x1024, .f32⟩
  | .hbm, ⟨24, _⟩ => ⟨S2048x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S2048x1024, .f32⟩
  | .hbm, ⟨29, _⟩ => ⟨S2x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x3072, .f32⟩
  | .local _ .vmem, ⟨9, _⟩ => ⟨S512x3072, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x2x1024x1024, .f32⟩
  | .local _ .vmem, ⟨17, _⟩ => ⟨S1x2x1024x1024, .f32⟩
  | .local _ .vmem, ⟨18, _⟩ => ⟨S1x1024x1, .f32⟩
  | .local _ .vmem, ⟨19, _⟩ => ⟨S1x1024x1, .f32⟩
  | .local _ .vmem, ⟨20, _⟩ => ⟨S1x1x1024, .f32⟩
  | .local _ .vmem, ⟨21, _⟩ => ⟨S1x1x1024, .f32⟩
  | .local _ .vmem, ⟨22, _⟩ => ⟨S1024x128, .f32⟩
  | .local _ .vmem, ⟨23, _⟩ => ⟨S1024x128, .f32⟩
  | .local _ .vmem, ⟨24, _⟩ => ⟨S512x1024, .f32⟩
  | .local _ .vmem, ⟨25, _⟩ => ⟨S512x1024, .f32⟩
  | .local _ .vmem, ⟨26, _⟩ => ⟨S1024x1024, .bf16⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bitsLt_bf16_f32 : FTy.bits .bf16 < FTy.bits .f32
  shapeCasts_S2x1024x1024_S2048x1024 : S2x1024x1024.ShapeCasts S2048x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x3072_S512x1024_0_0 : ∀ a, (![0, 0] : Fin 2 → Nat) a + S512x1024.size a ≤ S512x3072.size a
  inb_S512x3072_S512x1024_0_1024 : ∀ a, (![0, 1024] : Fin 2 → Nat) a + S512x1024.size a ≤ S512x3072.size a
  inb_S512x3072_S512x1024_0_2048 : ∀ a, (![0, 2048] : Fin 2 → Nat) a + S512x1024.size a ≤ S512x3072.size a
  shapeCasts_S2x1024_S2x1024x1 : S2x1024.ShapeCasts S2x1024x1
  shapeCasts_S2x1024_S2x1x1024 : S2x1024.ShapeCasts S2x1x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  slices_S1024x128_o0_0_S1024x64 : S1024x128.Slices ![0, 0] S1024x64
  inb_S1x2x1024x1024_S1x1x1024x1024_0_0_0_0 : ∀ a, (![0, 0, 0, 0] : Fin 4 → Nat) a + S1x1x1024x1024.size a ≤ S1x2x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  broadcasts_S1024x1_S1024x64 : S1024x1.Broadcasts S1024x64
  inb_S1024x128_S1024x64_0_0 : ∀ a, (![0, 0] : Fin 2 → Nat) a + S1024x64.size a ≤ S1024x128.size a
  h_S1024x64 : 0 < S1024x64.numel
  slices_S1024x128_o0_64_S1024x64 : S1024x128.Slices ![0, 64] S1024x64
  inb_S1x2x1024x1024_S1x1x1024x1024_0_1_0_0 : ∀ a, (![0, 1, 0, 0] : Fin 4 → Nat) a + S1x1x1024x1024.size a ≤ S1x2x1024x1024.size a
  inb_S1024x128_S1024x64_0_64 : ∀ a, (![0, 64] : Fin 2 → Nat) a + S1024x64.size a ≤ S1024x128.size a
  reduces_S512x1024_S512 : S512x1024.Reduces [1] S512
  shapeCasts_S512_S512x1 : S512.ShapeCasts S512x1
  broadcasts_S512x1_S512x1024 : S512x1.Broadcasts S512x1024
  shapeCasts_S2048x1024_S2x1024x1024 : S2048x1024.ShapeCasts S2x1024x1024
  dot_S512x1024_S1024x1024_S512x1024_1_1_0_0_n_n_wf : DotDims.WF S512x1024 S1024x1024 S512x1024 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x3072.size a ≤ S2048x3072.size a
  hwx0_7 : ∀ i : grid0.Coords, EltTy.bits .f32 = 32 ∨ (Rect.block (s := S2048x3072) S512x3072.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S2048x3072.size a
  hwx1_0 : ∀ i : grid1.Coords, EltTy.bits .f32 = 32 ∨ (Rect.block (s := S2048x3072) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S2048x3072.size a
  hwx1_1 : ∀ i : grid1.Coords, EltTy.bits .f32 = 32 ∨ (Rect.block (s := S2048x3072) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S2048x3072.size a
  hwx1_2 : ∀ i : grid1.Coords, EltTy.bits .f32 = 32 ∨ (Rect.block (s := S2048x3072) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x1024x1024.size a ≤ S2x16x1024x1024.size a
  hwx1_3 : ∀ i : grid1.Coords, EltTy.bits .f32 = 32 ∨ (Rect.block (s := S2x16x1024x1024) S1x2x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1.size a ≤ S2x1024x1.size a
  hwx1_4 : ∀ i : grid1.Coords, EltTy.bits .f32 = 32 ∨ (Rect.block (s := S2x1024x1) S1x1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1024.size a ≤ S2x1x1024.size a
  hwx1_5 : ∀ i : grid1.Coords, EltTy.bits .f32 = 32 ∨ (Rect.block (s := S2x1x1024) S1x1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S2048x1024.size a
  hwx1_6 : ∀ i : grid1.Coords, EltTy.bits .f32 = 32 ∨ (Rect.block (s := S2048x1024) S1024x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .f32 = 32 ∨ (Rect.block (s := S2048x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S2048x1024.size a
  hwx2_3 : ∀ i : grid2.Coords, EltTy.bits .f32 = 32 ∨ (Rect.block (s := S2048x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S2048x1024.size a
  hwx2_6 : ∀ i : grid2.Coords, EltTy.bits .f32 = 32 ∨ (Rect.block (s := S2048x1024) S512x1024.size (cc2_transform_6 i) (hinb2_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x3072.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v8) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x2x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S2x1024x1024 : Shape := ⟨3, ![2, 1024, 1024]⟩
abbrev S2x1024 : Shape := ⟨2, ![2, 1024]⟩
abbrev S2x16x1024x1024 : Shape := ⟨4, ![2, 16, 1024, 1024]⟩
abbrev S1024x1024 : Shape := ⟨2, ![1024, 1024]⟩
abbrev S1024 : Shape := ⟨1, ![1024]⟩
abbrev S1x1x1024 : Shape := ⟨3, ![1, 1, 1024]⟩
abbrev S2x1024x16x64 : Shape := ⟨4, ![2, 1024, 16, 64]⟩
abbrev S2x16x1024x64 : Shape := ⟨4, ![2, 16, 1024, 64]⟩
abbrev S_ : Shape := ⟨0, ![]⟩
abbrev S2x16x1024 : Shape := ⟨3, ![2, 16, 1024]⟩
abbrev S2x16x1024x1 : Shape := ⟨4, ![2, 16, 1024, 1]⟩
abbrev S2x1x1024x1 : Shape := ⟨4, ![2, 1, 1024, 1]⟩
abbrev S2x1x1x1024 : Shape := ⟨4, ![2, 1, 1, 1024]⟩
abbrev S2x1x1024x1024 : Shape := ⟨4, ![2, 1, 1024, 1024]⟩
abbrev S2x1024x1 : Shape := ⟨3, ![2, 1024, 1]⟩

abbrev nBuf : Space → Nat
  | .hbm => 98
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024, .f32⟩
  | .hbm, ⟨2, _⟩ => ⟨S2x16x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S2x1024x1024, .f32⟩
  | .hbm, ⟨14, _⟩ => ⟨S1x1x1024, .f32⟩
  | .hbm, ⟨15, _⟩ => ⟨S2x1024x1024, .f32⟩
  | .hbm, ⟨16, _⟩ => ⟨S2x1024x1024, .f32⟩
  | .hbm, ⟨17, _⟩ => ⟨S2x1024x16x64, .f32⟩
  | .hbm, ⟨18, _⟩ => ⟨S2x16x1024x64, .f32⟩
  | .hbm, ⟨19, _⟩ => ⟨S2x1024x1024, .f32⟩
  | .hbm, ⟨20, _⟩ => ⟨S1x1x1024, .f32⟩
  | .hbm, ⟨21, _⟩ => ⟨S2x1024x1024, .f32⟩
  | .hbm, ⟨22, _⟩ => ⟨S2x1024x1024, .f32⟩
  | .hbm, ⟨23, _⟩ => ⟨S2x1024x16x64, .f32⟩
  | .hbm, ⟨24, _⟩ => ⟨S2x16x1024x64, .f32⟩
  | .hbm, ⟨25, _⟩ => ⟨S2x1024x1024, .f32⟩
  | .hbm, ⟨26, _⟩ => ⟨S1x1x1024, .f32⟩
  | .hbm, ⟨27, _⟩ => ⟨S2x1024x1024, .f32⟩
  | .hbm, ⟨28, _⟩ => ⟨S2x1024x1024, .f32⟩
  | .hbm, ⟨29, _⟩ => ⟨S2x1024x16x64, .f32⟩
  | .hbm, ⟨30, _⟩ => ⟨S2x16x1024x64, .f32⟩
  | .hbm, ⟨31, _⟩ => ⟨S2x16x1024x1024, .f32⟩
  | .hbm, ⟨32, _⟩ => ⟨S2x16x1024x1024, .f32⟩
  | .hbm, ⟨33, _⟩ => ⟨S2x16x1024x1024, .f32⟩
  | .hbm, ⟨34, _⟩ => ⟨S2x16x1024x1024, .f32⟩
  | .hbm, ⟨35, _⟩ => ⟨S2x16x1024x1024, .f32⟩
  | .hbm, ⟨36, _⟩ => ⟨S2x16x1024x1024, .f32⟩
  | .hbm, ⟨37, _⟩ => ⟨S_, .f32⟩
  | .hbm, ⟨38, _⟩ => ⟨S2x16x1024x1024, .f32⟩
  | .hbm, ⟨39, _⟩ => ⟨S2x16x1024x1024, .f32⟩
  | .hbm, ⟨40, _⟩ => ⟨S_, .f32⟩
  | .hbm, ⟨41, _⟩ => ⟨S2x16x1024, .f32⟩
  | .hbm, ⟨42, _⟩ => ⟨S_, .f32⟩
  | .hbm, ⟨43, _⟩ => ⟨S2x16x1024, .f32⟩
  | .hbm, ⟨44, _⟩ => ⟨S2x16x1024, .f32⟩
  | .hbm, ⟨45, _⟩ => ⟨S2x16x1024x1, .f32⟩
  | .hbm, ⟨46, _⟩ => ⟨S2x16x1024x1024, .f32⟩
  | .hbm, ⟨47, _⟩ => ⟨S2x16x1024x1024, .f32⟩
  | .hbm, ⟨48, _⟩ => ⟨S2x16x1024x1024, .f32⟩
  | .hbm, ⟨49, _⟩ => ⟨S_, .f32⟩
  | .hbm, ⟨50, _⟩ => ⟨S2x16x1024, .f32⟩
  | .hbm, ⟨51, _⟩ => ⟨S2x16x1024x1, .f32⟩
  | .hbm, ⟨52, _⟩ => ⟨S2x16x1024x1024, .f32⟩
  | .hbm, ⟨53, _⟩ => ⟨S2x16x1024x1024, .f32⟩
  | .hbm, ⟨54, _⟩ => ⟨S2x1x1024x1, .f32⟩
  | .hbm, ⟨55, _⟩ => ⟨S2x1x1x1024, .f32⟩
  | .hbm, ⟨56, _⟩ => ⟨S2x1x1024x1024, .f32⟩
  | .hbm, ⟨57, _⟩ => ⟨S2x1x1024x1024, .f32⟩
  | .hbm, ⟨58, _⟩ => ⟨S2x1x1024x1024, .f32⟩
  | .hbm, ⟨59, _⟩ => ⟨S2x16x1024x1024, .f32⟩
  | .hbm, ⟨60, _⟩ => ⟨S2x16x1024x1024, .f32⟩
  | .hbm, ⟨61, _⟩ => ⟨S2x16x1024x64, .f32⟩
  | .hbm, ⟨62, _⟩ => ⟨S2x1024x16x64, .f32⟩
  | .hbm, ⟨63, _⟩ => ⟨S2x1024x1024, .f32⟩
  | .hbm, ⟨64, _⟩ => ⟨S2x1024x1024, .f32⟩
  | .hbm, ⟨65, _⟩ => ⟨S1x1x1024, .f32⟩
  | .hbm, ⟨66, _⟩ => ⟨S2x1024x1024, .f32⟩
  | .hbm, ⟨67, _⟩ => ⟨S2x1024x1024, .f32⟩
  | .hbm, ⟨68, _⟩ => ⟨S2x1024x1024, .f32⟩
  | .hbm, ⟨69, _⟩ => ⟨S_, .f32⟩
  | .hbm, ⟨70, _⟩ => ⟨S2x1024, .f32⟩
  | .hbm, ⟨71, _⟩ => ⟨S2x1024x1, .f32⟩
  | .hbm, ⟨72, _⟩ => ⟨S_, .f32⟩
  | .hbm, ⟨73, _⟩ => ⟨S2x1024x1, .f32⟩
  | .hbm, ⟨74, _⟩ => ⟨S2x1024x1, .f32⟩
  | .hbm, ⟨75, _⟩ => ⟨S2x1024x1024, .f32⟩
  | .hbm, ⟨76, _⟩ => ⟨S2x1024x1024, .f32⟩
  | .hbm, ⟨77, _⟩ => ⟨S2x1024x1024, .f32⟩
  | .hbm, ⟨78, _⟩ => ⟨S_, .f32⟩
  | .hbm, ⟨79, _⟩ => ⟨S2x1024, .f32⟩
  | .hbm, ⟨80, _⟩ => ⟨S2x1024x1, .f32⟩
  | .hbm, ⟨81, _⟩ => ⟨S_, .f32⟩
  | .hbm, ⟨82, _⟩ => ⟨S2x1024x1, .f32⟩
  | .hbm, ⟨83, _⟩ => ⟨S2x1024x1, .f32⟩
  | .hbm, ⟨84, _⟩ => ⟨S2x1024x1024, .f32⟩
  | .hbm, ⟨85, _⟩ => ⟨S2x1024x1024, .f32⟩
  | .hbm, ⟨86, _⟩ => ⟨S_, .f32⟩
  | .hbm, ⟨87, _⟩ => ⟨S2x1024x1, .f32⟩
  | .hbm, ⟨88, _⟩ => ⟨S2x1024x1, .f32⟩
  | .hbm, ⟨89, _⟩ => ⟨S2x1024x1, .f32⟩
  | .hbm, ⟨90, _⟩ => ⟨S2x1024x1024, .f32⟩
  | .hbm, ⟨91, _⟩ => ⟨S2x1024x1024, .f32⟩
  | .hbm, ⟨92, _⟩ => ⟨S1x1x1024, .f32⟩
  | .hbm, ⟨93, _⟩ => ⟨S2x1024x1024, .f32⟩
  | .hbm, ⟨94, _⟩ => ⟨S2x1024x1024, .f32⟩
  | .hbm, ⟨95, _⟩ => ⟨S1x1x1024, .f32⟩
  | .hbm, ⟨96, _⟩ => ⟨S2x1024x1024, .f32⟩
  | .hbm, ⟨97, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x1024x1024_0_1_2 : S1x1x1024.BroadcastsInDim S2x1024x1024 (![0, 1, 2] : Fin 3 → Fin S2x1024x1024.rank)
  shapeCasts_S2x1024x1024_S2x1024x16x64 : S2x1024x1024.ShapeCasts S2x1024x16x64
  transposes_S2x1024x16x64_S2x16x1024x64_0_2_1_3 : S2x1024x16x64.Transposes [0, 2, 1, 3] S2x16x1024x64
  bcast_S_S2x16x1024x1024 : S_.BroadcastsInDim S2x16x1024x1024 (![] : Fin 0 → Fin S2x16x1024x1024.rank)
  reducesTo_S2x16x1024x1024_S2x16x1024_d3 : S2x16x1024x1024.ReducesTo [3] S2x16x1024
  h_S_ : 0 < S_.numel
  bcast_S_S2x16x1024 : S_.BroadcastsInDim S2x16x1024 (![] : Fin 0 → Fin S2x16x1024.rank)
  bcast_S2x16x1024_S2x16x1024x1_0_1_2 : S2x16x1024.BroadcastsInDim S2x16x1024x1 (![0, 1, 2] : Fin 3 → Fin S2x16x1024x1.rank)
  bcast_S2x16x1024x1_S2x16x1024x1024_0_1_2_3 : S2x16x1024x1.BroadcastsInDim S2x16x1024x1024 (![0, 1, 2, 3] : Fin 4 → Fin S2x16x1024x1024.rank)
  bcast_S2x1024_S2x1x1024x1_0_2 : S2x1024.BroadcastsInDim S2x1x1024x1 (![0, 2] : Fin 2 → Fin S2x1x1024x1.rank)
  bcast_S2x1024_S2x1x1x1024_0_3 : S2x1024.BroadcastsInDim S2x1x1x1024 (![0, 3] : Fin 2 → Fin S2x1x1x1024.rank)
  bcast_S2x1x1024x1_S2x1x1024x1024_0_1_2_3 : S2x1x1024x1.BroadcastsInDim S2x1x1024x1024 (![0, 1, 2, 3] : Fin 4 → Fin S2x1x1024x1024.rank)
  bcast_S2x1x1x1024_S2x1x1024x1024_0_1_2_3 : S2x1x1x1024.BroadcastsInDim S2x1x1024x1024 (![0, 1, 2, 3] : Fin 4 → Fin S2x1x1024x1024.rank)
  bcast_S2x1x1024x1024_S2x16x1024x1024_0_1_2_3 : S2x1x1024x1024.BroadcastsInDim S2x16x1024x1024 (![0, 1, 2, 3] : Fin 4 → Fin S2x16x1024x1024.rank)
  transposes_S2x16x1024x64_S2x1024x16x64_0_2_1_3 : S2x16x1024x64.Transposes [0, 2, 1, 3] S2x1024x16x64
  shapeCasts_S2x1024x16x64_S2x1024x1024 : S2x1024x16x64.ShapeCasts S2x1024x1024
  reducesTo_S2x1024x1024_S2x1024_d2 : S2x1024x1024.ReducesTo [2] S2x1024
  bcast_S2x1024_S2x1024x1_0_1 : S2x1024.BroadcastsInDim S2x1024x1 (![0, 1] : Fin 2 → Fin S2x1024x1.rank)
  bcast_S_S2x1024x1 : S_.BroadcastsInDim S2x1024x1 (![] : Fin 0 → Fin S2x1024x1.rank)
  bcast_S2x1024x1_S2x1024x1024_0_1_2 : S2x1024x1.BroadcastsInDim S2x1024x1024 (![0, 1, 2] : Fin 3 → Fin S2x1024x1024.rank)
  dot_S2x1024x1024_S1024x1024_S2x1024x1024_2_1_01_0_n_n_wf : DotDims.WF S2x1024x1024 S1024x1024 S2x1024x1024 [2] [1] [0, 1] [0] [] []
  dot_S2x16x1024x64_S2x16x1024x64_S2x16x1024x1024_3_3_2_2_01_01_wf : DotDims.WF S2x16x1024x64 S2x16x1024x64 S2x16x1024x1024 [3] [3] [2] [2] [0, 1] [0, 1]
  dot_S2x16x1024x1024_S2x16x1024x64_S2x16x1024x64_3_2_2_3_01_01_wf : DotDims.WF S2x16x1024x1024 S2x16x1024x64 S2x16x1024x64 [3] [2] [2] [3] [0, 1] [0, 1]

variable [Facts₀]

def dot_S2x1024x1024_S1024x1024_S2x1024x1024_2_1_01_0_n_n : DotDims S2x1024x1024 S1024x1024 S2x1024x1024 where
  lhsContracting := [2]
  rhsContracting := [1]
  lhsNonContracting := [0, 1]
  rhsNonContracting := [0]
  lhsBatch := []
  rhsBatch := []
  wf := dot_S2x1024x1024_S1024x1024_S2x1024x1024_2_1_01_0_n_n_wf
def dot_S2x16x1024x64_S2x16x1024x64_S2x16x1024x1024_3_3_2_2_01_01 : DotDims S2x16x1024x64 S2x16x1024x64 S2x16x1024x1024 where
  lhsContracting := [3]
  rhsContracting := [3]
  lhsNonContracting := [2]
  rhsNonContracting := [2]
  lhsBatch := [0, 1]
  rhsBatch := [0, 1]
  wf := dot_S2x16x1024x64_S2x16x1024x64_S2x16x1024x1024_3_3_2_2_01_01_wf
def dot_S2x16x1024x1024_S2x16x1024x64_S2x16x1024x64_3_2_2_3_01_01 : DotDims S2x16x1024x1024 S2x16x1024x64 S2x16x1024x64 where
  lhsContracting := [3]
  rhsContracting := [2]
  lhsNonContracting := [2]
  rhsNonContracting := [3]
  lhsBatch := [0, 1]
  rhsBatch := [0, 1]
  wf := dot_S2x16x1024x1024_S2x16x1024x64_S2x16x1024x64_3_2_2_3_01_01_wf

class Facts : Prop extends Facts₀ where

variable [Facts]
-- ==== Proof.K.Dat0.lean ====
/- REGION 0 of @main (custom_call 0, `cc0__qkv_proj_kernel`, pipeline 0), class A, at a PARAMETER `V` — the
   TensorCore's buffer contents when the region is entered: each window's block at a point (`Fr.iblk0`), the
   rectangles the body reads and writes, what the body leaves in the output window's buffer as a function of the
   input blocks (`Fr.out0_7`: three stores tiling the 512x3072 block in column thirds), and the pipeline's proof
   data (`Fr.dat0`) with its projections. Definitions and projection lemmas only. -/
import proofs.«416712_j77146202571310_3_alg».proof.Proof.Gen.Kernel.Launch
import proofs.«416712_j77146202571310_3_alg».proof.Proof.Gen.Kernel.Skeleton
import proofs.«416712_j77146202571310_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 0 is entered: the parameter the region's half is stated at
variable (V : (c : Dev nD) → (b : Ref sig .tc) → Buf (Elt F) ((c : Thread nD τ).loc b))

/-! # REGION 0 of @main: custom_call 0, `cc0__qkv_proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole activation block (window 0), -/
abbrev r0_0 : Rect S512x1024 := Rect.unit (s := S512x1024) ![0, 0] S512x1024.size inb_S512x1024_S512x1024_0_0
/-- a whole weight matrix (windows 1, 2, 3), -/
abbrev r0_1 : Rect S1024x1024 := Rect.unit (s := S1024x1024) ![0, 0] S1024x1024.size inb_S1024x1024_S1024x1024_0_0
/-- a whole bias row (windows 4, 5, 6), -/
abbrev r0_2 : Rect S1x1024 := Rect.unit (s := S1x1024) ![0, 0] S1x1024.size inb_S1x1024_S1x1024_0_0
/-- and the three column thirds of the output block (window 7): columns 0…1023, -/
abbrev r0_3 : Rect S512x3072 := Rect.unit (s := S512x3072) ![0, 0] S512x1024.size inb_S512x3072_S512x1024_0_0
/-- columns 1024…2047, -/
abbrev r0_4 : Rect S512x3072 := Rect.unit (s := S512x3072) ![0, 1024] S512x1024.size inb_S512x3072_S512x1024_0_1024
/-- columns 2048…3071. -/
abbrev r0_5 : Rect S512x3072 := Rect.unit (s := S512x3072) ![0, 2048] S512x1024.size inb_S512x3072_S512x1024_0_2048

/-! ## What the body leaves in the output window's buffer -/

/-- Window 7's staging buffer after the body, from the input windows' blocks: its 3 stores as pieces, LAST FIRST
    (the payloads are the skeleton's). The activation block `x0` feeds all three; third `j` multiplies it by weight
    matrix `x(1+j)` and adds bias row `x(4+j)`. The load of the output's own rectangle that precedes each store
    is read by no payload and contributes nothing. -/
def out0_7 (x0 : Vec F S512x1024 .f32) (x1 : Vec F S1024x1024 .bf16) (x2 : Vec F S1024x1024 .bf16) (x3 : Vec F S1024x1024 .bf16)
    (x4 : Vec F S1x1024 .f32) (x5 : Vec F S1x1024 .f32) (x6 : Vec F S1x1024 .f32) : Vec F S512x3072 .f32 :=
  View.canon [⟨r0_5, k0_pay4 (View.ld x0 r0_0) (View.ld x3 r0_1) (View.ld x6 r0_2)⟩,
    ⟨r0_4, k0_pay3 (View.ld x0 r0_0) (View.ld x2 r0_1) (View.ld x5 r0_2)⟩,
    ⟨r0_3, k0_pay2 (View.ld x0 r0_0) (View.ld x1 r0_1) (View.ld x4 r0_2)⟩]

/-! ## The pipeline's proof data -/

/-- The proof data of pipeline 0 on core `c`: the arrays as the region finds them (`V`); after the body at point
    `t` each input's buffer at its block and the output's at `out0_7` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := fun _ => fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

end Cert.Kernel.Fr

end
-- ==== Proof.K.Body0.lean ====
/- REGION 0 of @main (custom_call 0, `cc0__qkv_proj_kernel`, pipeline 0), class A, at the entry contents `V`: each input
   window's staging buffer holds its block at every point (`Fr.before0_W`), the three stores cover the output block
   (`Fr.cover0_7`), the body's triple (`Fr.sound_kernel0`), and the library's body obligation at every point
   (`Fr.body_obligation0`) over the proof data `Fr.dat0`. -/
import proofs.«416712_j77146202571310_3_alg».proof.Proof.K.Dat0

-- membership in a rectangle of production extents: the elaborator's structural look recurses once per coordinate
-- of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 0 is entered: the parameter the region's half is stated at
variable (V : (c : Dev nD) → (b : Ref sig .tc) → Buf (Elt F) ((c : Thread nD τ).loc b))

/-! # REGION 0 of @main: custom_call 0, `cc0__qkv_proj_kernel` (pipeline 0) — the body's triple and obligation -/

/-! ## The input windows' staging buffers hold their blocks -/

/-- Input window 0's current staging buffer holds its block at every point, fetched there or not, for ANY proof data
    whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof data
    whose array is `V`'s (`hA`) and whose body leaves the block in place (`hafter`): unfetched, the block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof data
    whose array is `V`'s (`hA`) and whose body leaves the block in place (`hafter`): unfetched, the block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof data
    whose array is `V`'s (`hA`) and whose body leaves the block in place (`hafter`): unfetched, the block index has
    not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof data
    whose array is `V`'s (`hA`) and whose body leaves the block in place (`hafter`): unfetched, the block index has
    not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof data
    whose array is `V`'s (`hA`) and whose body leaves the block in place (`hafter`): unfetched, the block index has
    not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY proof data
    whose array is `V`'s (`hA`) and whose body leaves the block in place (`hafter`): unfetched, the block index has
    not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The stores cover the output block -/

/-- The three stores tile the 512x3072 block in column thirds of 512x1024 (checked by evaluation), so they cover it. -/
theorem cover0_7 (p0 : Vec F S512x1024 .f32) (p1 : Vec F S512x1024 .f32) (p2 : Vec F S512x1024 .f32) (y : S512x3072.Idx) :
    ∃ pc ∈ ([⟨r0_5, p0⟩, ⟨r0_4, p1⟩, ⟨r0_3, p2⟩] : List (View.Piece (Elt F) S512x3072 .f32)), y ∈ pc.1.set :=
  View.cover_of_tiled [⟨r0_5, p0⟩, ⟨r0_4, p1⟩, ⟨r0_3, p2⟩] S512x1024.size (by rfl) y

/-! ## The body's triple -/

set_option maxHeartbeats 1000000 in
/-- The kernel body on whole staging memrefs, the inputs' at read contents `xW` and the output's at anything, runs to
    the continuation holding the inputs' as they were and the output's at `out0_7` of the inputs': the printed
    function is its skeleton, which the symbolic executor runs; the grid coordinate is not read. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x3072 .f32) (harg8 : arg8.IsWhole)
    (x0 : Vec F S512x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__qkv_proj_kernel i arg1 harg1 arg2 harg2 arg3 harg3 arg4 harg4 arg5 harg5 arg6 harg6 arg7 harg7 arg8 harg8) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _ _ _)

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Dat1.lean ====
/- The class-A data of REGION 1 of @main (custom_call 1, `cc1__attn_kernel`, pipeline 1), at a PARAMETER `V` — the
   TensorCore's buffer contents when the region is entered: each window's block at a point (`Fr.iblk1`), the body's
   access rectangles (`Fr.r1_N`), what the body leaves in the output window's staging buffer as a function of the input
   blocks (`Fr.out1_6`: its two stores as pieces over the skeleton's payloads), and the pipeline's proof data
   (`Fr.dat1`) with its projections. Windows 0, 1 and 2 are three input windows on ONE array: they hold it at three
   shares that compose to the full share. -/
import proofs.«416712_j77146202571310_3_alg».proof.Proof.Gen.Kernel.Launch
import proofs.«416712_j77146202571310_3_alg».proof.Proof.Gen.Kernel.Skeleton
import proofs.«416712_j77146202571310_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # REGION 1 of @main: custom_call 1, `cc1__attn_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole of a query, key or value block (windows 0, 1, 2). -/
abbrev r1_0 : Rect S1024x128 := Rect.unit (s := S1024x128) ![0, 0] S1024x128.size inb_S1024x128_S1024x128_0_0
/-- The whole of the key-side mask block (window 5). -/
abbrev r1_1 : Rect S1x1x1024 := Rect.unit (s := S1x1x1024) ![0, 0, 0] S1x1x1024.size inb_S1x1x1024_S1x1x1024_0_0_0
/-- The whole of the query-side mask block (window 4). -/
abbrev r1_2 : Rect S1x1024x1 := Rect.unit (s := S1x1024x1) ![0, 0, 0] S1x1024x1.size inb_S1x1024x1_S1x1024x1_0_0_0
/-- The first head's slab of the noise block (window 3). -/
abbrev r1_3 : Rect S1x2x1024x1024 := Rect.unit (s := S1x2x1024x1024) ![0, 0, 0, 0] S1x1x1024x1024.size inb_S1x2x1024x1024_S1x1x1024x1024_0_0_0_0
/-- Columns 0…63 of the output block: the first head's store. -/
abbrev r1_4 : Rect S1024x128 := Rect.unit (s := S1024x128) ![0, 0] S1024x64.size inb_S1024x128_S1024x64_0_0
/-- The second head's slab of the noise block (window 3). -/
abbrev r1_5 : Rect S1x2x1024x1024 := Rect.unit (s := S1x2x1024x1024) ![0, 1, 0, 0] S1x1x1024x1024.size inb_S1x2x1024x1024_S1x1x1024x1024_0_1_0_0
/-- Columns 64…127 of the output block: the second head's store. -/
abbrev r1_6 : Rect S1024x128 := Rect.unit (s := S1024x128) ![0, 64] S1024x64.size inb_S1024x128_S1024x64_0_64

/-! ## What the body leaves in the output window's buffer -/

/-- Window 6's staging buffer after the body, from the input windows' blocks: its 2 stores as pieces, LAST FIRST
    (the payloads are the skeleton's, the second part's composed over the values the first part hands it). The
    second head's columns 64…127 are the payload of the second store, over the three blocks' cast values, the two
    masks and the second noise slab; the first head's columns 0…63 are the payload of the first store, over the
    masks, the truncated first half of the value block, the exponentials and their row sums. Each store is
    preceded by a load of the same rectangle of the output buffer that nothing reads: it contributes no piece. -/
def out1_6 (x0 : Vec F S1024x128 .f32) (x1 : Vec F S1024x128 .f32) (x2 : Vec F S1024x128 .f32)
    (x3 : Vec F S1x2x1024x1024 .f32) (x4 : Vec F S1x1024x1 .f32) (x5 : Vec F S1x1x1024 .f32) : Vec F S1024x128 .f32 :=
  View.canon [
    ⟨r1_6, k1_pay10 (k1_pay1 (View.ld x0 r1_0)) (k1_pay2 (View.ld x1 r1_0)) (k1_pay3 (View.ld x2 r1_0))
      (k1_pay4 (View.ld x5 r1_1)) (k1_pay5 (View.ld x4 r1_2)) (View.ld x3 r1_5)⟩,
    ⟨r1_4, k1_pay9 (k1_pay4 (View.ld x5 r1_1)) (k1_pay5 (View.ld x4 r1_2)) (k1_pay6 (View.ld x2 r1_0))
      (k1_pay7 (View.ld x0 r1_0) (View.ld x1 r1_0) (View.ld x3 r1_3))
      (k1_pay8 (View.ld x0 r1_0) (View.ld x1 r1_0) (View.ld x3 r1_3))⟩]

/-! ## The pipeline's proof data -/

/-- The proof data of pipeline 1 on core `c`: the arrays as the region finds them (`V`); after the body at point
    `t` each input's buffer at its block and the output's at `out1_6` of the input blocks; the invariant the class's
    (the scoped rest and the generator register, untouched); nothing owed. Windows 0, 1, 2 read ONE array: each
    holds it at its own share — the left half, the left half of the right half, the right half of the right half —,
    which compose to the full share; every other input is held at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q := fun w => match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`, never `rfl`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by
  dsimp only [dat1]

/-- The shares the proof data hold the input arrays at, window by window. -/
theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]
theorem q1_6 (c : Dev nD) : (dat1 V c).q 6 = fullShare := by dsimp only [dat1]

/-- Nothing is owed at any point, and the invariant is the class's at every point. -/
theorem owed1 (c : Dev nD) (t : Fin (cfg1.N + 1)) : (dat1 V c).owed t = 0 := by dsimp only [dat1]
theorem Φ1 (c : Dev nD) (t : Fin (cfg1.N + 1)) : (dat1 V c).Φ t = Pipeline.ΦA spec1 c := by dsimp only [dat1]

end Cert.Kernel.Fr

end
-- ==== Proof.K.Body1.lean ====
/- The class-A half of REGION 1 of @main (custom_call 1, `cc1__attn_kernel`, pipeline 1), at the entry contents `V`:
   each input window's staging buffer holds its block at every point (`Fr.before1_W`), the output block's two stores
   cover it (`Fr.cover1_6`), the body's triple (`Fr.sound_kernel1`), and the library's body obligation of the proof
   data `Fr.dat1` (`Fr.body_obligation1`). -/
import proofs.«416712_j77146202571310_3_alg».proof.Proof.K.Dat1

-- membership in a rectangle of production extents: the elaborator's structural look recurses once per coordinate of
-- the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! ## What each input window's staging buffer holds when the body runs -/

/-- Input window 0's current staging buffer holds its block at every point, fetched there or not, for ANY proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The output block is covered -/

/-- The two stores — columns 64…127 and columns 0…63 — tile the output block (checked by evaluation), so they cover it. -/
theorem cover1_6 (p1 p0 : Vec F S1024x64 .f32) (y : S1024x128.Idx) :
    ∃ pc ∈ ([⟨r1_6, p1⟩, ⟨r1_4, p0⟩] : List (View.Piece (Elt F) S1024x128 .f32)), y ∈ pc.1.set :=
  View.cover_of_tiled [⟨r1_6, p1⟩, ⟨r1_4, p0⟩] S1024x64.size (by rfl) y

/-! ## The body's triple -/

set_option maxHeartbeats 1000000 in
/-- The kernel body on whole staging memrefs, the inputs' at read contents `xW` and the output's at anything, runs to
    the continuation holding the inputs' as they were and the output's at `out1_6` of the inputs': the printed function
    and its two parts are their skeletons, which are run statement by statement, through both part calls. -/
theorem sound_kernel1 (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x2x1024x1024 .f32) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .f32) (harg8 : arg8.IsWhole)
    (x0 : Vec F S1024x128 .f32) (x1 : Vec F S1024x128 .f32) (x2 : Vec F S1024x128 .f32) (x3 : Vec F S1x2x1024x1024 .f32) (x4 : Vec F S1x1024x1 .f32) (x5 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _ _)

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Dat2.lean ====
/- REGION 2 of @main — custom_call 2, `cc2__out_ln_kernel` (pipeline 2: output projection, residual, LayerNorm) — at
   a PARAMETER `V`, the TensorCore's buffer contents when the region is entered: each window's block at a point
   (`iblk2`), the body's access rectangles, what the body leaves in the output window's buffer as a function of the six
   input blocks (`out2_6`: one store of the payload `k2_pay1` over the whole block), the pipeline's proof data (`dat2`)
   and its projections. -/
import proofs.«416712_j77146202571310_3_alg».proof.Proof.Gen.Kernel.Launch
import proofs.«416712_j77146202571310_3_alg».proof.Proof.Gen.Kernel.Skeleton
import proofs.«416712_j77146202571310_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 2 is entered: the parameter this region's half is stated at
variable (V : (c : Dev nD) → (b : Ref sig .tc) → Buf (Elt F) ((c : Thread nD τ).loc b))

/-! # REGION 2 of @main: custom_call 2, `cc2__out_ln_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses -/

/-- The whole 512×1024 block: the loads of windows 0 and 3 and the one store of window 6. -/
abbrev r2_0 : Rect S512x1024 := Rect.unit (s := S512x1024) ![0, 0] S512x1024.size inb_S512x1024_S512x1024_0_0
/-- The whole 1024×1024 block: the load of window 1. -/
abbrev r2_1 : Rect S1024x1024 := Rect.unit (s := S1024x1024) ![0, 0] S1024x1024.size inb_S1024x1024_S1024x1024_0_0
/-- The whole 1×1024 block: the loads of windows 2, 4 and 5. -/
abbrev r2_2 : Rect S1x1024 := Rect.unit (s := S1x1024) ![0, 0] S1x1024.size inb_S1x1024_S1x1024_0_0

/-! ## What the body leaves in the output window's buffer -/

/-- Window 6's staging buffer after the body, from the input windows' blocks: its 1 store as pieces, LAST FIRST
    (the payload is the skeleton's: the projection of block 0 by block 1 plus the bias row 2, plus the residual
    block 3, normalised along the rows, scaled by row 4 and shifted by row 5). The load of the output buffer that
    precedes the store is dead and contributes no piece. -/
def out2_6 (x0 : Vec F S512x1024 .f32) (x1 : Vec F S1024x1024 .bf16) (x2 : Vec F S1x1024 .f32)
    (x3 : Vec F S512x1024 .f32) (x4 : Vec F S1x1024 .f32) (x5 : Vec F S1x1024 .f32) : Vec F S512x1024 .f32 :=
  View.canon [⟨r2_0, k2_pay1 (View.ld x0 r2_0) (View.ld x1 r2_1) (View.ld x2 r2_2) (View.ld x3 r2_0) (View.ld x4 r2_2) (View.ld x5 r2_2)⟩]

/-! ## The pipeline's proof data -/

/-- The proof data of pipeline 2 on core `c`: the arrays as the region finds them (`V`); after the body at point `t`
    each input's buffer at its block and the output's at `out2_6` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

end Cert.Kernel.Fr

end
-- ==== Proof.K.Body2.lean ====
/- REGION 2 of @main — custom_call 2, `cc2__out_ln_kernel` (pipeline 2) — at the entry contents `V`: what the body finds
   in each input window's buffer (its block, fetched at the point or not), the one store covering the output block, the
   body's triple, and the body obligation of the pipeline's proof data `dat2`. -/
import proofs.«416712_j77146202571310_3_alg».proof.Proof.K.Dat2

-- membership in a rectangle of production extents: the elaborator's structural look recurses once per coordinate
-- of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 2 is entered: the parameter this region's half is stated at
variable (V : (c : Dev nD) → (b : Ref sig .tc) → Buf (Elt F) ((c : Thread nD τ).loc b))

/-! ## What the body finds in each input window's buffer -/

/-- Input window 0's current staging buffer holds its block at every point, fetched there or not, for ANY proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for ANY proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The store covers the output block -/

/-- The one store is of the whole block (checked by evaluation), so it covers it. -/
theorem cover2_6 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The kernel body on whole staging memrefs, the inputs' at read contents `xW` and the output's at anything, runs to
    the continuation holding the inputs' as they were and the output's at `out2_6` of the inputs': the printed
    function and its part are their skeletons, whose memory operations are six whole-block loads, a dead load of the
    output buffer and one whole-block store. -/
theorem sound_kernel2 (c : Dev nD) (E : Set ℕ) (i : grid2.Coords)
    (arg0 : Memref sig .tc .vmem S512x1024 .f32) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S512x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S512x1024 .f32) (harg6 : arg6.IsWhole)
    (x0 : Vec F S512x1024 .f32) (x1 : Vec F S1024x1024 .bf16) (x2 : Vec F S1x1024 .f32) (x3 : Vec F S512x1024 .f32) (x4 : Vec F S1x1024 .f32) (x5 : Vec F S1x1024 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E
          (cc2__out_ln_kernel i arg0 harg0 arg1 harg1 arg2 harg2 arg3 harg3 arg4 harg4 arg5 harg5 arg6 harg6) K := by
  simp only [cc2__out_ln_kernel_eq_skeleton]; unfold cc2__out_ln_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Share1.lean ====
/- REGION 1 of @main (custom_call 1, pipeline 1): its windows' arrays in and out of the buffers behind them. Input
   windows 0, 1 and 2 read ONE array, `main_v8`; the distinct buffers behind the seven windows' arrays are five, each
   held whole at the full share. Entering the region, the shared buffer's full share splits into the three shares the
   proof data `Fr.dat1` hold it at (left; right-left; right-right), and the five buffers become the seven windows'
   arrays (`Fr.arrays_split1`); leaving it, the three shares compose back and the seven become the five at the exit
   contents — the inputs as entered, the output as its write-backs leave it (`Fr.arrays_join1`). -/
import proofs.«416712_j77146202571310_3_alg».proof.Proof.K.Dat1
import Idealize.ShloMosaic.Lib.Pipeline.Launch
import Idealize.ShloMosaic.Lib.Pipeline.Kit
import Idealize.ShloMosaic.Lib.Pipeline.Cells
import Idealize.ShloMosaic.Rules.PointsTo

-- membership in a rectangle of production extents: the elaborator's structural look recurses once per coordinate
-- of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # REGION 1 of @main: the windows' arrays and the buffers behind them -/

/-! ## The five buffers, one by one -/

/-- The distinct buffers behind region 1's window arrays are `main_v8` (windows 0, 1, 2), `main_arg2` (window 3),
    `main_v9` (4), `main_v10` (5) and `main_v11` (6, the output): each whole at the full share, as a chain. -/
theorem arrBufs1_eq (c : Dev nD) (W : (b : Ref sig .tc) → Buf (Elt F) ((c : Thread nD τ).loc b)) :
    (Pipeline.arrBufs spec1 c W : sProp 𝕄)
      = iprop((((c : Thread nD τ).loc main_v8) ↦{fullShare} W main_v8) ∗ (((c : Thread nD τ).loc main_arg2) ↦{fullShare} W main_arg2)
          ∗ (((c : Thread nD τ).loc main_v9) ↦{fullShare} W main_v9) ∗ (((c : Thread nD τ).loc main_v10) ↦{fullShare} W main_v10)
          ∗ (((c : Thread nD τ).loc main_v11) ↦{fullShare} W main_v11)) := by
  unfold Pipeline.arrBufs
  exact bigSep_eq_bigSepL_of_eq [main_v8, main_arg2, main_v9, main_v10, main_v11] (by decide) (by decide) _

/-! ## The seven windows' arrays, one by one -/

/-- The share the proof data hold each window's array at: an input's own, the output's full. -/
theorem share1_0 (c : Dev nD) : (dat1 V c).share 0 = fullShare.left := by unfold Dat.share; rw [q1_0]; rfl
theorem share1_1 (c : Dev nD) : (dat1 V c).share 1 = fullShare.right.left := by unfold Dat.share; rw [q1_1]; rfl
theorem share1_2 (c : Dev nD) : (dat1 V c).share 2 = fullShare.right.right := by unfold Dat.share; rw [q1_2]; rfl
theorem share1_3 (c : Dev nD) : (dat1 V c).share 3 = fullShare := by unfold Dat.share; rw [q1_3]; rfl
theorem share1_4 (c : Dev nD) : (dat1 V c).share 4 = fullShare := by unfold Dat.share; rw [q1_4]; rfl
theorem share1_5 (c : Dev nD) : (dat1 V c).share 5 = fullShare := by unfold Dat.share; rw [q1_5]; rfl
theorem share1_6 (c : Dev nD) : (dat1 V c).share 6 = fullShare := by unfold Dat.share; rfl

/-- Window `w`'s array is a whole buffer, so its points-to is the buffer's, at the window's share. -/
theorem arr1_0 (c : Dev nD) (X : Buf (Elt F) ((cfg1.win 0).arr.view.loc (c : Thread nD τ))) :
    ((cfg1.win 0).arr.view.loc (c : Thread nD τ) ↦[(cfg1.win 0).arr.view.set]{(dat1 V c).share 0} X : sProp 𝕄)
      = (((c : Thread nD τ).loc main_v8) ↦{fullShare.left} X) := by
  rewrite [(arr_whole1 0).set_eq_univ, share1_0]; rfl
theorem arr1_1 (c : Dev nD) (X : Buf (Elt F) ((cfg1.win 1).arr.view.loc (c : Thread nD τ))) :
    ((cfg1.win 1).arr.view.loc (c : Thread nD τ) ↦[(cfg1.win 1).arr.view.set]{(dat1 V c).share 1} X : sProp 𝕄)
      = (((c : Thread nD τ).loc main_v8) ↦{fullShare.right.left} X) := by
  rewrite [(arr_whole1 1).set_eq_univ, share1_1]; rfl
theorem arr1_2 (c : Dev nD) (X : Buf (Elt F) ((cfg1.win 2).arr.view.loc (c : Thread nD τ))) :
    ((cfg1.win 2).arr.view.loc (c : Thread nD τ) ↦[(cfg1.win 2).arr.view.set]{(dat1 V c).share 2} X : sProp 𝕄)
      = (((c : Thread nD τ).loc main_v8) ↦{fullShare.right.right} X) := by
  rewrite [(arr_whole1 2).set_eq_univ, share1_2]; rfl
theorem arr1_3 (c : Dev nD) (X : Buf (Elt F) ((cfg1.win 3).arr.view.loc (c : Thread nD τ))) :
    ((cfg1.win 3).arr.view.loc (c : Thread nD τ) ↦[(cfg1.win 3).arr.view.set]{(dat1 V c).share 3} X : sProp 𝕄)
      = (((c : Thread nD τ).loc main_arg2) ↦{fullShare} X) := by
  rewrite [(arr_whole1 3).set_eq_univ, share1_3]; rfl
theorem arr1_4 (c : Dev nD) (X : Buf (Elt F) ((cfg1.win 4).arr.view.loc (c : Thread nD τ))) :
    ((cfg1.win 4).arr.view.loc (c : Thread nD τ) ↦[(cfg1.win 4).arr.view.set]{(dat1 V c).share 4} X : sProp 𝕄)
      = (((c : Thread nD τ).loc main_v9) ↦{fullShare} X) := by
  rewrite [(arr_whole1 4).set_eq_univ, share1_4]; rfl
theorem arr1_5 (c : Dev nD) (X : Buf (Elt F) ((cfg1.win 5).arr.view.loc (c : Thread nD τ))) :
    ((cfg1.win 5).arr.view.loc (c : Thread nD τ) ↦[(cfg1.win 5).arr.view.set]{(dat1 V c).share 5} X : sProp 𝕄)
      = (((c : Thread nD τ).loc main_v10) ↦{fullShare} X) := by
  rewrite [(arr_whole1 5).set_eq_univ, share1_5]; rfl
theorem arr1_6 (c : Dev nD) (X : Buf (Elt F) ((cfg1.win 6).arr.view.loc (c : Thread nD τ))) :
    ((cfg1.win 6).arr.view.loc (c : Thread nD τ) ↦[(cfg1.win 6).arr.view.set]{(dat1 V c).share 6} X : sProp 𝕄)
      = (((c : Thread nD τ).loc main_v11) ↦{fullShare} X) := by
  rewrite [(arr_whole1 6).set_eq_univ, share1_6]; rfl

/-- The pipeline's arrays at contents `G`: the seven are points-tos of whole buffers — three of `main_v8` at the
    three shares, one each of the other four at the full share. -/
theorem arrays1_eq (c : Dev nD) (G : (w : Fin cfg1.W) → Buf (Elt F) ((cfg1.win w).arr.view.loc (c : Thread nD τ))) :
    (dat1 V c).arrays G
      = iprop((((c : Thread nD τ).loc main_v8) ↦{fullShare.left} G 0) ∗ (((c : Thread nD τ).loc main_v8) ↦{fullShare.right.left} G 1)
          ∗ (((c : Thread nD τ).loc main_v8) ↦{fullShare.right.right} G 2) ∗ (((c : Thread nD τ).loc main_arg2) ↦{fullShare} G 3)
          ∗ (((c : Thread nD τ).loc main_v9) ↦{fullShare} G 4) ∗ (((c : Thread nD τ).loc main_v10) ↦{fullShare} G 5)
          ∗ (((c : Thread nD τ).loc main_v11) ↦{fullShare} G 6)) := by
  unfold Dat.arrays
  rewrite [bigSep_W1]
  exact congrArg₂ BI.sep (arr1_0 V c _) (congrArg₂ BI.sep (arr1_1 V c _) (congrArg₂ BI.sep (arr1_2 V c _)
    (congrArg₂ BI.sep (arr1_3 V c _) (congrArg₂ BI.sep (arr1_4 V c _) (congrArg₂ BI.sep (arr1_5 V c _) (arr1_6 V c _))))))

/-! ## Into the region -/

/-- Entering region 1: the five buffers at the entry contents `V` are the seven windows' arrays at their entry
    contents, the shared buffer's full share split as left ∗ (right-left ∗ right-right). -/
theorem arrays_split1 (c : Dev nD) : (Pipeline.arrBufs spec1 c (V c) : sProp 𝕄) ⊢ (dat1 V c).arrays ((dat1 V c).arrAt · 0) := by
  rewrite [arrBufs1_eq, arrays1_eq]
  iintro ⟨H8, H2, H9, H10, H11⟩
  ihave H8 := (pointsTo_share (PosShare.mem_left_op_right fullShare)).1 $$ H8
  icases H8 with ⟨H8l, H8r⟩
  ihave H8r := (pointsTo_share (PosShare.mem_left_op_right fullShare.right)).1 $$ H8r
  icases H8r with ⟨H8rl, H8rr⟩
  isplitl [H8l]; · iexact H8l
  isplitl [H8rl]; · iexact H8rl
  isplitl [H8rr]; · iexact H8rr
  isplitl [H2]; · iexact H2
  isplitl [H9]; · iexact H9
  isplitl [H10]; · iexact H10
  iexact H11

/-! ## Out of the region -/

/-- An input window's array leaves the region as it entered it. -/
theorem arrAt1_in (c : Dev nD) (w : Fin cfg1.W) (hw : (cfg1.win w).isOut = false) (n : ℕ) :
    (dat1 V c).arrAt w n = V c (Pipeline.arrRef spec1 w) :=
  ((dat1 V c).arrAt_in w hw n).trans (A_eq1 V c w)

/-- Leaving region 1: the seven windows' arrays at their exit contents are the five buffers at any contents `V'`
    that are the output's write-backs at `main_v11` (`hout`) and the entry contents elsewhere (`hkeep`), the three
    shares of the shared buffer composed back to the full share. -/
theorem arrays_join1 (c : Dev nD) (V' : (b : Ref sig .tc) → Buf (Elt F) ((c : Thread nD τ).loc b))
    (hout : V' main_v11 = (dat1 V c).arrAt 6 cfg1.N) (hkeep : ∀ b : Ref sig .tc, b ≠ main_v11 → V' b = V c b) :
    (dat1 V c).arrays ((dat1 V c).arrAt · cfg1.N) ⊢ (Pipeline.arrBufs spec1 c V' : sProp 𝕄) := by
  rewrite [arrBufs1_eq, arrays1_eq, hout, hkeep main_v8 (by decide), hkeep main_arg2 (by decide), hkeep main_v9 (by decide),
    hkeep main_v10 (by decide)]
  simp only [arrAt1_in V c 0 rfl, arrAt1_in V c 1 rfl, arrAt1_in V c 2 rfl, arrAt1_in V c 3 rfl, arrAt1_in V c 4 rfl,
    arrAt1_in V c 5 rfl]
  iintro ⟨H8l, H8rl, H8rr, H2, H9, H10, H11⟩
  isplitl [H8l H8rl H8rr]
  · iapply (pointsTo_share (PosShare.mem_left_op_right fullShare)).2
    isplitl [H8l]; · iexact H8l
    iapply (pointsTo_share (PosShare.mem_left_op_right fullShare.right)).2
    isplitl [H8rl]; · iexact H8rl
    iexact H8rr
  isplitl [H2]; · iexact H2
  isplitl [H9]; · iexact H9
  isplitl [H10]; · iexact H10
  iexact H11

end Cert.Kernel.Fr

end
-- ==== Proof.K.Fold.lean ====
import proofs.«416712_j77146202571310_3_alg».proof.Proof.K.Dat0
import proofs.«416712_j77146202571310_3_alg».proof.Proof.K.Dat1
import proofs.«416712_j77146202571310_3_alg».proof.Proof.K.Dat2
import proofs.«416712_j77146202571310_3_alg».proof.Proof.Gen.Kernel.Regions

/-!
# The buffers' contents between the items of the program

The program is: a stretch of host operations (casts of the four weights, reshapes of the input and of the
three projection biases); the projection kernel; two reshapes of the mask; the attention kernel; three
reshapes (output bias, gain, bias); the output kernel; one reshape of its result. `W0` … `W7` are the
core's buffer contents at the eight boundaries: a host stretch applies its operations, a kernel region
replaces its output array by what its write-backs leave and changes nothing else.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the projection kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its output array `main_v8` at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention kernel's exit: its output array `main_v11` at what its write-backs leave (three of its input
    windows read one array, so the exit contents are written as an update at the output, not window by window). -/
def W4 (c : Dev nD) : Valuation τ sig (Elt F) :=
  Function.update (W3 m ρ c) (Proc.devRef .tc main_v11) ((dat1 (V3 m ρ) c).arrAt 6 cfg1.N)
theorem W4_out (c : Dev nD) : W4 m ρ c (Proc.devRef .tc main_v11) = (dat1 (V3 m ρ) c).arrAt 6 cfg1.N := by
  unfold W4; exact Function.update_self ..
theorem W4_of_ne (c : Dev nD) (b : Ref sig .tc) (hb : b ≠ main_v11) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-- After the third host stretch (the output kernel's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the output kernel's exit: its output array `main_v15` at what its write-backs leave. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the program's end. -/
abbrev W7 : Dev nD → Valuation τ sig (Elt F) := fun c => StableHlo.after hostOps3 (W6 m ρ c)

/-! ## What each item leaves unchanged -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h

/-- A buffer that no host stretch writes and that is no array of the projection or the output kernel, nor the
    attention kernel's output, ends as launched. -/
theorem W7_keep (c : Dev nD) (r : Ref sig .tc) (h0 : r ∉ hostOps0_W) (h1 : r ∉ hostOps1_W) (h2 : r ∉ hostOps2_W)
    (h3 : r ∉ hostOps3_W) (ha : ∀ w, Pipeline.arrRef spec0 w ≠ r) (hb : r ≠ main_v11) (hc : ∀ w, Pipeline.arrRef spec2 w ≠ r) :
    W7 m ρ c r = m ((c : Thread nD τ).loc r) :=
  (W7_of m ρ c r h3).trans <| (W6_of_ne m ρ c r hc).trans <| (W5_of m ρ c r h2).trans <| (W4_of_ne m ρ c r hb).trans <|
    (W3_of m ρ c r h1).trans <| (W2_of_ne m ρ c r ha).trans <| (W1_of m ρ c r h0).trans rfl

/-- Each of the thirteen argument arrays ends as launched. -/
theorem W7_arg (c : Dev nD) :
    W7 m ρ c main_arg0 = m ((c : Thread nD τ).loc main_arg0) ∧ W7 m ρ c main_arg1 = m ((c : Thread nD τ).loc main_arg1)
    ∧ W7 m ρ c main_arg2 = m ((c : Thread nD τ).loc main_arg2) ∧ W7 m ρ c main_arg3 = m ((c : Thread nD τ).loc main_arg3)
    ∧ W7 m ρ c main_arg4 = m ((c : Thread nD τ).loc main_arg4) ∧ W7 m ρ c main_arg5 = m ((c : Thread nD τ).loc main_arg5)
    ∧ W7 m ρ c main_arg6 = m ((c : Thread nD τ).loc main_arg6) ∧ W7 m ρ c main_arg7 = m ((c : Thread nD τ).loc main_arg7)
    ∧ W7 m ρ c main_arg8 = m ((c : Thread nD τ).loc main_arg8) ∧ W7 m ρ c main_arg9 = m ((c : Thread nD τ).loc main_arg9)
    ∧ W7 m ρ c main_arg10 = m ((c : Thread nD τ).loc main_arg10) ∧ W7 m ρ c main_arg11 = m ((c : Thread nD τ).loc main_arg11)
    ∧ W7 m ρ c main_arg12 = m ((c : Thread nD τ).loc main_arg12) :=
  ⟨W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide)⟩

end Cert.Kernel.Fr

end
-- ==== Proof.K.Run.lean ====
import proofs.«416712_j77146202571310_3_alg».proof.Proof.K.Body0
import proofs.«416712_j77146202571310_3_alg».proof.Proof.K.Body1
import proofs.«416712_j77146202571310_3_alg».proof.Proof.K.Body2
import proofs.«416712_j77146202571310_3_alg».proof.Proof.K.Share1
import proofs.«416712_j77146202571310_3_alg».proof.Proof.K.Fold

/-!
# The run of the program

Each kernel region, with its body's obligation, is a segment between two of the boundaries of the fold
`W0 … W7`; each host stretch is a segment too. Chained, they give: every weakly fair execution of the program
terminates without a fault, and every buffer that outlives a region ends at `W7`. The frame (the arguments
end as launched) and the result's value are read off that.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No kernel has a prefetched table. -/
abbrev adm : (p : Fin 3) → (pcfgs (F := F) p).Adm := fun p => (cfgs p).toPCfg_adm
/-- Every kernel's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the end's contents, the generator register. -/
abbrev Tₙ (c : Dev nD) : sProp 𝕄 := iprop(StableHlo.held (c : Thread nD τ) (Pipeline.ucRefs τ sig) (W7 m ρ c) ∗ ∃ r, prngReg c r)

/-! ## The regions as segments -/

-- a library lemma stated over the pinned configuration unifies with the printed one only when unification may
-- unfold plain definitions in a metavariable's type
set_option backward.isDefEq.respectTransparency.types false in
/-- The projection kernel's region over the thread state: entered from every unscoped buffer at `W1`, left at
    `W2`. Its arrays are split out of the unscoped buffers at entry and put back at exit; the generator
    register goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention kernel's arrays out of the unscoped buffers at its entry: the one array its three input windows read
    is split into three shares. -/
theorem entry1 (c : Dev nD) :
    (StableHlo.held (c : Thread nD τ) (Pipeline.ucRefs τ sig) (W3 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V3 m ρ c)) := by
  show _ ⊢ iprop((dat1 (V3 m ρ) c).arrays ((dat1 (V3 m ρ) c).arrAt · 0) ∗ Pipeline.unscopedRest spec1 c (V3 m ρ c))
  rw [← Pipeline.unscopedBufs_held c (W3 m ρ c),
    Pipeline.unscopedBufs_split₀ (Pipeline.pin (pcfgs (F := F)) adm) 1 winFacts₀1.arr_unscoped c]
  exact sep_mono (arrays_split1 (V3 m ρ) c) .rfl

/-- … and back at its exit: the three shares rejoined, the output array at what the write-backs left. -/
theorem exit1 (c : Dev nD) :
    iprop((pdats m ρ 1 c).arrays ((pdats m ρ 1 c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  show iprop((dat1 (V3 m ρ) c).arrays ((dat1 (V3 m ρ) c).arrAt · cfg1.N) ∗ Pipeline.unscopedRest spec1 c (V3 m ρ c)) ⊢ _
  rw [← Pipeline.unscopedBufs_held c (W4 m ρ c),
    Pipeline.unscopedBufs_split₀ (Pipeline.pin (pcfgs (F := F)) adm) 1 winFacts₀1.arr_unscoped c]
  refine sep_mono (arrays_join1 (V3 m ρ) c (V4 m ρ c) (W4_out m ρ c) (fun b hb => W4_of_ne m ρ c b hb)) (Entails.of_eq ?_)
  unfold Pipeline.unscopedRest
  exact bigSep_congr fun b hb =>
    congrArg (fun f : Buf (Elt F) ((c : Thread nD τ).loc b) => ((((c : Thread nD τ).loc b) ↦{fullShare} f) : sProp 𝕄))
      (W4_of_ne m ρ c b fun e =>
        (Finset.mem_sdiff.mp hb).2 (Finset.mem_image.mpr ⟨6, Finset.mem_univ _, e ▸ rfl⟩)).symm

set_option backward.isDefEq.respectTransparency.types false in
/-- The attention kernel's region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c); isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The output kernel's region over the thread state: entered from every unscoped buffer at `W5`, left at
    `W6`. Its arrays are split out of the unscoped buffers at entry and put back at exit; the generator
    register goes into the region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer at the end's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 m ρ c)
            ∗ ((∃ r, prngReg c r) ∗ ∃ W, owes (c : Thread nD τ) (0 : CellTallies nD τ sig Unit) W))
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE RUN, READ AT THE RESULT AND THE ARGUMENTS: the result array `main_v16` ends at the end's contents, and the
    thirteen argument arrays end as launched. -/
theorem run_result : θ_run defs (onTc (τ := τ) (main (F := F))) ⟨m, fun _ => 0, ρ⟩ (fun r => ∀ c : Dev nD,
      r.2.mem ((c.tc : Thread nD τ).loc main_v16) = W7 m ρ c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have k := W7_arg m ρ c
    exact ⟨h c _ (mem_uc main_v16 (by decide)),
      (h c _ (mem_uc main_arg0 (by decide))).trans k.1,
      (h c _ (mem_uc main_arg1 (by decide))).trans k.2.1,
      (h c _ (mem_uc main_arg2 (by decide))).trans k.2.2.1,
      (h c _ (mem_uc main_arg3 (by decide))).trans k.2.2.2.1,
      (h c _ (mem_uc main_arg4 (by decide))).trans k.2.2.2.2.1,
      (h c _ (mem_uc main_arg5 (by decide))).trans k.2.2.2.2.2.1,
      (h c _ (mem_uc main_arg6 (by decide))).trans k.2.2.2.2.2.2.1,
      (h c _ (mem_uc main_arg7 (by decide))).trans k.2.2.2.2.2.2.2.1,
      (h c _ (mem_uc main_arg8 (by decide))).trans k.2.2.2.2.2.2.2.2.1,
      (h c _ (mem_uc main_arg9 (by decide))).trans k.2.2.2.2.2.2.2.2.2.1,
      (h c _ (mem_uc main_arg10 (by decide))).trans k.2.2.2.2.2.2.2.2.2.2.1,
      (h c _ (mem_uc main_arg11 (by decide))).trans k.2.2.2.2.2.2.2.2.2.2.2.1,
      (h c _ (mem_uc main_arg12 (by decide))).trans k.2.2.2.2.2.2.2.2.2.2.2.2⟩) (run_all m ρ)

/-- THE FRAME: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_result m ρ)

end Cert.Kernel.Fr

end
-- ==== Proof.KI.Dat0.lean ====
/- REGION 0 of @main (custom_call 0, `cc0__qkv_proj_kernel`, pipeline 0), class A, at a PARAMETER `V` — the
   TensorCore's buffer contents when the region is entered: each window's block at a point (`Fr.iblk0`), the
   rectangles the body reads and writes, what the body leaves in the output window's buffer as a function of the
   input blocks (`Fr.out0_7`: three stores tiling the 512x3072 block in column thirds), and the pipeline's proof
   data (`Fr.dat0`) with its projections. Definitions and projection lemmas only. -/
import proofs.«416712_j77146202571310_3_alg».proof.Proof.Gen.KernelIdeal.Launch
import proofs.«416712_j77146202571310_3_alg».proof.Proof.Gen.KernelIdeal.Skeleton
import proofs.«416712_j77146202571310_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 0 is entered: the parameter the region's half is stated at
variable (V : (c : Dev nD) → (b : Ref sig .tc) → Buf (Elt F) ((c : Thread nD τ).loc b))

/-! # REGION 0 of @main: custom_call 0, `cc0__qkv_proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole activation block (window 0), -/
abbrev r0_0 : Rect S512x1024 := Rect.unit (s := S512x1024) ![0, 0] S512x1024.size inb_S512x1024_S512x1024_0_0
/-- a whole weight matrix (windows 1, 2, 3), -/
abbrev r0_1 : Rect S1024x1024 := Rect.unit (s := S1024x1024) ![0, 0] S1024x1024.size inb_S1024x1024_S1024x1024_0_0
/-- a whole bias row (windows 4, 5, 6), -/
abbrev r0_2 : Rect S1x1024 := Rect.unit (s := S1x1024) ![0, 0] S1x1024.size inb_S1x1024_S1x1024_0_0
/-- and the three column thirds of the output block (window 7): columns 0…1023, -/
abbrev r0_3 : Rect S512x3072 := Rect.unit (s := S512x3072) ![0, 0] S512x1024.size inb_S512x3072_S512x1024_0_0
/-- columns 1024…2047, -/
abbrev r0_4 : Rect S512x3072 := Rect.unit (s := S512x3072) ![0, 1024] S512x1024.size inb_S512x3072_S512x1024_0_1024
/-- columns 2048…3071. -/
abbrev r0_5 : Rect S512x3072 := Rect.unit (s := S512x3072) ![0, 2048] S512x1024.size inb_S512x3072_S512x1024_0_2048

/-! ## What the body leaves in the output window's buffer -/

/-- Window 7's staging buffer after the body, from the input windows' blocks: its 3 stores as pieces, LAST FIRST
    (the payloads are the skeleton's). The activation block `x0` feeds all three; third `j` multiplies it by weight
    matrix `x(1+j)` and adds bias row `x(4+j)`. The load of the output's own rectangle that precedes each store
    is read by no payload and contributes nothing. -/
def out0_7 (x0 : Vec F S512x1024 .f32) (x1 : Vec F S1024x1024 .bf16) (x2 : Vec F S1024x1024 .bf16) (x3 : Vec F S1024x1024 .bf16)
    (x4 : Vec F S1x1024 .f32) (x5 : Vec F S1x1024 .f32) (x6 : Vec F S1x1024 .f32) : Vec F S512x3072 .f32 :=
  View.canon [⟨r0_5, k0_pay4 (View.ld x0 r0_0) (View.ld x3 r0_1) (View.ld x6 r0_2)⟩,
    ⟨r0_4, k0_pay3 (View.ld x0 r0_0) (View.ld x2 r0_1) (View.ld x5 r0_2)⟩,
    ⟨r0_3, k0_pay2 (View.ld x0 r0_0) (View.ld x1 r0_1) (View.ld x4 r0_2)⟩]

/-! ## The pipeline's proof data -/

/-- The proof data of pipeline 0 on core `c`: the arrays as the region finds them (`V`); after the body at point
    `t` each input's buffer at its block and the output's at `out0_7` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := fun _ => fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

end Cert.KernelIdeal.Fr

end
-- ==== Proof.KI.Body0.lean ====
/- REGION 0 of @main (custom_call 0, `cc0__qkv_proj_kernel`, pipeline 0), class A, at the entry contents `V`: each input
   window's staging buffer holds its block at every point (`Fr.before0_W`), the three stores cover the output block
   (`Fr.cover0_7`), the body's triple (`Fr.sound_kernel0`), and the library's body obligation at every point
   (`Fr.body_obligation0`) over the proof data `Fr.dat0`. -/
import proofs.«416712_j77146202571310_3_alg».proof.Proof.KI.Dat0

-- membership in a rectangle of production extents: the elaborator's structural look recurses once per coordinate
-- of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 0 is entered: the parameter the region's half is stated at
variable (V : (c : Dev nD) → (b : Ref sig .tc) → Buf (Elt F) ((c : Thread nD τ).loc b))

/-! # REGION 0 of @main: custom_call 0, `cc0__qkv_proj_kernel` (pipeline 0) — the body's triple and obligation -/

/-! ## The input windows' staging buffers hold their blocks -/

/-- Input window 0's current staging buffer holds its block at every point, fetched there or not, for ANY proof data
    whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof data
    whose array is `V`'s (`hA`) and whose body leaves the block in place (`hafter`): unfetched, the block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof data
    whose array is `V`'s (`hA`) and whose body leaves the block in place (`hafter`): unfetched, the block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof data
    whose array is `V`'s (`hA`) and whose body leaves the block in place (`hafter`): unfetched, the block index has
    not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for ANY proof data
    whose array is `V`'s (`hA`) and whose body leaves the block in place (`hafter`): unfetched, the block index has
    not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for ANY proof data
    whose array is `V`'s (`hA`) and whose body leaves the block in place (`hafter`): unfetched, the block index has
    not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for ANY proof data
    whose array is `V`'s (`hA`) and whose body leaves the block in place (`hafter`): unfetched, the block index has
    not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The stores cover the output block -/

/-- The three stores tile the 512x3072 block in column thirds of 512x1024 (checked by evaluation), so they cover it. -/
theorem cover0_7 (p0 : Vec F S512x1024 .f32) (p1 : Vec F S512x1024 .f32) (p2 : Vec F S512x1024 .f32) (y : S512x3072.Idx) :
    ∃ pc ∈ ([⟨r0_5, p0⟩, ⟨r0_4, p1⟩, ⟨r0_3, p2⟩] : List (View.Piece (Elt F) S512x3072 .f32)), y ∈ pc.1.set :=
  View.cover_of_tiled [⟨r0_5, p0⟩, ⟨r0_4, p1⟩, ⟨r0_3, p2⟩] S512x1024.size (by rfl) y

/-! ## The body's triple -/

set_option maxHeartbeats 1000000 in
/-- The kernel body on whole staging memrefs, the inputs' at read contents `xW` and the output's at anything, runs to
    the continuation holding the inputs' as they were and the output's at `out0_7` of the inputs': the printed
    function is its skeleton, which the symbolic executor runs; the grid coordinate is not read. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x3072 .f32) (harg8 : arg8.IsWhole)
    (x0 : Vec F S512x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__qkv_proj_kernel i arg1 harg1 arg2 harg2 arg3 harg3 arg4 harg4 arg5 harg5 arg6 harg6 arg7 harg7 arg8 harg8) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _ _ _)

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Dat1.lean ====
/- The class-A data of REGION 1 of @main (custom_call 1, `cc1__attn_kernel`, pipeline 1), at a PARAMETER `V` — the
   TensorCore's buffer contents when the region is entered: each window's block at a point (`Fr.iblk1`), the body's
   access rectangles (`Fr.r1_N`), what the body leaves in the output window's staging buffer as a function of the input
   blocks (`Fr.out1_6`: its two stores as pieces over the skeleton's payloads), and the pipeline's proof data
   (`Fr.dat1`) with its projections. Windows 0, 1 and 2 are three input windows on ONE array: they hold it at three
   shares that compose to the full share. -/
import proofs.«416712_j77146202571310_3_alg».proof.Proof.Gen.KernelIdeal.Launch
import proofs.«416712_j77146202571310_3_alg».proof.Proof.Gen.KernelIdeal.Skeleton
import proofs.«416712_j77146202571310_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate of
-- the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # REGION 1 of @main: custom_call 1, `cc1__attn_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole of a query, key or value block (windows 0, 1, 2). -/
abbrev r1_0 : Rect S1024x128 := Rect.unit (s := S1024x128) ![0, 0] S1024x128.size inb_S1024x128_S1024x128_0_0
/-- The whole of the key-side mask block (window 5). -/
abbrev r1_1 : Rect S1x1x1024 := Rect.unit (s := S1x1x1024) ![0, 0, 0] S1x1x1024.size inb_S1x1x1024_S1x1x1024_0_0_0
/-- The whole of the query-side mask block (window 4). -/
abbrev r1_2 : Rect S1x1024x1 := Rect.unit (s := S1x1024x1) ![0, 0, 0] S1x1024x1.size inb_S1x1024x1_S1x1024x1_0_0_0
/-- The first head's slab of the noise block (window 3). -/
abbrev r1_3 : Rect S1x2x1024x1024 := Rect.unit (s := S1x2x1024x1024) ![0, 0, 0, 0] S1x1x1024x1024.size inb_S1x2x1024x1024_S1x1x1024x1024_0_0_0_0
/-- Columns 0…63 of the output block: the first head's store. -/
abbrev r1_4 : Rect S1024x128 := Rect.unit (s := S1024x128) ![0, 0] S1024x64.size inb_S1024x128_S1024x64_0_0
/-- The second head's slab of the noise block (window 3). -/
abbrev r1_5 : Rect S1x2x1024x1024 := Rect.unit (s := S1x2x1024x1024) ![0, 1, 0, 0] S1x1x1024x1024.size inb_S1x2x1024x1024_S1x1x1024x1024_0_1_0_0
/-- Columns 64…127 of the output block: the second head's store. -/
abbrev r1_6 : Rect S1024x128 := Rect.unit (s := S1024x128) ![0, 64] S1024x64.size inb_S1024x128_S1024x64_0_64

/-! ## What the body leaves in the output window's buffer -/

/-- Window 6's staging buffer after the body, from the input windows' blocks: its 2 stores as pieces, LAST FIRST
    (the payloads are the skeleton's, the second part's composed over the values the first part hands it). The
    second head's columns 64…127 are the payload of the second store, over the three blocks' cast values, the two
    masks and the second noise slab; the first head's columns 0…63 are the payload of the first store, over the
    masks, the truncated first half of the value block, the exponentials and their row sums. Each store is
    preceded by a load of the same rectangle of the output buffer that nothing reads: it contributes no piece. -/
def out1_6 (x0 : Vec F S1024x128 .f32) (x1 : Vec F S1024x128 .f32) (x2 : Vec F S1024x128 .f32)
    (x3 : Vec F S1x2x1024x1024 .f32) (x4 : Vec F S1x1024x1 .f32) (x5 : Vec F S1x1x1024 .f32) : Vec F S1024x128 .f32 :=
  View.canon [
    ⟨r1_6, k1_pay10 (k1_pay1 (View.ld x0 r1_0)) (k1_pay2 (View.ld x1 r1_0)) (k1_pay3 (View.ld x2 r1_0))
      (k1_pay4 (View.ld x5 r1_1)) (k1_pay5 (View.ld x4 r1_2)) (View.ld x3 r1_5)⟩,
    ⟨r1_4, k1_pay9 (k1_pay4 (View.ld x5 r1_1)) (k1_pay5 (View.ld x4 r1_2)) (k1_pay6 (View.ld x2 r1_0))
      (k1_pay7 (View.ld x0 r1_0) (View.ld x1 r1_0) (View.ld x3 r1_3))
      (k1_pay8 (View.ld x0 r1_0) (View.ld x1 r1_0) (View.ld x3 r1_3))⟩]

/-! ## The pipeline's proof data -/

/-- The proof data of pipeline 1 on core `c`: the arrays as the region finds them (`V`); after the body at point
    `t` each input's buffer at its block and the output's at `out1_6` of the input blocks; the invariant the class's
    (the scoped rest and the generator register, untouched); nothing owed. Windows 0, 1, 2 read ONE array: each
    holds it at its own share — the left half, the left half of the right half, the right half of the right half —,
    which compose to the full share; every other input is held at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q := fun w => match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`, never `rfl`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by
  dsimp only [dat1]

/-- The shares the proof data hold the input arrays at, window by window. -/
theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]
theorem q1_6 (c : Dev nD) : (dat1 V c).q 6 = fullShare := by dsimp only [dat1]

/-- Nothing is owed at any point, and the invariant is the class's at every point. -/
theorem owed1 (c : Dev nD) (t : Fin (cfg1.N + 1)) : (dat1 V c).owed t = 0 := by dsimp only [dat1]
theorem Φ1 (c : Dev nD) (t : Fin (cfg1.N + 1)) : (dat1 V c).Φ t = Pipeline.ΦA spec1 c := by dsimp only [dat1]

end Cert.KernelIdeal.Fr

end
-- ==== Proof.KI.Body1.lean ====
/- The class-A half of REGION 1 of @main (custom_call 1, `cc1__attn_kernel`, pipeline 1), at the entry contents `V`:
   each input window's staging buffer holds its block at every point (`Fr.before1_W`), the output block's two stores
   cover it (`Fr.cover1_6`), the body's triple (`Fr.sound_kernel1`), and the library's body obligation of the proof
   data `Fr.dat1` (`Fr.body_obligation1`). -/
import proofs.«416712_j77146202571310_3_alg».proof.Proof.KI.Dat1

-- membership in a rectangle of production extents: the elaborator's structural look recurses once per coordinate of
-- the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! ## What each input window's staging buffer holds when the body runs -/

/-- Input window 0's current staging buffer holds its block at every point, fetched there or not, for ANY proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): unfetched, the block index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): unfetched, the block index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): unfetched, the block index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The output block is covered -/

/-- The two stores — columns 64…127 and columns 0…63 — tile the output block (checked by evaluation), so they cover it. -/
theorem cover1_6 (p1 p0 : Vec F S1024x64 .f32) (y : S1024x128.Idx) :
    ∃ pc ∈ ([⟨r1_6, p1⟩, ⟨r1_4, p0⟩] : List (View.Piece (Elt F) S1024x128 .f32)), y ∈ pc.1.set :=
  View.cover_of_tiled [⟨r1_6, p1⟩, ⟨r1_4, p0⟩] S1024x64.size (by rfl) y

/-! ## The body's triple -/

set_option maxHeartbeats 1000000 in
/-- The kernel body on whole staging memrefs, the inputs' at read contents `xW` and the output's at anything, runs to
    the continuation holding the inputs' as they were and the output's at `out1_6` of the inputs': the printed function
    and its two parts are their skeletons, which are run statement by statement, through both part calls. -/
theorem sound_kernel1 (c : Dev nD) (E : Set ℕ) (i : grid1.Coords) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1x2x1024x1024 .f32) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .f32) (harg8 : arg8.IsWhole)
    (x0 : Vec F S1024x128 .f32) (x1 : Vec F S1024x128 .f32) (x2 : Vec F S1024x128 .f32) (x3 : Vec F S1x2x1024x1024 .f32) (x4 : Vec F S1x1024x1 .f32) (x5 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _ _)

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Dat2.lean ====
/- REGION 2 of @main — custom_call 2, `cc2__out_ln_kernel` (pipeline 2: output projection, residual, LayerNorm) — at
   a PARAMETER `V`, the TensorCore's buffer contents when the region is entered: each window's block at a point
   (`iblk2`), the body's access rectangles, what the body leaves in the output window's buffer as a function of the six
   input blocks (`out2_6`: one store of the payload `k2_pay1` over the whole block), the pipeline's proof data (`dat2`)
   and its projections. -/
import proofs.«416712_j77146202571310_3_alg».proof.Proof.Gen.KernelIdeal.Launch
import proofs.«416712_j77146202571310_3_alg».proof.Proof.Gen.KernelIdeal.Skeleton
import proofs.«416712_j77146202571310_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 2 is entered: the parameter this region's half is stated at
variable (V : (c : Dev nD) → (b : Ref sig .tc) → Buf (Elt F) ((c : Thread nD τ).loc b))

/-! # REGION 2 of @main: custom_call 2, `cc2__out_ln_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses -/

/-- The whole 512×1024 block: the loads of windows 0 and 3 and the one store of window 6. -/
abbrev r2_0 : Rect S512x1024 := Rect.unit (s := S512x1024) ![0, 0] S512x1024.size inb_S512x1024_S512x1024_0_0
/-- The whole 1024×1024 block: the load of window 1. -/
abbrev r2_1 : Rect S1024x1024 := Rect.unit (s := S1024x1024) ![0, 0] S1024x1024.size inb_S1024x1024_S1024x1024_0_0
/-- The whole 1×1024 block: the loads of windows 2, 4 and 5. -/
abbrev r2_2 : Rect S1x1024 := Rect.unit (s := S1x1024) ![0, 0] S1x1024.size inb_S1x1024_S1x1024_0_0

/-! ## What the body leaves in the output window's buffer -/

/-- Window 6's staging buffer after the body, from the input windows' blocks: its 1 store as pieces, LAST FIRST
    (the payload is the skeleton's: the projection of block 0 by block 1 plus the bias row 2, plus the residual
    block 3, normalised along the rows, scaled by row 4 and shifted by row 5). The load of the output buffer that
    precedes the store is dead and contributes no piece. -/
def out2_6 (x0 : Vec F S512x1024 .f32) (x1 : Vec F S1024x1024 .bf16) (x2 : Vec F S1x1024 .f32)
    (x3 : Vec F S512x1024 .f32) (x4 : Vec F S1x1024 .f32) (x5 : Vec F S1x1024 .f32) : Vec F S512x1024 .f32 :=
  View.canon [⟨r2_0, k2_pay1 (View.ld x0 r2_0) (View.ld x1 r2_1) (View.ld x2 r2_2) (View.ld x3 r2_0) (View.ld x4 r2_2) (View.ld x5 r2_2)⟩]

/-! ## The pipeline's proof data -/

/-- The proof data of pipeline 2 on core `c`: the arrays as the region finds them (`V`); after the body at point `t`
    each input's buffer at its block and the output's at `out2_6` of the input blocks; the invariant the class's (the
    scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

end Cert.KernelIdeal.Fr

end
-- ==== Proof.KI.Body2.lean ====
/- REGION 2 of @main — custom_call 2, `cc2__out_ln_kernel` (pipeline 2) — at the entry contents `V`: what the body finds
   in each input window's buffer (its block, fetched at the point or not), the one store covering the output block, the
   body's triple, and the body obligation of the pipeline's proof data `dat2`. -/
import proofs.«416712_j77146202571310_3_alg».proof.Proof.KI.Dat2

-- membership in a rectangle of production extents: the elaborator's structural look recurses once per coordinate
-- of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 2 is entered: the parameter this region's half is stated at
variable (V : (c : Dev nD) → (b : Ref sig .tc) → Buf (Elt F) ((c : Thread nD τ).loc b))

/-! ## What the body finds in each input window's buffer -/

/-- Input window 0's current staging buffer holds its block at every point, fetched there or not, for ANY proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for ANY proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The store covers the output block -/

/-- The one store is of the whole block (checked by evaluation), so it covers it. -/
theorem cover2_6 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The kernel body on whole staging memrefs, the inputs' at read contents `xW` and the output's at anything, runs to
    the continuation holding the inputs' as they were and the output's at `out2_6` of the inputs': the printed
    function and its part are their skeletons, whose memory operations are six whole-block loads, a dead load of the
    output buffer and one whole-block store. -/
theorem sound_kernel2 (c : Dev nD) (E : Set ℕ) (i : grid2.Coords)
    (arg0 : Memref sig .tc .vmem S512x1024 .f32) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S512x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S512x1024 .f32) (harg6 : arg6.IsWhole)
    (x0 : Vec F S512x1024 .f32) (x1 : Vec F S1024x1024 .bf16) (x2 : Vec F S1x1024 .f32) (x3 : Vec F S512x1024 .f32) (x4 : Vec F S1x1024 .f32) (x5 : Vec F S1x1024 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E
          (cc2__out_ln_kernel i arg0 harg0 arg1 harg1 arg2 harg2 arg3 harg3 arg4 harg4 arg5 harg5 arg6 harg6) K := by
  simp only [cc2__out_ln_kernel_eq_skeleton]; unfold cc2__out_ln_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Share1.lean ====
/- REGION 1 of @main (custom_call 1, pipeline 1): its windows' arrays in and out of the buffers behind them. Input
   windows 0, 1 and 2 read ONE array, `main_v8`; the distinct buffers behind the seven windows' arrays are five, each
   held whole at the full share. Entering the region, the shared buffer's full share splits into the three shares the
   proof data `Fr.dat1` hold it at (left; right-left; right-right), and the five buffers become the seven windows'
   arrays (`Fr.arrays_split1`); leaving it, the three shares compose back and the seven become the five at the exit
   contents — the inputs as entered, the output as its write-backs leave it (`Fr.arrays_join1`). -/
import proofs.«416712_j77146202571310_3_alg».proof.Proof.KI.Dat1
import Idealize.ShloMosaic.Lib.Pipeline.Launch
import Idealize.ShloMosaic.Lib.Pipeline.Kit
import Idealize.ShloMosaic.Lib.Pipeline.Cells
import Idealize.ShloMosaic.Rules.PointsTo

-- membership in a rectangle of production extents: the elaborator's structural look recurses once per coordinate
-- of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! # REGION 1 of @main: the windows' arrays and the buffers behind them -/

/-! ## The five buffers, one by one -/

/-- The distinct buffers behind region 1's window arrays are `main_v8` (windows 0, 1, 2), `main_arg2` (window 3),
    `main_v9` (4), `main_v10` (5) and `main_v11` (6, the output): each whole at the full share, as a chain. -/
theorem arrBufs1_eq (c : Dev nD) (W : (b : Ref sig .tc) → Buf (Elt F) ((c : Thread nD τ).loc b)) :
    (Pipeline.arrBufs spec1 c W : sProp 𝕄)
      = iprop((((c : Thread nD τ).loc main_v8) ↦{fullShare} W main_v8) ∗ (((c : Thread nD τ).loc main_arg2) ↦{fullShare} W main_arg2)
          ∗ (((c : Thread nD τ).loc main_v9) ↦{fullShare} W main_v9) ∗ (((c : Thread nD τ).loc main_v10) ↦{fullShare} W main_v10)
          ∗ (((c : Thread nD τ).loc main_v11) ↦{fullShare} W main_v11)) := by
  unfold Pipeline.arrBufs
  exact bigSep_eq_bigSepL_of_eq [main_v8, main_arg2, main_v9, main_v10, main_v11] (by decide) (by decide) _

/-! ## The seven windows' arrays, one by one -/

/-- The share the proof data hold each window's array at: an input's own, the output's full. -/
theorem share1_0 (c : Dev nD) : (dat1 V c).share 0 = fullShare.left := by unfold Dat.share; rw [q1_0]; rfl
theorem share1_1 (c : Dev nD) : (dat1 V c).share 1 = fullShare.right.left := by unfold Dat.share; rw [q1_1]; rfl
theorem share1_2 (c : Dev nD) : (dat1 V c).share 2 = fullShare.right.right := by unfold Dat.share; rw [q1_2]; rfl
theorem share1_3 (c : Dev nD) : (dat1 V c).share 3 = fullShare := by unfold Dat.share; rw [q1_3]; rfl
theorem share1_4 (c : Dev nD) : (dat1 V c).share 4 = fullShare := by unfold Dat.share; rw [q1_4]; rfl
theorem share1_5 (c : Dev nD) : (dat1 V c).share 5 = fullShare := by unfold Dat.share; rw [q1_5]; rfl
theorem share1_6 (c : Dev nD) : (dat1 V c).share 6 = fullShare := by unfold Dat.share; rfl

/-- Window `w`'s array is a whole buffer, so its points-to is the buffer's, at the window's share. -/
theorem arr1_0 (c : Dev nD) (X : Buf (Elt F) ((cfg1.win 0).arr.view.loc (c : Thread nD τ))) :
    ((cfg1.win 0).arr.view.loc (c : Thread nD τ) ↦[(cfg1.win 0).arr.view.set]{(dat1 V c).share 0} X : sProp 𝕄)
      = (((c : Thread nD τ).loc main_v8) ↦{fullShare.left} X) := by
  rewrite [(arr_whole1 0).set_eq_univ, share1_0]; rfl
theorem arr1_1 (c : Dev nD) (X : Buf (Elt F) ((cfg1.win 1).arr.view.loc (c : Thread nD τ))) :
    ((cfg1.win 1).arr.view.loc (c : Thread nD τ) ↦[(cfg1.win 1).arr.view.set]{(dat1 V c).share 1} X : sProp 𝕄)
      = (((c : Thread nD τ).loc main_v8) ↦{fullShare.right.left} X) := by
  rewrite [(arr_whole1 1).set_eq_univ, share1_1]; rfl
theorem arr1_2 (c : Dev nD) (X : Buf (Elt F) ((cfg1.win 2).arr.view.loc (c : Thread nD τ))) :
    ((cfg1.win 2).arr.view.loc (c : Thread nD τ) ↦[(cfg1.win 2).arr.view.set]{(dat1 V c).share 2} X : sProp 𝕄)
      = (((c : Thread nD τ).loc main_v8) ↦{fullShare.right.right} X) := by
  rewrite [(arr_whole1 2).set_eq_univ, share1_2]; rfl
theorem arr1_3 (c : Dev nD) (X : Buf (Elt F) ((cfg1.win 3).arr.view.loc (c : Thread nD τ))) :
    ((cfg1.win 3).arr.view.loc (c : Thread nD τ) ↦[(cfg1.win 3).arr.view.set]{(dat1 V c).share 3} X : sProp 𝕄)
      = (((c : Thread nD τ).loc main_arg2) ↦{fullShare} X) := by
  rewrite [(arr_whole1 3).set_eq_univ, share1_3]; rfl
theorem arr1_4 (c : Dev nD) (X : Buf (Elt F) ((cfg1.win 4).arr.view.loc (c : Thread nD τ))) :
    ((cfg1.win 4).arr.view.loc (c : Thread nD τ) ↦[(cfg1.win 4).arr.view.set]{(dat1 V c).share 4} X : sProp 𝕄)
      = (((c : Thread nD τ).loc main_v9) ↦{fullShare} X) := by
  rewrite [(arr_whole1 4).set_eq_univ, share1_4]; rfl
theorem arr1_5 (c : Dev nD) (X : Buf (Elt F) ((cfg1.win 5).arr.view.loc (c : Thread nD τ))) :
    ((cfg1.win 5).arr.view.loc (c : Thread nD τ) ↦[(cfg1.win 5).arr.view.set]{(dat1 V c).share 5} X : sProp 𝕄)
      = (((c : Thread nD τ).loc main_v10) ↦{fullShare} X) := by
  rewrite [(arr_whole1 5).set_eq_univ, share1_5]; rfl
theorem arr1_6 (c : Dev nD) (X : Buf (Elt F) ((cfg1.win 6).arr.view.loc (c : Thread nD τ))) :
    ((cfg1.win 6).arr.view.loc (c : Thread nD τ) ↦[(cfg1.win 6).arr.view.set]{(dat1 V c).share 6} X : sProp 𝕄)
      = (((c : Thread nD τ).loc main_v11) ↦{fullShare} X) := by
  rewrite [(arr_whole1 6).set_eq_univ, share1_6]; rfl

/-- The pipeline's arrays at contents `G`: the seven are points-tos of whole buffers — three of `main_v8` at the
    three shares, one each of the other four at the full share. -/
theorem arrays1_eq (c : Dev nD) (G : (w : Fin cfg1.W) → Buf (Elt F) ((cfg1.win w).arr.view.loc (c : Thread nD τ))) :
    (dat1 V c).arrays G
      = iprop((((c : Thread nD τ).loc main_v8) ↦{fullShare.left} G 0) ∗ (((c : Thread nD τ).loc main_v8) ↦{fullShare.right.left} G 1)
          ∗ (((c : Thread nD τ).loc main_v8) ↦{fullShare.right.right} G 2) ∗ (((c : Thread nD τ).loc main_arg2) ↦{fullShare} G 3)
          ∗ (((c : Thread nD τ).loc main_v9) ↦{fullShare} G 4) ∗ (((c : Thread nD τ).loc main_v10) ↦{fullShare} G 5)
          ∗ (((c : Thread nD τ).loc main_v11) ↦{fullShare} G 6)) := by
  unfold Dat.arrays
  rewrite [bigSep_W1]
  exact congrArg₂ BI.sep (arr1_0 V c _) (congrArg₂ BI.sep (arr1_1 V c _) (congrArg₂ BI.sep (arr1_2 V c _)
    (congrArg₂ BI.sep (arr1_3 V c _) (congrArg₂ BI.sep (arr1_4 V c _) (congrArg₂ BI.sep (arr1_5 V c _) (arr1_6 V c _))))))

/-! ## Into the region -/

/-- Entering region 1: the five buffers at the entry contents `V` are the seven windows' arrays at their entry
    contents, the shared buffer's full share split as left ∗ (right-left ∗ right-right). -/
theorem arrays_split1 (c : Dev nD) : (Pipeline.arrBufs spec1 c (V c) : sProp 𝕄) ⊢ (dat1 V c).arrays ((dat1 V c).arrAt · 0) := by
  rewrite [arrBufs1_eq, arrays1_eq]
  iintro ⟨H8, H2, H9, H10, H11⟩
  ihave H8 := (pointsTo_share (PosShare.mem_left_op_right fullShare)).1 $$ H8
  icases H8 with ⟨H8l, H8r⟩
  ihave H8r := (pointsTo_share (PosShare.mem_left_op_right fullShare.right)).1 $$ H8r
  icases H8r with ⟨H8rl, H8rr⟩
  isplitl [H8l]; · iexact H8l
  isplitl [H8rl]; · iexact H8rl
  isplitl [H8rr]; · iexact H8rr
  isplitl [H2]; · iexact H2
  isplitl [H9]; · iexact H9
  isplitl [H10]; · iexact H10
  iexact H11

/-! ## Out of the region -/

/-- An input window's array leaves the region as it entered it. -/
theorem arrAt1_in (c : Dev nD) (w : Fin cfg1.W) (hw : (cfg1.win w).isOut = false) (n : ℕ) :
    (dat1 V c).arrAt w n = V c (Pipeline.arrRef spec1 w) :=
  ((dat1 V c).arrAt_in w hw n).trans (A_eq1 V c w)

/-- Leaving region 1: the seven windows' arrays at their exit contents are the five buffers at any contents `V'`
    that are the output's write-backs at `main_v11` (`hout`) and the entry contents elsewhere (`hkeep`), the three
    shares of the shared buffer composed back to the full share. -/
theorem arrays_join1 (c : Dev nD) (V' : (b : Ref sig .tc) → Buf (Elt F) ((c : Thread nD τ).loc b))
    (hout : V' main_v11 = (dat1 V c).arrAt 6 cfg1.N) (hkeep : ∀ b : Ref sig .tc, b ≠ main_v11 → V' b = V c b) :
    (dat1 V c).arrays ((dat1 V c).arrAt · cfg1.N) ⊢ (Pipeline.arrBufs spec1 c V' : sProp 𝕄) := by
  rewrite [arrBufs1_eq, arrays1_eq, hout, hkeep main_v8 (by decide), hkeep main_arg2 (by decide), hkeep main_v9 (by decide),
    hkeep main_v10 (by decide)]
  simp only [arrAt1_in V c 0 rfl, arrAt1_in V c 1 rfl, arrAt1_in V c 2 rfl, arrAt1_in V c 3 rfl, arrAt1_in V c 4 rfl,
    arrAt1_in V c 5 rfl]
  iintro ⟨H8l, H8rl, H8rr, H2, H9, H10, H11⟩
  isplitl [H8l H8rl H8rr]
  · iapply (pointsTo_share (PosShare.mem_left_op_right fullShare)).2
    isplitl [H8l]; · iexact H8l
    iapply (pointsTo_share (PosShare.mem_left_op_right fullShare.right)).2
    isplitl [H8rl]; · iexact H8rl
    iexact H8rr
  isplitl [H2]; · iexact H2
  isplitl [H9]; · iexact H9
  isplitl [H10]; · iexact H10
  iexact H11

end Cert.KernelIdeal.Fr

end
-- ==== Proof.KI.Fold.lean ====
import proofs.«416712_j77146202571310_3_alg».proof.Proof.KI.Dat0
import proofs.«416712_j77146202571310_3_alg».proof.Proof.KI.Dat1
import proofs.«416712_j77146202571310_3_alg».proof.Proof.KI.Dat2
import proofs.«416712_j77146202571310_3_alg».proof.Proof.Gen.KernelIdeal.Regions

/-!
# The buffers' contents between the items of the program

The program is: a stretch of host operations (casts of the four weights, reshapes of the input and of the
three projection biases); the projection kernel; two reshapes of the mask; the attention kernel; three
reshapes (output bias, gain, bias); the output kernel; one reshape of its result. `W0` … `W7` are the
core's buffer contents at the eight boundaries: a host stretch applies its operations, a kernel region
replaces its output array by what its write-backs leave and changes nothing else.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the projection kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its output array `main_v8` at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention kernel's exit: its output array `main_v11` at what its write-backs leave (three of its input
    windows read one array, so the exit contents are written as an update at the output, not window by window). -/
def W4 (c : Dev nD) : Valuation τ sig (Elt F) :=
  Function.update (W3 m ρ c) (Proc.devRef .tc main_v11) ((dat1 (V3 m ρ) c).arrAt 6 cfg1.N)
theorem W4_out (c : Dev nD) : W4 m ρ c (Proc.devRef .tc main_v11) = (dat1 (V3 m ρ) c).arrAt 6 cfg1.N := by
  unfold W4; exact Function.update_self ..
theorem W4_of_ne (c : Dev nD) (b : Ref sig .tc) (hb : b ≠ main_v11) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-- After the third host stretch (the output kernel's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the output kernel's exit: its output array `main_v15` at what its write-backs leave. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the program's end. -/
abbrev W7 : Dev nD → Valuation τ sig (Elt F) := fun c => StableHlo.after hostOps3 (W6 m ρ c)

/-! ## What each item leaves unchanged -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h

/-- A buffer that no host stretch writes and that is no array of the projection or the output kernel, nor the
    attention kernel's output, ends as launched. -/
theorem W7_keep (c : Dev nD) (r : Ref sig .tc) (h0 : r ∉ hostOps0_W) (h1 : r ∉ hostOps1_W) (h2 : r ∉ hostOps2_W)
    (h3 : r ∉ hostOps3_W) (ha : ∀ w, Pipeline.arrRef spec0 w ≠ r) (hb : r ≠ main_v11) (hc : ∀ w, Pipeline.arrRef spec2 w ≠ r) :
    W7 m ρ c r = m ((c : Thread nD τ).loc r) :=
  (W7_of m ρ c r h3).trans <| (W6_of_ne m ρ c r hc).trans <| (W5_of m ρ c r h2).trans <| (W4_of_ne m ρ c r hb).trans <|
    (W3_of m ρ c r h1).trans <| (W2_of_ne m ρ c r ha).trans <| (W1_of m ρ c r h0).trans rfl

/-- Each of the thirteen argument arrays ends as launched. -/
theorem W7_arg (c : Dev nD) :
    W7 m ρ c main_arg0 = m ((c : Thread nD τ).loc main_arg0) ∧ W7 m ρ c main_arg1 = m ((c : Thread nD τ).loc main_arg1)
    ∧ W7 m ρ c main_arg2 = m ((c : Thread nD τ).loc main_arg2) ∧ W7 m ρ c main_arg3 = m ((c : Thread nD τ).loc main_arg3)
    ∧ W7 m ρ c main_arg4 = m ((c : Thread nD τ).loc main_arg4) ∧ W7 m ρ c main_arg5 = m ((c : Thread nD τ).loc main_arg5)
    ∧ W7 m ρ c main_arg6 = m ((c : Thread nD τ).loc main_arg6) ∧ W7 m ρ c main_arg7 = m ((c : Thread nD τ).loc main_arg7)
    ∧ W7 m ρ c main_arg8 = m ((c : Thread nD τ).loc main_arg8) ∧ W7 m ρ c main_arg9 = m ((c : Thread nD τ).loc main_arg9)
    ∧ W7 m ρ c main_arg10 = m ((c : Thread nD τ).loc main_arg10) ∧ W7 m ρ c main_arg11 = m ((c : Thread nD τ).loc main_arg11)
    ∧ W7 m ρ c main_arg12 = m ((c : Thread nD τ).loc main_arg12) :=
  ⟨W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide),
   W7_keep m ρ c _ (by decide) (by decide) (by decide) (by decide) (by decide) (by decide) (by decide)⟩

end Cert.KernelIdeal.Fr

end
-- ==== Proof.KI.Run.lean ====
import proofs.«416712_j77146202571310_3_alg».proof.Proof.KI.Body0
import proofs.«416712_j77146202571310_3_alg».proof.Proof.KI.Body1
import proofs.«416712_j77146202571310_3_alg».proof.Proof.KI.Body2
import proofs.«416712_j77146202571310_3_alg».proof.Proof.KI.Share1
import proofs.«416712_j77146202571310_3_alg».proof.Proof.KI.Fold

/-!
# The run of the program

Each kernel region, with its body's obligation, is a segment between two of the boundaries of the fold
`W0 … W7`; each host stretch is a segment too. Chained, they give: every weakly fair execution of the program
terminates without a fault, and every buffer that outlives a region ends at `W7`. The frame (the arguments
end as launched) and the result's value are read off that.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No kernel has a prefetched table. -/
abbrev adm : (p : Fin 3) → (pcfgs (F := F) p).Adm := fun p => (cfgs p).toPCfg_adm
/-- Every kernel's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the end's contents, the generator register. -/
abbrev Tₙ (c : Dev nD) : sProp 𝕄 := iprop(StableHlo.held (c : Thread nD τ) (Pipeline.ucRefs τ sig) (W7 m ρ c) ∗ ∃ r, prngReg c r)

/-! ## The regions as segments -/

-- a library lemma stated over the pinned configuration unifies with the printed one only when unification may
-- unfold plain definitions in a metavariable's type
set_option backward.isDefEq.respectTransparency.types false in
/-- The projection kernel's region over the thread state: entered from every unscoped buffer at `W1`, left at
    `W2`. Its arrays are split out of the unscoped buffers at entry and put back at exit; the generator
    register goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention kernel's arrays out of the unscoped buffers at its entry: the one array its three input windows read
    is split into three shares. -/
theorem entry1 (c : Dev nD) :
    (StableHlo.held (c : Thread nD τ) (Pipeline.ucRefs τ sig) (W3 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V3 m ρ c)) := by
  show _ ⊢ iprop((dat1 (V3 m ρ) c).arrays ((dat1 (V3 m ρ) c).arrAt · 0) ∗ Pipeline.unscopedRest spec1 c (V3 m ρ c))
  rw [← Pipeline.unscopedBufs_held c (W3 m ρ c),
    Pipeline.unscopedBufs_split₀ (Pipeline.pin (pcfgs (F := F)) adm) 1 winFacts₀1.arr_unscoped c]
  exact sep_mono (arrays_split1 (V3 m ρ) c) .rfl

/-- … and back at its exit: the three shares rejoined, the output array at what the write-backs left. -/
theorem exit1 (c : Dev nD) :
    iprop((pdats m ρ 1 c).arrays ((pdats m ρ 1 c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  show iprop((dat1 (V3 m ρ) c).arrays ((dat1 (V3 m ρ) c).arrAt · cfg1.N) ∗ Pipeline.unscopedRest spec1 c (V3 m ρ c)) ⊢ _
  rw [← Pipeline.unscopedBufs_held c (W4 m ρ c),
    Pipeline.unscopedBufs_split₀ (Pipeline.pin (pcfgs (F := F)) adm) 1 winFacts₀1.arr_unscoped c]
  refine sep_mono (arrays_join1 (V3 m ρ) c (V4 m ρ c) (W4_out m ρ c) (fun b hb => W4_of_ne m ρ c b hb)) (Entails.of_eq ?_)
  unfold Pipeline.unscopedRest
  exact bigSep_congr fun b hb =>
    congrArg (fun f : Buf (Elt F) ((c : Thread nD τ).loc b) => ((((c : Thread nD τ).loc b) ↦{fullShare} f) : sProp 𝕄))
      (W4_of_ne m ρ c b fun e =>
        (Finset.mem_sdiff.mp hb).2 (Finset.mem_image.mpr ⟨6, Finset.mem_univ _, e ▸ rfl⟩)).symm

set_option backward.isDefEq.respectTransparency.types false in
/-- The attention kernel's region over the thread state: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c); isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- The output kernel's region over the thread state: entered from every unscoped buffer at `W5`, left at
    `W6`. Its arrays are split out of the unscoped buffers at entry and put back at exit; the generator
    register goes into the region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer at the end's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 m ρ c)
            ∗ ((∃ r, prngReg c r) ∗ ∃ W, owes (c : Thread nD τ) (0 : CellTallies nD τ sig Unit) W))
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE RUN, READ AT THE RESULT AND THE ARGUMENTS: the result array `main_v16` ends at the end's contents, and the
    thirteen argument arrays end as launched. -/
theorem run_result : θ_run defs (onTc (τ := τ) (main (F := F))) ⟨m, fun _ => 0, ρ⟩ (fun r => ∀ c : Dev nD,
      r.2.mem ((c.tc : Thread nD τ).loc main_v16) = W7 m ρ c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have k := W7_arg m ρ c
    exact ⟨h c _ (mem_uc main_v16 (by decide)),
      (h c _ (mem_uc main_arg0 (by decide))).trans k.1,
      (h c _ (mem_uc main_arg1 (by decide))).trans k.2.1,
      (h c _ (mem_uc main_arg2 (by decide))).trans k.2.2.1,
      (h c _ (mem_uc main_arg3 (by decide))).trans k.2.2.2.1,
      (h c _ (mem_uc main_arg4 (by decide))).trans k.2.2.2.2.1,
      (h c _ (mem_uc main_arg5 (by decide))).trans k.2.2.2.2.2.1,
      (h c _ (mem_uc main_arg6 (by decide))).trans k.2.2.2.2.2.2.1,
      (h c _ (mem_uc main_arg7 (by decide))).trans k.2.2.2.2.2.2.2.1,
      (h c _ (mem_uc main_arg8 (by decide))).trans k.2.2.2.2.2.2.2.2.1,
      (h c _ (mem_uc main_arg9 (by decide))).trans k.2.2.2.2.2.2.2.2.2.1,
      (h c _ (mem_uc main_arg10 (by decide))).trans k.2.2.2.2.2.2.2.2.2.2.1,
      (h c _ (mem_uc main_arg11 (by decide))).trans k.2.2.2.2.2.2.2.2.2.2.2.1,
      (h c _ (mem_uc main_arg12 (by decide))).trans k.2.2.2.2.2.2.2.2.2.2.2.2⟩) (run_all m ρ)

/-- THE FRAME: the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_result m ρ)

end Cert.KernelIdeal.Fr

end
-- ==== Proof.Spec.lean ====
import Idealize.ShloMosaic.PureOps.Ideal
import Idealize.ShloMosaic.Lib.ValueIdx

/-!
# The attention block as plain functions on the extended reals

Every array is a function of its coordinates into `EReal`; rows of the flattened activations are
`r : Fin 2048` (batch-major: row `r` is position `r % 1024` of batch element `r / 1024`), model
columns are `Fin 1024`, and column `c` belongs to head `c / 64` at offset `c % 64`.

The block is: three affine projections of the input; per head, scores `q · k` plus a doubly
logarithmic transform of the noise; a row softmax (shifted by the row maximum); the key and query
masks; the weighted sum of values; an affine output projection plus the residual; a row
normalisation (mean, variance, reciprocal square root) with gain and bias.

Two spellings of the masked weighted sum appear: the query mask applied after the sum over keys
(`attnAfter`) and inside it (`attnInside`). They are the only place where the two programs differ.
-/

open scoped BigOperators

noncomputable section

namespace Cert.Spec

open Idealize.ShloMosaic

/-- An affine projection `x Wᵀ + b` at row `r`, output column `o`. -/
def proj (x : Fin 2048 → Fin 1024 → EReal) (W : Fin 1024 → Fin 1024 → EReal) (b : Fin 1024 → EReal)
    (r : Fin 2048) (o : Fin 1024) : EReal :=
  (∑ h : Fin 1024, x r h * W o h) + b o

/-- The three projections side by side, as the flat `[2048, 3072]` array `[Q | K | V]`. -/
def qkv (x : Fin 2048 → Fin 1024 → EReal) (Wq Wk Wv : Fin 1024 → Fin 1024 → EReal) (bq bk bv : Fin 1024 → EReal)
    (r : Fin 2048) (j : Fin 3072) : EReal :=
  if h₁ : j.val < 1024 then proj x Wq bq r ⟨j.val, h₁⟩
  else if h₂ : j.val < 2048 then proj x Wk bk r ⟨j.val - 1024, by omega⟩
  else proj x Wv bv r ⟨j.val - 2048, by have := j.isLt; omega⟩

/-- Row `s` of batch element `n` in the flattened activations. -/
def row (n : Fin 2) (s : Fin 1024) : Fin 2048 := ⟨1024 * n.val + s.val, by have := n.isLt; have := s.isLt; omega⟩

/-- Column `d` of head `h`. -/
def hcol (h : Fin 16) (d : Fin 64) : Fin 1024 := ⟨64 * h.val + d.val, by have := h.isLt; have := d.isLt; omega⟩

/-- The noise transform `-log (-log u)`. -/
def gum (u : EReal) : EReal := -(Ideal.log (-(Ideal.log u)))

/-- The logit of query `q` against key `k` in head `h` of batch element `n`: `q · k` over the
    head's 64 columns, plus the transformed noise. `Q` and `K` are flat `[2048, 1024]` arrays. -/
def logit (Q K : Fin 2048 → Fin 1024 → EReal) (u : Fin 2 → Fin 16 → Fin 1024 → Fin 1024 → EReal)
    (n : Fin 2) (h : Fin 16) (q k : Fin 1024) : EReal :=
  (∑ d : Fin 64, Q (row n q) (hcol h d) * K (row n k) (hcol h d)) + gum (u n h q k)

/-- The maximum of a row, from `-∞`. -/
def rowMax (f : Fin 1024 → EReal) : EReal := (Finset.univ : Finset (Fin 1024)).fold max ⊥ f

/-- The softmax of a row, shifted by its maximum: `exp (f k - max f) / ∑ exp (f k' - max f)`. -/
def soft (f : Fin 1024 → EReal) (k : Fin 1024) : EReal :=
  Ideal.div (Ideal.exp (f k - rowMax f)) (∑ k' : Fin 1024, Ideal.exp (f k' - rowMax f))

/-- Masked weighted sum of values, the query mask applied AFTER the sum over keys. -/
def attnAfter (s mk v : Fin 1024 → EReal) (mq : EReal) : EReal := (∑ k : Fin 1024, (s k * mk k) * v k) * mq

/-- Masked weighted sum of values, the query mask applied INSIDE the sum over keys. -/
def attnInside (s mk v : Fin 1024 → EReal) (mq : EReal) : EReal := ∑ k : Fin 1024, (s k * (mq * mk k)) * v k

/-- The head of a model column, and its offset inside the head. -/
def headOf (c : Fin 1024) : Fin 16 := ⟨c.val / 64, by have := c.isLt; omega⟩
def offOf (c : Fin 1024) : Fin 64 := ⟨c.val % 64, by omega⟩

/-- The attention output at row `(n, s)`, column `c`, for a given spelling `att` of the masked sum:
    the softmax weights of query `s` in `c`'s head, the key mask `mask n ·`, the values' column `c`,
    the query mask `mask n s`. `Q`, `K`, `V` are flat `[2048, 1024]` arrays. -/
def attn (att : (Fin 1024 → EReal) → (Fin 1024 → EReal) → (Fin 1024 → EReal) → EReal → EReal)
    (Q K V : Fin 2048 → Fin 1024 → EReal) (u : Fin 2 → Fin 16 → Fin 1024 → Fin 1024 → EReal)
    (mask : Fin 2 → Fin 1024 → EReal) (n : Fin 2) (s : Fin 1024) (c : Fin 1024) : EReal :=
  att (soft (logit Q K u n (headOf c) s)) (mask n) (fun k => V (row n k) c) (mask n s)

/-- The row fed to the normalisation: output projection of the attention row, plus bias, plus residual. -/
def pre (A : Fin 1024 → EReal) (Wo : Fin 1024 → Fin 1024 → EReal) (bo xr : Fin 1024 → EReal) (o : Fin 1024) : EReal :=
  ((∑ c : Fin 1024, A c * Wo o c) + bo o) + xr o

/-- The row normalisation with divisor `N` and stabiliser `ε`:
    `((x - μ) · rsqrt (σ² + ε)) · γ + β` with `μ = (∑ x) / N`, `σ² = (∑ (x - μ)²) / N`. -/
def lnRow (N eps : EReal) (x g b : Fin 1024 → EReal) (o : Fin 1024) : EReal :=
  ((x o - Ideal.div (∑ o' : Fin 1024, x o') N)
      * Ideal.rsqrt (Ideal.div (∑ o' : Fin 1024, (x o' - Ideal.div (∑ o'' : Fin 1024, x o'') N) * (x o' - Ideal.div (∑ o'' : Fin 1024, x o'') N)) N + eps))
    * g o + b o

/-- The divisor `1024.0` and the stabiliser `1e-5` as the single-precision words both programs carry. -/
def c1024 : EReal := Ideal.ofBits .f32 0x44800000#32
def cEps : EReal := Ideal.ofBits .f32 0x3727C5AC#32

/-- The whole block at row `(n, s)`, output column `o`, for a spelling `att` of the masked sum. -/
def block (att : (Fin 1024 → EReal) → (Fin 1024 → EReal) → (Fin 1024 → EReal) → EReal → EReal)
    (x : Fin 2048 → Fin 1024 → EReal) (mask : Fin 2 → Fin 1024 → EReal)
    (u : Fin 2 → Fin 16 → Fin 1024 → Fin 1024 → EReal)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (Wo : Fin 1024 → Fin 1024 → EReal) (bo g b : Fin 1024 → EReal)
    (n : Fin 2) (s o : Fin 1024) : EReal :=
  lnRow c1024 cEps
    (pre (attn att (proj x Wq bq) (proj x Wk bk) (proj x Wv bv) u mask n s) Wo bo (x (row n s))) g b o

/-! ## The argument arrays as functions of their coordinates -/

open Idealize.ShloMosaic.ValueIdx

/-- The input `[2, 1024, 1024]` as flat rows: row `r` is position `r % 1024` of batch element `r / 1024`. -/
def x2d (a : (⟨3, ![2, 1024, 1024]⟩ : Shape).Idx → EReal) (r : Fin 2048) (h : Fin 1024) : EReal :=
  a (ix3 (⟨r.val / 1024, by have := r.isLt; omega⟩ : Fin 2) (⟨r.val % 1024, by omega⟩ : Fin 1024) h)

/-- The mask `[2, 1024]`. -/
def m2d (a : (⟨2, ![2, 1024]⟩ : Shape).Idx → EReal) (n : Fin 2) (s : Fin 1024) : EReal := a (ix2 n s)

/-- The noise `[2, 16, 1024, 1024]`. -/
def u4d (a : (⟨4, ![2, 16, 1024, 1024]⟩ : Shape).Idx → EReal) (n : Fin 2) (h : Fin 16) (q k : Fin 1024) : EReal := a (ix4 n h q k)

/-- A weight matrix `[1024, 1024]`, output column first. -/
def w2d (a : (⟨2, ![1024, 1024]⟩ : Shape).Idx → EReal) (o h : Fin 1024) : EReal := a (ix2 o h)

/-- A vector `[1024]`. -/
def v1d (a : (⟨1, ![1024]⟩ : Shape).Idx → EReal) (o : Fin 1024) : EReal := a (ix1 o)

/-- The block of the thirteen argument arrays, in the programs' argument order. -/
def blockOf (att : (Fin 1024 → EReal) → (Fin 1024 → EReal) → (Fin 1024 → EReal) → EReal → EReal)
    (a0 : (⟨3, ![2, 1024, 1024]⟩ : Shape).Idx → EReal) (a1 : (⟨2, ![2, 1024]⟩ : Shape).Idx → EReal)
    (a2 : (⟨4, ![2, 16, 1024, 1024]⟩ : Shape).Idx → EReal)
    (a3 : (⟨2, ![1024, 1024]⟩ : Shape).Idx → EReal) (a4 : (⟨1, ![1024]⟩ : Shape).Idx → EReal)
    (a5 : (⟨2, ![1024, 1024]⟩ : Shape).Idx → EReal) (a6 : (⟨1, ![1024]⟩ : Shape).Idx → EReal)
    (a7 : (⟨2, ![1024, 1024]⟩ : Shape).Idx → EReal) (a8 : (⟨1, ![1024]⟩ : Shape).Idx → EReal)
    (a9 : (⟨2, ![1024, 1024]⟩ : Shape).Idx → EReal) (a10 a11 a12 : (⟨1, ![1024]⟩ : Shape).Idx → EReal)
    (n : Fin 2) (s o : Fin 1024) : EReal :=
  block att (x2d a0) (m2d a1) (u4d a2) (w2d a3) (v1d a4) (w2d a5) (v1d a6) (w2d a7) (v1d a8) (w2d a9) (v1d a10) (v1d a11) (v1d a12) n s o

end Cert.Spec

end
-- ==== Proof.KI.Compose.lean ====
/- THE KERNEL PROGRAM'S RESULT AS ONE FUNCTION OF ITS ARGUMENTS, on the extended reals: the three kernels' values
   composed through the host stretches. Each buffer a kernel reads is walked back to an argument (a cast is the
   identity, a reshape moves an index to the one with the same row-major position) or to the previous kernel's output;
   the three panels of the projections' array are the three projections; the whole is the specification's block.
   Stated from the three kernels' values as hypotheses (`Fr.Final0`, `Fr.Final1`, `Fr.Final2`): `Fr.result_eq_of`. -/
import proofs.«416712_j77146202571310_3_alg».proof.Proof.KI.Fold
import proofs.«416712_j77146202571310_3_alg».proof.Proof.Spec
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ) (ρ : Dev nD → PrngReg)

/-! ## What the first host stretch leaves: the casts of the weights and the reshapes of the input and the biases -/

/-- The flattened input at row `r`, column `h`: the input at batch element `r / 1024`, position `r % 1024`. -/
theorem W1_v4 (c : Dev nD) (r : Fin 2048) (h : Fin 1024) :
    (W1 m ρ c main_v4 : S2048x1024.Idx → EReal) (ix2 r h) = Cert.Spec.x2d (m ((c : Thread nD τ).loc main_arg0)) r h := by
  show StableHlo.after hostOps0 _ (Proc.devRef .tc main_v4) (ix2 r h) = _
  after_results
  unfold Cert.Spec.x2d
  refine shapeCast_apply (s := S2x1024x1024) (t := S2048x1024) _ shapeCasts_S2x1024x1024_S2048x1024 (ix2 r h) _ ?_
  rw [Shape.rowMajor_val_three, Shape.rowMajor_val_two]
  show (r.val / 1024 * 1024 + r.val % 1024) * 1024 + h.val = r.val * 1024 + h.val
  omega

/-- A weight cast to the narrower format is the weight: the cast is the identity on the extended reals. -/
theorem W1_v0 (c : Dev nD) (o h : Fin 1024) :
    (W1 m ρ c main_v0 : S1024x1024.Idx → EReal) (ix2 o h) = Cert.Spec.w2d (m ((c : Thread nD τ).loc main_arg3)) o h := by
  show StableHlo.after hostOps0 _ (Proc.devRef .tc main_v0) (ix2 o h) = _
  after_results
  rfl
theorem W1_v1 (c : Dev nD) (o h : Fin 1024) :
    (W1 m ρ c main_v1 : S1024x1024.Idx → EReal) (ix2 o h) = Cert.Spec.w2d (m ((c : Thread nD τ).loc main_arg5)) o h := by
  show StableHlo.after hostOps0 _ (Proc.devRef .tc main_v1) (ix2 o h) = _
  after_results
  rfl
theorem W1_v2 (c : Dev nD) (o h : Fin 1024) :
    (W1 m ρ c main_v2 : S1024x1024.Idx → EReal) (ix2 o h) = Cert.Spec.w2d (m ((c : Thread nD τ).loc main_arg7)) o h := by
  show StableHlo.after hostOps0 _ (Proc.devRef .tc main_v2) (ix2 o h) = _
  after_results
  rfl
theorem W1_v3 (c : Dev nD) (o h : Fin 1024) :
    (W1 m ρ c main_v3 : S1024x1024.Idx → EReal) (ix2 o h) = Cert.Spec.w2d (m ((c : Thread nD τ).loc main_arg9)) o h := by
  show StableHlo.after hostOps0 _ (Proc.devRef .tc main_v3) (ix2 o h) = _
  after_results
  rfl

/-- A bias as a one-row matrix reads, at `(0, o)`, the bias at `o`. -/
theorem W1_v5 (c : Dev nD) (o : Fin 1024) :
    (W1 m ρ c main_v5 : S1x1024.Idx → EReal) (ix2 (0 : Fin 1) o) = Cert.Spec.v1d (m ((c : Thread nD τ).loc main_arg4)) o := by
  show StableHlo.after hostOps0 _ (Proc.devRef .tc main_v5) (ix2 (0 : Fin 1) o) = _
  after_results
  refine (shapeCast_a_1a_apply (a := 1024) _ shapeCasts_S1024_S1x1024 (0 : Fin 1) o).trans ?_
  rfl
theorem W1_v6 (c : Dev nD) (o : Fin 1024) :
    (W1 m ρ c main_v6 : S1x1024.Idx → EReal) (ix2 (0 : Fin 1) o) = Cert.Spec.v1d (m ((c : Thread nD τ).loc main_arg6)) o := by
  show StableHlo.after hostOps0 _ (Proc.devRef .tc main_v6) (ix2 (0 : Fin 1) o) = _
  after_results
  refine (shapeCast_a_1a_apply (a := 1024) _ shapeCasts_S1024_S1x1024 (0 : Fin 1) o).trans ?_
  rfl
theorem W1_v7 (c : Dev nD) (o : Fin 1024) :
    (W1 m ρ c main_v7 : S1x1024.Idx → EReal) (ix2 (0 : Fin 1) o) = Cert.Spec.v1d (m ((c : Thread nD τ).loc main_arg8)) o := by
  show StableHlo.after hostOps0 _ (Proc.devRef .tc main_v7) (ix2 (0 : Fin 1) o) = _
  after_results
  refine (shapeCast_a_1a_apply (a := 1024) _ shapeCasts_S1024_S1x1024 (0 : Fin 1) o).trans ?_
  rfl

/-! ## Buffers that ride through unchanged -/

/-- A buffer the first host stretch does not write and that is no array of the projection kernel holds, at that
    kernel's exit, its launch contents. -/
theorem W2_keep (c : Dev nD) (r : Ref sig .tc) (h0 : r ∉ hostOps0_W) (ha : ∀ w, Pipeline.arrRef spec0 w ≠ r) :
    W2 m ρ c r = m ((c : Thread nD τ).loc r) :=
  (W2_of_ne m ρ c r ha).trans ((W1_of m ρ c r h0).trans rfl)

/-- The same at the attention kernel's exit, for a buffer the second host stretch does not write either and that
    is not the attention kernel's output. -/
theorem W4_keep (c : Dev nD) (r : Ref sig .tc) (h0 : r ∉ hostOps0_W) (ha : ∀ w, Pipeline.arrRef spec0 w ≠ r)
    (h1 : r ∉ hostOps1_W) (hb : r ≠ main_v11) : W4 m ρ c r = m ((c : Thread nD τ).loc r) :=
  (W4_of_ne m ρ c r hb).trans ((W3_of m ρ c r h1).trans (W2_keep m ρ c r h0 ha))

/-- An input window's array of the projection kernel is, at the kernel's exit, what it was at its entry. -/
theorem W2_in (c : Dev nD) (w : Fin cfg0.W) (hw : (cfg0.win w).isOut = false) :
    W2 m ρ c (Pipeline.arrRef spec0 w) = W1 m ρ c (Pipeline.arrRef spec0 w) :=
  (W2_arr m ρ c w).trans (((dat0 (V1 m ρ) c).arrAt_in w hw _).trans (A_eq0 (V1 m ρ) c w))

/-! ## The attention kernel's arrays at its entry -/

/-- The projections' array is what the projection kernel's write-backs left. -/
theorem W3_v8 (c : Dev nD) : W3 m ρ c main_v8 = (dat0 (V1 m ρ) c).arrAt 7 cfg0.N :=
  (W3_of m ρ c main_v8 (by decide)).trans (W2_arr m ρ c 7)

/-- The noise is the argument. -/
theorem W3_arg2 (c : Dev nD) : W3 m ρ c main_arg2 = m ((c : Thread nD τ).loc main_arg2) :=
  (W3_of m ρ c main_arg2 (by decide)).trans (W2_keep m ρ c main_arg2 (by decide) (by decide))

/-- The mask as a column per batch element reads, at `(n, s, 0)`, the mask at `(n, s)`. -/
theorem W3_v9 (c : Dev nD) (n : Fin 2) (s : Fin 1024) :
    (W3 m ρ c main_v9 : S2x1024x1.Idx → EReal) (ix3 n s (0 : Fin 1)) = Cert.Spec.m2d (m ((c : Thread nD τ).loc main_arg1)) n s := by
  show StableHlo.after hostOps1 _ (Proc.devRef .tc main_v9) (ix3 n s (0 : Fin 1)) = _
  after_results
  unfold Cert.Spec.m2d
  refine (shapeCast_apply (s := S2x1024) (t := S2x1024x1) _ shapeCasts_S2x1024_S2x1024x1 (ix3 n s (0 : Fin 1)) (ix2 n s) ?_).trans ?_
  · rw [Shape.rowMajor_val_three, Shape.rowMajor_val_two]
    show n.val * 1024 + s.val = (n.val * 1024 + s.val) * 1 + 0
    omega
  · exact congrFun (W2_keep m ρ c main_arg1 (by decide) (by decide)) (ix2 n s)

/-- The mask as a row per batch element reads, at `(n, 0, k)`, the mask at `(n, k)`. -/
theorem W3_v10 (c : Dev nD) (n : Fin 2) (k : Fin 1024) :
    (W3 m ρ c main_v10 : S2x1x1024.Idx → EReal) (ix3 n (0 : Fin 1) k) = Cert.Spec.m2d (m ((c : Thread nD τ).loc main_arg1)) n k := by
  show StableHlo.after hostOps1 _ (Proc.devRef .tc main_v10) (ix3 n (0 : Fin 1) k) = _
  after_results
  unfold Cert.Spec.m2d
  refine (shapeCast_apply (s := S2x1024) (t := S2x1x1024) _ shapeCasts_S2x1024_S2x1x1024 (ix3 n (0 : Fin 1) k) (ix2 n k) ?_).trans ?_
  · rw [Shape.rowMajor_val_three, Shape.rowMajor_val_two]
    show n.val * 1024 + k.val = (n.val * 1 + 0) * 1024 + k.val
    omega
  · exact congrFun (W2_keep m ρ c main_arg1 (by decide) (by decide)) (ix2 n k)

/-! ## The output kernel's arrays at its entry -/

/-- The attention's array is what the attention kernel's write-backs left. -/
theorem W5_v11 (c : Dev nD) : W5 m ρ c main_v11 = (dat1 (V3 m ρ) c).arrAt 6 cfg1.N :=
  (W5_of m ρ c main_v11 (by decide)).trans (W4_out m ρ c)

/-- The output weight is still the cast of the argument. -/
theorem W5_v3 (c : Dev nD) (o h : Fin 1024) :
    (W5 m ρ c main_v3 : S1024x1024.Idx → EReal) (ix2 o h) = Cert.Spec.w2d (m ((c : Thread nD τ).loc main_arg9)) o h := by
  have e : W5 m ρ c main_v3 = W1 m ρ c main_v3 :=
    (W5_of m ρ c main_v3 (by decide)).trans <| (W4_of_ne m ρ c main_v3 (by decide)).trans <|
      (W3_of m ρ c main_v3 (by decide)).trans (W2_of_ne m ρ c main_v3 (by decide))
  exact (congrFun e (ix2 o h)).trans (W1_v3 m ρ c o h)

/-- The flattened input is still the reshape of the argument. -/
theorem W5_v4 (c : Dev nD) (r : Fin 2048) (h : Fin 1024) :
    (W5 m ρ c main_v4 : S2048x1024.Idx → EReal) (ix2 r h) = Cert.Spec.x2d (m ((c : Thread nD τ).loc main_arg0)) r h := by
  have e : W5 m ρ c main_v4 = W1 m ρ c main_v4 :=
    (W5_of m ρ c main_v4 (by decide)).trans <| (W4_of_ne m ρ c main_v4 (by decide)).trans <|
      (W3_of m ρ c main_v4 (by decide)).trans (W2_in m ρ c 0 rfl)
  exact (congrFun e (ix2 r h)).trans (W1_v4 m ρ c r h)

/-- The output bias, the gain and the normalisation's bias as one-row matrices. -/
theorem W5_v12 (c : Dev nD) (o : Fin 1024) :
    (W5 m ρ c main_v12 : S1x1024.Idx → EReal) (ix2 (0 : Fin 1) o) = Cert.Spec.v1d (m ((c : Thread nD τ).loc main_arg10)) o := by
  show StableHlo.after hostOps2 _ (Proc.devRef .tc main_v12) (ix2 (0 : Fin 1) o) = _
  after_results
  refine (shapeCast_a_1a_apply (a := 1024) _ shapeCasts_S1024_S1x1024 (0 : Fin 1) o).trans ?_
  exact congrFun (W4_keep m ρ c main_arg10 (by decide) (by decide) (by decide) (by decide)) (ix1 o)
theorem W5_v13 (c : Dev nD) (o : Fin 1024) :
    (W5 m ρ c main_v13 : S1x1024.Idx → EReal) (ix2 (0 : Fin 1) o) = Cert.Spec.v1d (m ((c : Thread nD τ).loc main_arg11)) o := by
  show StableHlo.after hostOps2 _ (Proc.devRef .tc main_v13) (ix2 (0 : Fin 1) o) = _
  after_results
  refine (shapeCast_a_1a_apply (a := 1024) _ shapeCasts_S1024_S1x1024 (0 : Fin 1) o).trans ?_
  exact congrFun (W4_keep m ρ c main_arg11 (by decide) (by decide) (by decide) (by decide)) (ix1 o)
theorem W5_v14 (c : Dev nD) (o : Fin 1024) :
    (W5 m ρ c main_v14 : S1x1024.Idx → EReal) (ix2 (0 : Fin 1) o) = Cert.Spec.v1d (m ((c : Thread nD τ).loc main_arg12)) o := by
  show StableHlo.after hostOps2 _ (Proc.devRef .tc main_v14) (ix2 (0 : Fin 1) o) = _
  after_results
  refine (shapeCast_a_1a_apply (a := 1024) _ shapeCasts_S1024_S1x1024 (0 : Fin 1) o).trans ?_
  exact congrFun (W4_keep m ρ c main_arg12 (by decide) (by decide) (by decide) (by decide)) (ix1 o)

/-! ## The program's result is the reshape of the output kernel's array -/

theorem W7_v16 (c : Dev nD) (n : Fin 2) (s o : Fin 1024) :
    (W7 m ρ c main_v16 : S2x1024x1024.Idx → EReal) (ix3 n s o)
      = ((dat2 (V5 m ρ) c).arrAt 6 cfg2.N : S2048x1024.Idx → EReal) (ix2 (Cert.Spec.row n s) o) := by
  show StableHlo.after hostOps3 _ (Proc.devRef .tc main_v16) (ix3 n s o) = _
  after_results
  refine (shapeCast_apply (s := S2048x1024) (t := S2x1024x1024) _ shapeCasts_S2048x1024_S2x1024x1024 (ix3 n s o) (ix2 (Cert.Spec.row n s) o) ?_).trans ?_
  · rw [Shape.rowMajor_val_three, Shape.rowMajor_val_two]
    show (1024 * n.val + s.val) * 1024 + o.val = (n.val * 1024 + s.val) * 1024 + o.val
    omega
  · exact congrFun (W6_arr m ρ c 6) (ix2 (Cert.Spec.row n s) o)

/-! ## The specification's functions respect pointwise equality of their arguments -/

private theorem qkv_congr {x x' : Fin 2048 → Fin 1024 → EReal} {Wq Wq' Wk Wk' Wv Wv' : Fin 1024 → Fin 1024 → EReal}
    {bq bq' bk bk' bv bv' : Fin 1024 → EReal} (hx : ∀ r h, x r h = x' r h) (hq : ∀ o h, Wq o h = Wq' o h)
    (hk : ∀ o h, Wk o h = Wk' o h) (hv : ∀ o h, Wv o h = Wv' o h) (hbq : ∀ o, bq o = bq' o) (hbk : ∀ o, bk o = bk' o)
    (hbv : ∀ o, bv o = bv' o) (r : Fin 2048) (j : Fin 3072) :
    Cert.Spec.qkv x Wq Wk Wv bq bk bv r j = Cert.Spec.qkv x' Wq' Wk' Wv' bq' bk' bv' r j := by
  obtain rfl : x = x' := funext fun r => funext fun h => hx r h
  obtain rfl : Wq = Wq' := funext fun o => funext fun h => hq o h
  obtain rfl : Wk = Wk' := funext fun o => funext fun h => hk o h
  obtain rfl : Wv = Wv' := funext fun o => funext fun h => hv o h
  obtain rfl : bq = bq' := funext hbq
  obtain rfl : bk = bk' := funext hbk
  obtain rfl : bv = bv' := funext hbv
  rfl

private theorem logit_congr {Q Q' K K' : Fin 2048 → Fin 1024 → EReal} {u u' : Fin 2 → Fin 16 → Fin 1024 → Fin 1024 → EReal}
    (hQ : ∀ r c, Q r c = Q' r c) (hK : ∀ r c, K r c = K' r c) (hu : ∀ n h q k, u n h q k = u' n h q k)
    (n : Fin 2) (h : Fin 16) (q k : Fin 1024) : Cert.Spec.logit Q K u n h q k = Cert.Spec.logit Q' K' u' n h q k := by
  obtain rfl : Q = Q' := funext fun r => funext fun c => hQ r c
  obtain rfl : K = K' := funext fun r => funext fun c => hK r c
  obtain rfl : u = u' := funext fun n => funext fun h => funext fun q => funext fun k => hu n h q k
  rfl

private theorem soft_congr {f f' : Fin 1024 → EReal} (h : ∀ k, f k = f' k) (k : Fin 1024) :
    Cert.Spec.soft f k = Cert.Spec.soft f' k := by
  obtain rfl : f = f' := funext h
  rfl

private theorem attnAfter_congr {s s' mk mk' v v' : Fin 1024 → EReal} {mq mq' : EReal} (hs : ∀ k, s k = s' k)
    (hmk : ∀ k, mk k = mk' k) (hv : ∀ k, v k = v' k) (hmq : mq = mq') :
    Cert.Spec.attnAfter s mk v mq = Cert.Spec.attnAfter s' mk' v' mq' := by
  obtain rfl : s = s' := funext hs
  obtain rfl : mk = mk' := funext hmk
  obtain rfl : v = v' := funext hv
  subst hmq
  rfl

private theorem pre_congr {A A' : Fin 1024 → EReal} {Wo Wo' : Fin 1024 → Fin 1024 → EReal} {bo bo' xr xr' : Fin 1024 → EReal}
    (hA : ∀ c, A c = A' c) (hW : ∀ o c, Wo o c = Wo' o c) (hbo : ∀ o, bo o = bo' o) (hxr : ∀ o, xr o = xr' o) (o : Fin 1024) :
    Cert.Spec.pre A Wo bo xr o = Cert.Spec.pre A' Wo' bo' xr' o := by
  obtain rfl : A = A' := funext hA
  obtain rfl : Wo = Wo' := funext fun o => funext fun c => hW o c
  obtain rfl : bo = bo' := funext hbo
  obtain rfl : xr = xr' := funext hxr
  rfl

private theorem lnRow_congr (N eps : EReal) {x x' g g' b b' : Fin 1024 → EReal} (hx : ∀ o, x o = x' o) (hg : ∀ o, g o = g' o)
    (hb : ∀ o, b o = b' o) (o : Fin 1024) : Cert.Spec.lnRow N eps x g b o = Cert.Spec.lnRow N eps x' g' b' o := by
  obtain rfl : x = x' := funext hx
  obtain rfl : g = g' := funext hg
  obtain rfl : b = b' := funext hb
  rfl

/-! ## The three panels of the projections' array -/

private theorem qkv_q (x : Fin 2048 → Fin 1024 → EReal) (Wq Wk Wv : Fin 1024 → Fin 1024 → EReal) (bq bk bv : Fin 1024 → EReal)
    (r : Fin 2048) (c' : Fin 1024) (h : c'.val < 3072) :
    Cert.Spec.qkv x Wq Wk Wv bq bk bv r ⟨c'.val, h⟩ = Cert.Spec.proj x Wq bq r c' := by
  unfold Cert.Spec.qkv
  rw [dif_pos (show (⟨c'.val, h⟩ : Fin 3072).val < 1024 from c'.isLt)]

private theorem qkv_k (x : Fin 2048 → Fin 1024 → EReal) (Wq Wk Wv : Fin 1024 → Fin 1024 → EReal) (bq bk bv : Fin 1024 → EReal)
    (r : Fin 2048) (c' : Fin 1024) (h : 1024 + c'.val < 3072) :
    Cert.Spec.qkv x Wq Wk Wv bq bk bv r ⟨1024 + c'.val, h⟩ = Cert.Spec.proj x Wk bk r c' := by
  have hc := c'.isLt
  unfold Cert.Spec.qkv
  rw [dif_neg (show ¬ (⟨1024 + c'.val, h⟩ : Fin 3072).val < 1024 from by show ¬ 1024 + c'.val < 1024; omega),
    dif_pos (show (⟨1024 + c'.val, h⟩ : Fin 3072).val < 2048 from by show 1024 + c'.val < 2048; omega)]
  exact congrArg (Cert.Spec.proj x Wk bk r) (Fin.ext (by show 1024 + c'.val - 1024 = c'.val; omega))

private theorem qkv_v (x : Fin 2048 → Fin 1024 → EReal) (Wq Wk Wv : Fin 1024 → Fin 1024 → EReal) (bq bk bv : Fin 1024 → EReal)
    (r : Fin 2048) (c' : Fin 1024) (h : 2048 + c'.val < 3072) :
    Cert.Spec.qkv x Wq Wk Wv bq bk bv r ⟨2048 + c'.val, h⟩ = Cert.Spec.proj x Wv bv r c' := by
  have hc := c'.isLt
  unfold Cert.Spec.qkv
  rw [dif_neg (show ¬ (⟨2048 + c'.val, h⟩ : Fin 3072).val < 1024 from by show ¬ 2048 + c'.val < 1024; omega),
    dif_neg (show ¬ (⟨2048 + c'.val, h⟩ : Fin 3072).val < 2048 from by show ¬ 2048 + c'.val < 2048; omega)]
  exact congrArg (Cert.Spec.proj x Wv bv r) (Fin.ext (by show 2048 + c'.val - 2048 = c'.val; omega))

/-! ## The composition, given the three kernels' values -/

section Compose

/-- The projection kernel's value: its output array, as its write-backs leave it, is the three projections side by side
    of its input arrays as the kernel finds them. -/
def Final0 : Prop := ∀ (V : (c : Dev nD) → (b : Ref sig .tc) → Buf (Elt Ideal) ((c : Thread nD τ).loc b)) (c : Dev nD) (r : Fin 2048) (j : Fin 3072),
    ((dat0 (F := Ideal) V c).arrAt 7 cfg0.N : S2048x3072.Idx → EReal) (ix2 r j)
      = Cert.Spec.qkv (fun r h => (V c (Pipeline.arrRef spec0 0) : S2048x1024.Idx → EReal) (ix2 r h))
          (fun o h => (V c (Pipeline.arrRef spec0 1) : S1024x1024.Idx → EReal) (ix2 o h))
          (fun o h => (V c (Pipeline.arrRef spec0 2) : S1024x1024.Idx → EReal) (ix2 o h))
          (fun o h => (V c (Pipeline.arrRef spec0 3) : S1024x1024.Idx → EReal) (ix2 o h))
          (fun o => (V c (Pipeline.arrRef spec0 4) : S1x1024.Idx → EReal) (ix2 (0 : Fin 1) o))
          (fun o => (V c (Pipeline.arrRef spec0 5) : S1x1024.Idx → EReal) (ix2 (0 : Fin 1) o))
          (fun o => (V c (Pipeline.arrRef spec0 6) : S1x1024.Idx → EReal) (ix2 (0 : Fin 1) o)) r j

/-- The attention kernel's value: its output array at row `(n, s)`, column `col` is the masked weighted sum over the
    keys, the weights the softmax of the logits of `col`'s head, of its input arrays as the kernel finds them. -/
def Final1 : Prop := ∀ (V : (c : Dev nD) → (b : Ref sig .tc) → Buf (Elt Ideal) ((c : Thread nD τ).loc b)) (c : Dev nD) (n : Fin 2) (s : Fin 1024) (col : Fin 1024),
    ((dat1 (F := Ideal) V c).arrAt 6 cfg1.N : S2048x1024.Idx → EReal) (ix2 (Cert.Spec.row n s) col)
      = Cert.Spec.attnAfter
          (Cert.Spec.soft (Cert.Spec.logit
            (fun r c' => (V c (Pipeline.arrRef spec1 0) : S2048x3072.Idx → EReal) (ix2 r ⟨c'.val, by have := c'.isLt; omega⟩))
            (fun r c' => (V c (Pipeline.arrRef spec1 0) : S2048x3072.Idx → EReal) (ix2 r ⟨1024 + c'.val, by have := c'.isLt; omega⟩))
            (fun n h q k => (V c (Pipeline.arrRef spec1 3) : S2x16x1024x1024.Idx → EReal) (ix4 n h q k))
            n (Cert.Spec.headOf col) s))
          (fun k => (V c (Pipeline.arrRef spec1 5) : S2x1x1024.Idx → EReal) (ix3 n (0 : Fin 1) k))
          (fun k => (V c (Pipeline.arrRef spec1 0) : S2048x3072.Idx → EReal) (ix2 (Cert.Spec.row n k) ⟨2048 + col.val, by have := col.isLt; omega⟩))
          ((V c (Pipeline.arrRef spec1 4) : S2x1024x1.Idx → EReal) (ix3 n s (0 : Fin 1)))

/-- The output kernel's value: its output array at row `r`, column `o` is the row normalisation of the output
    projection plus bias plus residual, of its input arrays as the kernel finds them. -/
def Final2 : Prop := ∀ (V : (c : Dev nD) → (b : Ref sig .tc) → Buf (Elt Ideal) ((c : Thread nD τ).loc b)) (c : Dev nD) (r : Fin 2048) (o : Fin 1024),
    ((dat2 (F := Ideal) V c).arrAt 6 cfg2.N : S2048x1024.Idx → EReal) (ix2 r o)
      = Cert.Spec.lnRow Cert.Spec.c1024 Cert.Spec.cEps
          (Cert.Spec.pre (fun c' => (V c (Pipeline.arrRef spec2 0) : S2048x1024.Idx → EReal) (ix2 r c'))
            (fun o' c' => (V c (Pipeline.arrRef spec2 1) : S1024x1024.Idx → EReal) (ix2 o' c'))
            (fun o' => (V c (Pipeline.arrRef spec2 2) : S1x1024.Idx → EReal) (ix2 (0 : Fin 1) o'))
            (fun o' => (V c (Pipeline.arrRef spec2 3) : S2048x1024.Idx → EReal) (ix2 r o')))
          (fun o' => (V c (Pipeline.arrRef spec2 4) : S1x1024.Idx → EReal) (ix2 (0 : Fin 1) o'))
          (fun o' => (V c (Pipeline.arrRef spec2 5) : S1x1024.Idx → EReal) (ix2 (0 : Fin 1) o')) o

/-- The projections' array at the attention kernel's entry is the three projections of the arguments side by side. -/
theorem qkv_eq (final0 : Final0) (c : Dev nD) (r : Fin 2048) (j : Fin 3072) :
    (W3 m ρ c main_v8 : S2048x3072.Idx → EReal) (ix2 r j)
      = Cert.Spec.qkv (Cert.Spec.x2d (m ((c : Thread nD τ).loc main_arg0)))
          (Cert.Spec.w2d (m ((c : Thread nD τ).loc main_arg3))) (Cert.Spec.w2d (m ((c : Thread nD τ).loc main_arg5)))
          (Cert.Spec.w2d (m ((c : Thread nD τ).loc main_arg7))) (Cert.Spec.v1d (m ((c : Thread nD τ).loc main_arg4)))
          (Cert.Spec.v1d (m ((c : Thread nD τ).loc main_arg6))) (Cert.Spec.v1d (m ((c : Thread nD τ).loc main_arg8))) r j := by
  refine (congrFun (W3_v8 m ρ c) (ix2 r j)).trans ?_
  refine (final0 (V1 m ρ) c r j).trans ?_
  exact qkv_congr (fun r h => W1_v4 m ρ c r h) (fun o h => W1_v0 m ρ c o h) (fun o h => W1_v1 m ρ c o h)
    (fun o h => W1_v2 m ρ c o h) (fun o => W1_v5 m ρ c o) (fun o => W1_v6 m ρ c o) (fun o => W1_v7 m ρ c o) r j

/-- The attention's array at the output kernel's entry is the attention of the three projections of the arguments. -/
theorem attn_eq (final0 : Final0) (final1 : Final1) (c : Dev nD) (n : Fin 2) (s col : Fin 1024) :
    (W5 m ρ c main_v11 : S2048x1024.Idx → EReal) (ix2 (Cert.Spec.row n s) col)
      = Cert.Spec.attn Cert.Spec.attnAfter
          (Cert.Spec.proj (Cert.Spec.x2d (m ((c : Thread nD τ).loc main_arg0))) (Cert.Spec.w2d (m ((c : Thread nD τ).loc main_arg3))) (Cert.Spec.v1d (m ((c : Thread nD τ).loc main_arg4))))
          (Cert.Spec.proj (Cert.Spec.x2d (m ((c : Thread nD τ).loc main_arg0))) (Cert.Spec.w2d (m ((c : Thread nD τ).loc main_arg5))) (Cert.Spec.v1d (m ((c : Thread nD τ).loc main_arg6))))
          (Cert.Spec.proj (Cert.Spec.x2d (m ((c : Thread nD τ).loc main_arg0))) (Cert.Spec.w2d (m ((c : Thread nD τ).loc main_arg7))) (Cert.Spec.v1d (m ((c : Thread nD τ).loc main_arg8))))
          (Cert.Spec.u4d (m ((c : Thread nD τ).loc main_arg2))) (Cert.Spec.m2d (m ((c : Thread nD τ).loc main_arg1))) n s col := by
  refine (congrFun (W5_v11 m ρ c) (ix2 (Cert.Spec.row n s) col)).trans ?_
  refine (final1 (V3 m ρ) c n s col).trans ?_
  unfold Cert.Spec.attn
  exact attnAfter_congr
    (fun k => soft_congr (fun k' => logit_congr
      (fun r c' => (qkv_eq m ρ final0 c r _).trans (qkv_q _ _ _ _ _ _ _ r c' _))
      (fun r c' => (qkv_eq m ρ final0 c r _).trans (qkv_k _ _ _ _ _ _ _ r c' _))
      (fun n h q k => congrFun (W3_arg2 m ρ c) (ix4 n h q k)) n (Cert.Spec.headOf col) s k') k)
    (fun k => W3_v10 m ρ c n k)
    (fun k => (qkv_eq m ρ final0 c (Cert.Spec.row n k) _).trans (qkv_v _ _ _ _ _ _ _ (Cert.Spec.row n k) col _))
    (W3_v9 m ρ c n s)

/-- THE PROGRAM'S RESULT: at the program's end the result array reads, at `(n, s, o)`, the attention block of the thirteen
    arguments as launched (the query mask applied after the sum over keys). -/
theorem result_eq_of (final0 : Final0) (final1 : Final1) (final2 : Final2) (c : Dev nD) (n : Fin 2) (s o : Fin 1024) :
    (W7 m ρ c main_v16 : S2x1024x1024.Idx → EReal) (ix3 n s o)
      = Cert.Spec.blockOf Cert.Spec.attnAfter (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) n s o := by
  refine (W7_v16 m ρ c n s o).trans ?_
  refine (final2 (V5 m ρ) c (Cert.Spec.row n s) o).trans ?_
  unfold Cert.Spec.blockOf Cert.Spec.block
  exact lnRow_congr _ _
    (fun o' => pre_congr (fun c' => attn_eq m ρ final0 final1 c n s c') (fun o'' c' => W5_v3 m ρ c o'' c')
      (fun o'' => W5_v12 m ρ c o'') (fun o'' => W5_v4 m ρ c (Cert.Spec.row n s) o'') o')
    (fun o' => W5_v13 m ρ c o') (fun o' => W5_v14 m ρ c o') o

end Compose

end Cert.KernelIdeal.Fr

end
-- ==== Proof.KI.Val0.Panel.lean ====
/- Region 0's three projection panels at an index of the block, at the ideal instance: the block product
   x Wᵀ as a sum over the contracted columns, the bias row spread over the rows, and each payload as their sum. -/
import proofs.«416712_j77146202571310_3_alg».proof.Proof.KI.Dat0
import Idealize.ShloMosaic.Lib.Pipeline.Value
import Idealize.ShloMosaic.Lib.ValueIdx
import Idealize.ShloMosaic.PureOps.Ideal.Laws

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen
open Idealize.ShloMosaic.ValueIdx
open scoped BigOperators

/-! ## One projection panel at an index -/

/-- The product's left operand is read at the output's row, -/
theorem lhs_proj_0 (i : S512x1024.Idx) (k : dot_S512x1024_S1024x1024_S512x1024_1_1_0_0_n_n.contr.Idx) :
    (dot_S512x1024_S1024x1024_S512x1024_1_1_0_0_n_n.lhsIdx i k 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- and at the contracted column; -/
theorem lhs_proj_1 (i : S512x1024.Idx) (k : dot_S512x1024_S1024x1024_S512x1024_1_1_0_0_n_n.contr.Idx) :
    (dot_S512x1024_S1024x1024_S512x1024_1_1_0_0_n_n.lhsIdx i k 1).val = (k ⟨0, by decide⟩).val :=
  dot_S512x1024_S1024x1024_S512x1024_1_1_0_0_n_n.lhsIdx_val_of_single rfl i k
/-- the right operand at the output's column, as ITS row (the weights are stored output column first), -/
theorem rhs_proj_0 (i : S512x1024.Idx) (k : dot_S512x1024_S1024x1024_S512x1024_1_1_0_0_n_n.contr.Idx) :
    (dot_S512x1024_S1024x1024_S512x1024_1_1_0_0_n_n.rhsIdx i k 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- and at the contracted column. -/
theorem rhs_proj_1 (i : S512x1024.Idx) (k : dot_S512x1024_S1024x1024_S512x1024_1_1_0_0_n_n.contr.Idx) :
    (dot_S512x1024_S1024x1024_S512x1024_1_1_0_0_n_n.rhsIdx i k 1).val = (k ⟨0, by decide⟩).val :=
  dot_S512x1024_S1024x1024_S512x1024_1_1_0_0_n_n.rhsIdx_val_of_single rfl i k

/-- The block product `x Wᵀ` into the zero accumulator, at row `p`, column `q`: the sum over the 1024 contracted
    columns of `x p h * W q h`. -/
theorem matmul_xWt_apply (x : FVec Ideal S512x1024 .bf16) (W : FVec Ideal S1024x1024 .bf16) (p : Fin 512) (q : Fin 1024) :
    matmul dot_S512x1024_S1024x1024_S512x1024_1_1_0_0_n_n none x W (constant (F := Ideal) S512x1024 .f32 0x00000000#32) (ix2 p q)
      = ∑ h : Fin 1024, x (ix2 p h) * W (ix2 q h) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun h _ => ?_
  have hk := ValueIdx.contrEquiv1_symm_val dot_S512x1024_S1024x1024_S512x1024_1_1_0_0_n_n 1024 rfl rfl h
  have el : dot_S512x1024_S1024x1024_S512x1024_1_1_0_0_n_n.lhsIdx (ix2 p q) ((ValueIdx.contrEquiv1 dot_S512x1024_S1024x1024_S512x1024_1_1_0_0_n_n 1024 rfl rfl).symm h) = ix2 p h := funext fun a => Fin.ext (by
    match a with
    | ⟨0, _⟩ => exact lhs_proj_0 _ _
    | ⟨1, _⟩ => exact (lhs_proj_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm h) = ix2 q h := funext fun a => Fin.ext (by
    match a with
    | ⟨0, _⟩ => exact rhs_proj_0 _ _
    | ⟨1, _⟩ => exact (rhs_proj_1 _ _).trans hk)
  rw [el, er]

/-- A bias row spread over the 512 rows of the block reads the row's column. -/
theorem bias_rows_apply (b : Vec Ideal S1x1024 .f32) (p : Fin 512) (q : Fin 1024) :
    broadcastTo S512x1024 b broadcasts_S1x1024_S512x1024 (ix2 p q) = b (ix2 0 q) :=
  broadcastTo_apply b broadcasts_S1x1024_S512x1024 (ix2 p q) (ix2 0 q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

/-- THE FIRST PANEL's payload at row `p`, column `q` of the block: the affine projection of the activation row. -/
theorem panel_q_apply (x : Vec Ideal S512x1024 .f32) (W : Vec Ideal S1024x1024 .bf16) (b : Vec Ideal S1x1024 .f32) (p : Fin 512) (q : Fin 1024) :
    k0_pay2 x W b (ix2 p q) = (∑ h : Fin 1024, x (ix2 p h) * W (ix2 q h)) + b (ix2 0 q) := by
  unfold k0_pay2 k0_pay1
  simp only [shapeCast_self]
  rw [addf_apply, matmul_xWt_apply, bias_rows_apply]
  rfl

/-- THE SECOND PANEL's payload: the same projection with its own weights and bias. -/
theorem panel_k_apply (x : Vec Ideal S512x1024 .f32) (W : Vec Ideal S1024x1024 .bf16) (b : Vec Ideal S1x1024 .f32) (p : Fin 512) (q : Fin 1024) :
    k0_pay3 x W b (ix2 p q) = (∑ h : Fin 1024, x (ix2 p h) * W (ix2 q h)) + b (ix2 0 q) := by
  unfold k0_pay3 k0_pay1
  simp only [shapeCast_self]
  rw [addf_apply, matmul_xWt_apply, bias_rows_apply]
  rfl

/-- THE THIRD PANEL's payload: the same again. -/
theorem panel_v_apply (x : Vec Ideal S512x1024 .f32) (W : Vec Ideal S1024x1024 .bf16) (b : Vec Ideal S1x1024 .f32) (p : Fin 512) (q : Fin 1024) :
    k0_pay4 x W b (ix2 p q) = (∑ h : Fin 1024, x (ix2 p h) * W (ix2 q h)) + b (ix2 0 q) := by
  unfold k0_pay4 k0_pay1
  simp only [shapeCast_self]
  rw [addf_apply, matmul_xWt_apply, bias_rows_apply]
  rfl

end Cert.KernelIdeal.Fr

end
-- ==== Proof.KI.Val0.Block.lean ====
/- Region 0's output block at an index: its three stores tile the 512x3072 block in column thirds, so a column of
   the k-th third reads the k-th panel's payload. -/
import proofs.«416712_j77146202571310_3_alg».proof.Proof.KI.Dat0
import Idealize.ShloMosaic.Lib.Pipeline.Value
import Idealize.ShloMosaic.Lib.ValueIdx
import Idealize.ShloMosaic.PureOps.Ideal.Laws

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen
open Idealize.ShloMosaic.ValueIdx
open scoped BigOperators

/-! ## A buffer written by three stores -/

section ThreeStores
variable {Val : EltTy → Type} [∀ e, Nonempty (Val e)] {S : Shape} {e : EltTy}

/-- An index under the LAST store reads its payload. -/
theorem canon3_last (r1 r2 r3 : Rect S) (w1 : r1.shape.Idx → Val e) (w2 : r2.shape.Idx → Val e) (w3 : r3.shape.Idx → Val e)
    (x : r1.shape.Idx) (y : S.Idx) (hy : y = r1.emb x) :
    View.canon (Val := Val) (s := S) (e := e) [⟨r1, w1⟩, ⟨r2, w2⟩, ⟨r3, w3⟩] y = w1 x := by
  rw [hy, View.canon_cons_emb]

/-- An index under the MIDDLE store that the last one misses reads the middle one's payload. -/
theorem canon3_mid (r1 r2 r3 : Rect S) (w1 : r1.shape.Idx → Val e) (w2 : r2.shape.Idx → Val e) (w3 : r3.shape.Idx → Val e)
    (x : r2.shape.Idx) (y : S.Idx) (hy : y = r2.emb x) (h1 : y ∉ r1.set) :
    View.canon (Val := Val) (s := S) (e := e) [⟨r1, w1⟩, ⟨r2, w2⟩, ⟨r3, w3⟩] y = w2 x := by
  rw [View.canon_cons_of_not_mem _ _ h1, hy, View.canon_cons_emb]

/-- An index under the FIRST store that the two later ones miss reads the first one's payload. -/
theorem canon3_first (r1 r2 r3 : Rect S) (w1 : r1.shape.Idx → Val e) (w2 : r2.shape.Idx → Val e) (w3 : r3.shape.Idx → Val e)
    (x : r3.shape.Idx) (y : S.Idx) (hy : y = r3.emb x) (h1 : y ∉ r1.set) (h2 : y ∉ r2.set) :
    View.canon (Val := Val) (s := S) (e := e) [⟨r1, w1⟩, ⟨r2, w2⟩, ⟨r3, w3⟩] y = w3 x := by
  rw [View.canon_cons_of_not_mem _ _ h1, View.canon_cons_of_not_mem _ _ h2, hy, View.canon_cons_emb]

end ThreeStores

/-! ## The output block at an index: three column panels -/

theorem zero_offsets : (![0, 0] : Fin 2 → Nat) = fun _ => 0 := funext fun a => by fin_cases a <;> rfl

/-- Columns 0…1023 of the block hold the first panel: the two later stores lie to its right. -/
theorem out_block_q (x0 : Vec Ideal S512x1024 .f32) (x1 x2 x3 : Vec Ideal S1024x1024 .bf16) (x4 x5 x6 : Vec Ideal S1x1024 .f32)
    (p : Fin 512) (q : Fin 1024) (j : Fin 3072) (hj : j.val = q.val) :
    out0_7 x0 x1 x2 x3 x4 x5 x6 (ix2 p j) = k0_pay2 x0 x1 x4 (ix2 p q) := by
  unfold out0_7
  have h5 : (ix2 p j : S512x3072.Idx) ∉ (r0_5).set := by
    rw [Rect.mem_set_unit]; intro h
    have h1 : (2048 : Nat) ≤ j.val ∧ j.val < 2048 + 1024 := h 1
    have := q.isLt; omega
  have h4 : (ix2 p j : S512x3072.Idx) ∉ (r0_4).set := by
    rw [Rect.mem_set_unit]; intro h
    have h1 : (1024 : Nat) ≤ j.val ∧ j.val < 1024 + 1024 := h 1
    have := q.isLt; omega
  have e : (ix2 p j : S512x3072.Idx) = (r0_3).emb (ix2 p q) := funext fun a => Fin.ext (by
    match a with
    | ⟨0, _⟩ => show p.val = 0 + 1 * p.val; omega
    | ⟨1, _⟩ => show j.val = 0 + 1 * q.val; omega)
  have l0 : View.ld x0 r0_0 = x0 := View.ld_unit_zero zero_offsets _ x0
  have l1 : View.ld x1 r0_1 = x1 := View.ld_unit_zero zero_offsets _ x1
  have l4 : View.ld x4 r0_2 = x4 := View.ld_unit_zero zero_offsets _ x4
  refine (canon3_first r0_5 r0_4 r0_3 _ _ _ (ix2 p q) (ix2 p j) e h5 h4).trans ?_
  rw [l0, l1, l4]

/-- Columns 1024…2047 hold the second panel: the last store lies to its right. -/
theorem out_block_k (x0 : Vec Ideal S512x1024 .f32) (x1 x2 x3 : Vec Ideal S1024x1024 .bf16) (x4 x5 x6 : Vec Ideal S1x1024 .f32)
    (p : Fin 512) (q : Fin 1024) (j : Fin 3072) (hj : j.val = 1024 + q.val) :
    out0_7 x0 x1 x2 x3 x4 x5 x6 (ix2 p j) = k0_pay3 x0 x2 x5 (ix2 p q) := by
  unfold out0_7
  have h5 : (ix2 p j : S512x3072.Idx) ∉ (r0_5).set := by
    rw [Rect.mem_set_unit]; intro h
    have h1 : (2048 : Nat) ≤ j.val ∧ j.val < 2048 + 1024 := h 1
    have := q.isLt; omega
  have e : (ix2 p j : S512x3072.Idx) = (r0_4).emb (ix2 p q) := funext fun a => Fin.ext (by
    match a with
    | ⟨0, _⟩ => show p.val = 0 + 1 * p.val; omega
    | ⟨1, _⟩ => show j.val = 1024 + 1 * q.val; omega)
  have l0 : View.ld x0 r0_0 = x0 := View.ld_unit_zero zero_offsets _ x0
  have l2 : View.ld x2 r0_1 = x2 := View.ld_unit_zero zero_offsets _ x2
  have l5 : View.ld x5 r0_2 = x5 := View.ld_unit_zero zero_offsets _ x5
  refine (canon3_mid r0_5 r0_4 r0_3 _ _ _ (ix2 p q) (ix2 p j) e h5).trans ?_
  rw [l0, l2, l5]

/-- Columns 2048…3071 hold the third panel, stored last. -/
theorem out_block_v (x0 : Vec Ideal S512x1024 .f32) (x1 x2 x3 : Vec Ideal S1024x1024 .bf16) (x4 x5 x6 : Vec Ideal S1x1024 .f32)
    (p : Fin 512) (q : Fin 1024) (j : Fin 3072) (hj : j.val = 2048 + q.val) :
    out0_7 x0 x1 x2 x3 x4 x5 x6 (ix2 p j) = k0_pay4 x0 x3 x6 (ix2 p q) := by
  unfold out0_7
  have e : (ix2 p j : S512x3072.Idx) = (r0_5).emb (ix2 p q) := funext fun a => Fin.ext (by
    match a with
    | ⟨0, _⟩ => show p.val = 0 + 1 * p.val; omega
    | ⟨1, _⟩ => show j.val = 2048 + 1 * q.val; omega)
  have l0 : View.ld x0 r0_0 = x0 := View.ld_unit_zero zero_offsets _ x0
  have l3 : View.ld x3 r0_1 = x3 := View.ld_unit_zero zero_offsets _ x3
  have l6 : View.ld x6 r0_2 = x6 := View.ld_unit_zero zero_offsets _ x6
  refine (canon3_last r0_5 r0_4 r0_3 _ _ _ (ix2 p q) (ix2 p j) e).trans ?_
  rw [l0, l3, l6]

end Cert.KernelIdeal.Fr

end
-- ==== Proof.KI.Val0.lean ====
/- Region 0's value at the ideal instance: the output array as the three affine projections side by side.
   The panels' payloads at an index (Val0/Panel), the output block as three column panels (Val0/Block); then each
   input window's block as rows of its array, the output block at an index as the side-by-side projections of the
   block's activation row, what a point writes back as a block of one function of the seven arrays, the cover, and the
   output array after the region index by index. -/
import proofs.«416712_j77146202571310_3_alg».proof.Proof.KI.Val0.Panel
import proofs.«416712_j77146202571310_3_alg».proof.Proof.KI.Val0.Block
import proofs.«416712_j77146202571310_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! # The value of region 0 (the three projections side by side) at the ideal instance -/

/-! ## The output block at an index -/

/-- The output block at row `p`, column `j`, when row `p` of the activation block is row `r` of an activation array `X`:
    the side-by-side projections of `X` at row `r`, column `j`. A column of the first third reads the first panel, of
    the second third the second, of the last third the third; each panel is the row's affine projection. -/
theorem out0_7_apply (x0 : Vec Ideal S512x1024 .f32) (x1 x2 x3 : Vec Ideal S1024x1024 .bf16) (x4 x5 x6 : Vec Ideal S1x1024 .f32)
    (X : Fin 2048 → Fin 1024 → EReal) (r : Fin 2048) (p : Fin 512) (hx : ∀ h : Fin 1024, x0 (ix2 p h) = X r h) (j : Fin 3072) :
    out0_7 x0 x1 x2 x3 x4 x5 x6 (ix2 p j)
      = Cert.Spec.qkv X (fun o h => x1 (ix2 o h)) (fun o h => x2 (ix2 o h)) (fun o h => x3 (ix2 o h))
          (fun o => x4 (ix2 (0 : Fin 1) o)) (fun o => x5 (ix2 (0 : Fin 1) o)) (fun o => x6 (ix2 (0 : Fin 1) o)) r j := by
  have hj : j.val < 3072 := j.isLt
  unfold Cert.Spec.qkv
  by_cases h1 : j.val < 1024
  · rw [dif_pos h1, out_block_q x0 x1 x2 x3 x4 x5 x6 p ⟨j.val, h1⟩ j rfl, panel_q_apply]
    unfold Cert.Spec.proj
    simp only [hx]
  · rw [dif_neg h1]
    by_cases h2 : j.val < 2048
    · rw [dif_pos h2, out_block_k x0 x1 x2 x3 x4 x5 x6 p ⟨j.val - 1024, by omega⟩ j (by show j.val = 1024 + (j.val - 1024); omega), panel_k_apply]
      unfold Cert.Spec.proj
      simp only [hx]
    · rw [dif_neg h2, out_block_v x0 x1 x2 x3 x4 x5 x6 p ⟨j.val - 2048, by omega⟩ j (by show j.val = 2048 + (j.val - 2048); omega), panel_v_apply]
      unfold Cert.Spec.proj
      simp only [hx]

/-! ## From blocks to the array -/

-- the TensorCore's buffer contents when region 0 is entered
variable (V : (c : Dev nD) → (b : Ref sig .tc) → Buf (Elt Ideal) ((c : Thread nD τ).loc b))

/-- The seven arrays the region reads, as it finds them, as functions of their indices. -/
abbrev arrIn0_0 (c : Dev nD) : S2048x1024.Idx → EReal := V c (Pipeline.arrRef spec0 0)   -- the activations
abbrev arrIn0_1 (c : Dev nD) : S1024x1024.Idx → EReal := V c (Pipeline.arrRef spec0 1)   -- the first projection's weight
abbrev arrIn0_2 (c : Dev nD) : S1024x1024.Idx → EReal := V c (Pipeline.arrRef spec0 2)   -- the second's
abbrev arrIn0_3 (c : Dev nD) : S1024x1024.Idx → EReal := V c (Pipeline.arrRef spec0 3)   -- the third's
abbrev arrIn0_4 (c : Dev nD) : S1x1024.Idx → EReal := V c (Pipeline.arrRef spec0 4)   -- the first projection's bias row
abbrev arrIn0_5 (c : Dev nD) : S1x1024.Idx → EReal := V c (Pipeline.arrRef spec0 5)   -- the second's
abbrev arrIn0_6 (c : Dev nD) : S1x1024.Idx → EReal := V c (Pipeline.arrRef spec0 6)   -- the third's

/-- The three projections side by side at row `r`, column `j`, from seven arrays: the activations, the three weights
    (output column first), the three bias rows. -/
def qkvArr (a0 : S2048x1024.Idx → EReal) (a1 a2 a3 : S1024x1024.Idx → EReal) (a4 a5 a6 : S1x1024.Idx → EReal)
    (r : Fin 2048) (j : Fin 3072) : EReal :=
  Cert.Spec.qkv (fun r h => a0 (ix2 r h)) (fun o h => a1 (ix2 o h)) (fun o h => a2 (ix2 o h)) (fun o h => a3 (ix2 o h))
    (fun o => a4 (ix2 (0 : Fin 1) o)) (fun o => a5 (ix2 (0 : Fin 1) o)) (fun o => a6 (ix2 (0 : Fin 1) o)) r j

/-- The output array as ONE function of the seven arrays as the region finds them. -/
def outArr0 (c : Dev nD) : S2048x3072.Idx → EReal := fun i =>
  qkvArr (arrIn0_0 V c) (arrIn0_1 V c) (arrIn0_2 V c) (arrIn0_3 V c) (arrIn0_4 V c) (arrIn0_5 V c) (arrIn0_6 V c)
    ⟨(i 0).val, (i 0).isLt⟩ ⟨(i 1).val, (i 1).isLt⟩

/-- The output array at an index whose coordinates are `r` and `j`. -/
theorem outArr0_apply (c : Dev nD) (i : S2048x3072.Idx) (r : Fin 2048) (j : Fin 3072) (h0 : (i 0).val = r.val) (h1 : (i 1).val = j.val) :
    outArr0 V c i = qkvArr (arrIn0_0 V c) (arrIn0_1 V c) (arrIn0_2 V c) (arrIn0_3 V c) (arrIn0_4 V c) (arrIn0_5 V c) (arrIn0_6 V c) r j := by
  have e0 : (⟨(i 0).val, (i 0).isLt⟩ : Fin 2048) = r := Fin.ext h0
  have e1 : (⟨(i 1).val, (i 1).isLt⟩ : Fin 3072) = j := Fin.ext h1
  unfold outArr0
  rw [e0, e1]

/-- The printed index maps, decided over the grid: the row-blocked windows (the activations, the output) sit at block
    `t` of the rows at point `t`, every other window at its one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0's block at point `t` is rows `512 t … 512 t + 511` of the activations. -/
theorem iblk0_0_apply (c : Dev nD) (t : Fin cfg0.N) (p : Fin 512) (k : Fin 1024) (r : Fin 2048) (hr : r.val = t.val * 512 + p.val) :
    (iblk0 V c 0 t : Vec Ideal S512x1024 .f32) (ix2 p k) = arrIn0_0 V c (ix2 r k) := by
  obtain ⟨e0, e1, -⟩ := idx_facts0 t
  show arrIn0_0 V c (((cfg0.win 0).blk t).view.emb (ix2 p k)) = _
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- Window 1's block at every point is the whole weight of the first projection. -/
theorem iblk0_1_apply (c : Dev nD) (t : Fin cfg0.N) (o k : Fin 1024) :
    (iblk0 V c 1 t : Vec Ideal S1024x1024 .bf16) (ix2 o k) = arrIn0_1 V c (ix2 o k) := by
  obtain ⟨-, -, e0, e1, -⟩ := idx_facts0 t
  show arrIn0_1 V c (((cfg0.win 1).blk t).view.emb (ix2 o k)) = _
  refine congrArg _ (funext fun a => Fin.ext ?_)
  match a with
  | ⟨0, _⟩ => show win0_1.index t (0 : Fin 2) * 1024 + 1 * o.val = o.val; rw [e0]; omega
  | ⟨1, _⟩ => show win0_1.index t (1 : Fin 2) * 1024 + 1 * k.val = k.val; rw [e1]; omega

/-- Window 2's block at every point is the whole weight of the second projection. -/
theorem iblk0_2_apply (c : Dev nD) (t : Fin cfg0.N) (o k : Fin 1024) :
    (iblk0 V c 2 t : Vec Ideal S1024x1024 .bf16) (ix2 o k) = arrIn0_2 V c (ix2 o k) := by
  obtain ⟨-, -, -, -, e0, e1, -⟩ := idx_facts0 t
  show arrIn0_2 V c (((cfg0.win 2).blk t).view.emb (ix2 o k)) = _
  refine congrArg _ (funext fun a => Fin.ext ?_)
  match a with
  | ⟨0, _⟩ => show win0_2.index t (0 : Fin 2) * 1024 + 1 * o.val = o.val; rw [e0]; omega
  | ⟨1, _⟩ => show win0_2.index t (1 : Fin 2) * 1024 + 1 * k.val = k.val; rw [e1]; omega

/-- Window 3's block at every point is the whole weight of the third projection. -/
theorem iblk0_3_apply (c : Dev nD) (t : Fin cfg0.N) (o k : Fin 1024) :
    (iblk0 V c 3 t : Vec Ideal S1024x1024 .bf16) (ix2 o k) = arrIn0_3 V c (ix2 o k) := by
  obtain ⟨-, -, -, -, -, -, e0, e1, -⟩ := idx_facts0 t
  show arrIn0_3 V c (((cfg0.win 3).blk t).view.emb (ix2 o k)) = _
  refine congrArg _ (funext fun a => Fin.ext ?_)
  match a with
  | ⟨0, _⟩ => show win0_3.index t (0 : Fin 2) * 1024 + 1 * o.val = o.val; rw [e0]; omega
  | ⟨1, _⟩ => show win0_3.index t (1 : Fin 2) * 1024 + 1 * k.val = k.val; rw [e1]; omega

/-- Window 4's block at every point is the whole bias row of the first projection. -/
theorem iblk0_4_apply (c : Dev nD) (t : Fin cfg0.N) (u : Fin 1) (k : Fin 1024) :
    (iblk0 V c 4 t : Vec Ideal S1x1024 .f32) (ix2 u k) = arrIn0_4 V c (ix2 u k) := by
  obtain ⟨-, -, -, -, -, -, -, -, e0, e1, -⟩ := idx_facts0 t
  show arrIn0_4 V c (((cfg0.win 4).blk t).view.emb (ix2 u k)) = _
  refine congrArg _ (funext fun a => Fin.ext ?_)
  match a with
  | ⟨0, _⟩ => show win0_4.index t (0 : Fin 2) * 1 + 1 * u.val = u.val; rw [e0]; omega
  | ⟨1, _⟩ => show win0_4.index t (1 : Fin 2) * 1024 + 1 * k.val = k.val; rw [e1]; omega

/-- Window 5's block at every point is the whole bias row of the second projection. -/
theorem iblk0_5_apply (c : Dev nD) (t : Fin cfg0.N) (u : Fin 1) (k : Fin 1024) :
    (iblk0 V c 5 t : Vec Ideal S1x1024 .f32) (ix2 u k) = arrIn0_5 V c (ix2 u k) := by
  obtain ⟨-, -, -, -, -, -, -, -, -, -, e0, e1, -⟩ := idx_facts0 t
  show arrIn0_5 V c (((cfg0.win 5).blk t).view.emb (ix2 u k)) = _
  refine congrArg _ (funext fun a => Fin.ext ?_)
  match a with
  | ⟨0, _⟩ => show win0_5.index t (0 : Fin 2) * 1 + 1 * u.val = u.val; rw [e0]; omega
  | ⟨1, _⟩ => show win0_5.index t (1 : Fin 2) * 1024 + 1 * k.val = k.val; rw [e1]; omega

/-- Window 6's block at every point is the whole bias row of the third projection. -/
theorem iblk0_6_apply (c : Dev nD) (t : Fin cfg0.N) (u : Fin 1) (k : Fin 1024) :
    (iblk0 V c 6 t : Vec Ideal S1x1024 .f32) (ix2 u k) = arrIn0_6 V c (ix2 u k) := by
  obtain ⟨-, -, -, -, -, -, -, -, -, -, -, -, e0, e1, -⟩ := idx_facts0 t
  show arrIn0_6 V c (((cfg0.win 6).blk t).view.emb (ix2 u k)) = _
  refine congrArg _ (funext fun a => Fin.ext ?_)
  match a with
  | ⟨0, _⟩ => show win0_6.index t (0 : Fin 2) * 1 + 1 * u.val = u.val; rw [e0]; omega
  | ⟨1, _⟩ => show win0_6.index t (1 : Fin 2) * 1024 + 1 * k.val = k.val; rw [e1]; omega

/-- WHAT POINT `t` WRITES BACK is block `t` of the output array's function. -/
theorem flushed0_7_eq (c : Dev nD) (t : Fin cfg0.N) :
    (dat0 (F := Ideal) V c).flushed 7 t = ((cfg0.win 7).blk t).view.read (Elt Ideal) (outArr0 V c) := by
  show (cfg0.win 7).cut (grid0.coords t) ((dat0 V c).after 7 t) = _
  rw [after0_7]
  obtain ⟨-, -, -, -, -, -, -, -, -, -, -, -, -, -, e70, e71⟩ := idx_facts0 t
  have hN : t.val < 4 := Nat.lt_of_lt_of_eq t.isLt N_0
  funext i
  obtain ⟨p, j, rfl⟩ : ∃ (p : Fin 512) (j : Fin 3072), i = ix2 p j := ⟨i 0, i 1, eq_ix2 i⟩
  show out0_7 (iblk0 V c 0 t) (iblk0 V c 1 t) (iblk0 V c 2 t) (iblk0 V c 3 t) (iblk0 V c 4 t) (iblk0 V c 5 t) (iblk0 V c 6 t) (ix2 p j)
    = outArr0 V c (((cfg0.win 7).blk t).view.emb (ix2 p j))
  have hp : p.val < 512 := p.isLt
  refine Eq.trans ?_ (outArr0_apply V c _ ⟨t.val * 512 + p.val, by omega⟩ j ?_ ?_).symm
  · unfold qkvArr
    refine (out0_7_apply _ _ _ _ _ _ _ (fun r h => arrIn0_0 V c (ix2 r h)) ⟨t.val * 512 + p.val, by omega⟩ p
      (fun h => iblk0_0_apply V c t p h ⟨t.val * 512 + p.val, by omega⟩ rfl) j).trans ?_
    simp only [iblk0_1_apply V c t, iblk0_2_apply V c t, iblk0_3_apply V c t, iblk0_4_apply V c t, iblk0_5_apply V c t, iblk0_6_apply V c t]
  · show win0_7.index t (0 : Fin 2) * 512 + 1 * p.val = t.val * 512 + p.val
    rw [e70]; omega
  · show win0_7.index t (1 : Fin 2) * 3072 + 1 * j.val = j.val
    rw [e71]; omega

/-- An index of the output array is in point `t`'s block iff each coordinate is in the block's range on its axis. -/
theorem mem_blk0_7 (t : Fin cfg0.N) (i : S2048x3072.Idx) :
    i ∈ ((cfg0.win 7).blk t).view.set ↔ ∀ a : Fin 2, win0_7.index t a * S512x3072.size a ≤ (i a).val ∧ (i a).val < win0_7.index t a * S512x3072.size a + S512x3072.size a := by
  show i ∈ ((View.whole main_v8).slice (win0_7.rect t)).set ↔ _
  rw [View.set_slice_whole, Rect.mem_set_unit]
  exact Iff.rfl

/-- Every index of the output array is in the block of the point its row falls in. -/
theorem arrCover0_7 (i : S2048x3072.Idx) : ∃ t : Fin cfg0.N, (cfg0.win 7).flush t = true ∧ i ∈ ((cfg0.win 7).blk t).view.set := by
  have hi0 : (i 0).val < 2048 := (i 0).isLt
  have hi1 : (i 1).val < 3072 := (i 1).isLt
  have hN : cfg0.N = 4 := N_0
  obtain ⟨-, -, -, -, -, -, -, -, -, -, -, -, -, -, e70, e71⟩ := idx_facts0 ⟨(i 0).val / 512, by rw [hN]; omega⟩
  refine ⟨⟨(i 0).val / 512, by rw [hN]; omega⟩, flush0_7 _, ?_⟩
  rw [mem_blk0_7]
  intro a
  match a with
  | ⟨0, _⟩ =>
    show win0_7.index ⟨(i 0).val / 512, _⟩ (0 : Fin 2) * 512 ≤ (i 0).val ∧ (i 0).val < win0_7.index ⟨(i 0).val / 512, _⟩ (0 : Fin 2) * 512 + 512
    rw [e70]; show (i 0).val / 512 * 512 ≤ (i 0).val ∧ (i 0).val < (i 0).val / 512 * 512 + 512; omega
  | ⟨1, _⟩ =>
    show win0_7.index ⟨(i 0).val / 512, _⟩ (1 : Fin 2) * 3072 ≤ (i 1).val ∧ (i 1).val < win0_7.index ⟨(i 0).val / 512, _⟩ (1 : Fin 2) * 3072 + 3072
    rw [e71]; omega

/-- THE OUTPUT ARRAY after the region is the three projections of the activations, side by side. -/
theorem arr0_7_eq (c : Dev nD) : (dat0 (F := Ideal) V c).arrAt 7 cfg0.N = outArr0 V c :=
  (dat0 (F := Ideal) V c).arrAt_eq_of_cover 7 (outArr0 V c) (fun t _ => flushed0_7_eq V c t) (arrCover0_7)

/-- THE VALUE OF REGION 0: the output array at row `r`, column `j`, over the seven arrays as the region finds them (window 0
    the activations, 1 to 3 the three weights, 4 to 6 the three bias rows): the projections `[Q | K | V]` of row `r`. -/
theorem final0 (c : Dev nD) (r : Fin 2048) (j : Fin 3072) :
    ((dat0 (F := Ideal) V c).arrAt 7 cfg0.N : S2048x3072.Idx → EReal) (ix2 r j)
      = Cert.Spec.qkv (fun r h => (V c (Pipeline.arrRef spec0 0) : S2048x1024.Idx → EReal) (ix2 r h))
          (fun o h => (V c (Pipeline.arrRef spec0 1) : S1024x1024.Idx → EReal) (ix2 o h))
          (fun o h => (V c (Pipeline.arrRef spec0 2) : S1024x1024.Idx → EReal) (ix2 o h))
          (fun o h => (V c (Pipeline.arrRef spec0 3) : S1024x1024.Idx → EReal) (ix2 o h))
          (fun o => (V c (Pipeline.arrRef spec0 4) : S1x1024.Idx → EReal) (ix2 (0 : Fin 1) o))
          (fun o => (V c (Pipeline.arrRef spec0 5) : S1x1024.Idx → EReal) (ix2 (0 : Fin 1) o))
          (fun o => (V c (Pipeline.arrRef spec0 6) : S1x1024.Idx → EReal) (ix2 (0 : Fin 1) o)) r j :=
  (congrFun (arr0_7_eq V c) (ix2 r j)).trans (outArr0_apply V c (ix2 r j) r j rfl rfl)

end Cert.KernelIdeal.Fr

end
-- ==== Proof.KI.Val1.Pair.lean ====
/- The attention body handles two heads per grid point: its [1024, 128] blocks hold the 64 columns of the first head
   of the pair and then the 64 columns of the second. -/

namespace Cert.KernelIdeal.Fr

/-- The head (0 or 1) of the pair a block column belongs to. -/
def pairHead (col' : Fin 128) : Fin 2 := ⟨col'.val / 64, by have := col'.isLt; omega⟩
/-- Column `e` of head `h'` inside the [1024, 128] block. -/
def pairCol (h' : Fin 2) (e : Fin 64) : Fin 128 := ⟨64 * h'.val + e.val, by have := h'.isLt; have := e.isLt; omega⟩

end Cert.KernelIdeal.Fr
-- ==== Proof.KI.Val1.lean ====
/- REGION 1 of @main — custom_call 1 (the attention of one head pair per grid point) — THE VALUE at the ideal instance,
   from the body's output block at an index: the printed index maps over the grid (batch element, head pair), each input
   window's block as rows and columns of its array (the query, key and value panels are three column ranges of ONE flat
   [2048, 3072] array), what a point writes back as a block of one function of the four arrays, the cover, and the output
   array after the region index by index. -/
import proofs.«416712_j77146202571310_3_alg».proof.Proof.KI.Dat1
import proofs.«416712_j77146202571310_3_alg».proof.Proof.KI.Val1.Pair
import proofs.«416712_j77146202571310_3_alg».proof.Proof.Spec
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! # The value of region 1 (attention, two heads per grid point) at the ideal instance -/

/-- The body's output block at an index: query row `q`, block column `col'` (head `col' / 64` of the pair). It is the
    masked weighted sum over the keys of the value block's column `col'`, the weights the softmax of the head's logits
    (the query row against each key row over the head's 64 columns, plus the transformed noise of the head's slab), the
    query mask applied after the sum. -/
def OutBlock1 : Prop := ∀ (x0 x1 x2 : Vec Ideal S1024x128 .f32) (x3 : Vec Ideal S1x2x1024x1024 .f32) (x4 : Vec Ideal S1x1024x1 .f32) (x5 : Vec Ideal S1x1x1024 .f32) (q : Fin 1024) (col' : Fin 128),
    out1_6 (F := Ideal) x0 x1 x2 x3 x4 x5 (ix2 q col')
      = Cert.Spec.attnAfter
          (Cert.Spec.soft (fun k : Fin 1024 =>
            (∑ e : Fin 64, x0 (ix2 q (pairCol (pairHead col') e)) * x1 (ix2 k (pairCol (pairHead col') e)))
              + Cert.Spec.gum (x3 (ix4 (0 : Fin 1) (pairHead col') q k))))
          (fun k : Fin 1024 => x5 (ix3 (0 : Fin 1) (0 : Fin 1) k))
          (fun k : Fin 1024 => x2 (ix2 k col'))
          (x4 (ix3 (0 : Fin 1) q (0 : Fin 1)))

/-! ## From blocks to the array -/

-- the TensorCore's buffer contents when region 1 is entered
variable (V : (c : Dev nD) → (b : Ref sig .tc) → Buf (Elt Ideal) ((c : Thread nD τ).loc b))

/-- The four arrays the region reads, as it finds them, as functions of their indices. -/
abbrev arrIn1_0 (c : Dev nD) : S2048x3072.Idx → EReal := V c (Pipeline.arrRef spec1 0)   -- the projections [Q | K | V]
abbrev arrIn1_3 (c : Dev nD) : S2x16x1024x1024.Idx → EReal := V c (Pipeline.arrRef spec1 3)   -- the noise
abbrev arrIn1_4 (c : Dev nD) : S2x1024x1.Idx → EReal := V c (Pipeline.arrRef spec1 4)   -- the query-side mask
abbrev arrIn1_5 (c : Dev nD) : S2x1x1024.Idx → EReal := V c (Pipeline.arrRef spec1 5)   -- the key-side mask

/-- The printed index maps, decided over the grid: point `t` is batch element `t / 8`, head pair `t % 8`. The query,
    key and value windows sit at row block `t / 8` and column blocks `t % 8`, `t % 8 + 8`, `t % 8 + 16` of the
    projections' array; the noise window at `(t / 8, t % 8, 0, 0)`; the two masks at `(t / 8, 0, 0)`; the output at
    `(t / 8, t % 8)`. -/
theorem idx_facts1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8 + 8
    ∧ win1_2.index t (0 : Fin 2) = t.val / 8 ∧ win1_2.index t (1 : Fin 2) = t.val % 8 + 16
    ∧ win1_3.index t (0 : Fin 4) = t.val / 8 ∧ win1_3.index t (1 : Fin 4) = t.val % 8
    ∧ win1_3.index t (2 : Fin 4) = 0 ∧ win1_3.index t (3 : Fin 4) = 0
    ∧ win1_4.index t (0 : Fin 3) = t.val / 8 ∧ win1_4.index t (1 : Fin 3) = 0 ∧ win1_4.index t (2 : Fin 3) = 0
    ∧ win1_5.index t (0 : Fin 3) = t.val / 8 ∧ win1_5.index t (1 : Fin 3) = 0 ∧ win1_5.index t (2 : Fin 3) = 0
    ∧ win1_6.index t (0 : Fin 2) = t.val / 8 ∧ win1_6.index t (1 : Fin 2) = t.val % 8 :=
  (by decide +kernel : ∀ t : Fin grid1.N, _)

/-- Window 0's block at point `t` is rows `1024 (t / 8) …`, columns `128 (t % 8) …` of the projections' array: the
    query columns of the head pair. -/
theorem iblk1_0_apply (c : Dev nD) (t : Fin cfg1.N) (p : Fin 1024) (k : Fin 128) (r : Fin 2048) (j : Fin 3072)
    (hr : r.val = t.val / 8 * 1024 + p.val) (hj : j.val = t.val % 8 * 128 + k.val) :
    (iblk1 V c 0 t : Vec Ideal S1024x128 .f32) (ix2 p k) = arrIn1_0 V c (ix2 r j) := by
  obtain ⟨e0, e1, -⟩ := idx_facts1 t
  show arrIn1_0 V c (((cfg1.win 0).blk t).view.emb (ix2 p k)) = _
  refine congrArg _ (funext fun a => Fin.ext ?_)
  match a with
  | ⟨0, _⟩ => show win1_0.index t (0 : Fin 2) * 1024 + 1 * p.val = r.val; rw [e0, hr]; omega
  | ⟨1, _⟩ => show win1_0.index t (1 : Fin 2) * 128 + 1 * k.val = j.val; rw [e1, hj]; omega

/-- Window 1's block at point `t` is the same rows, columns `128 (t % 8 + 8) …` of the SAME array: the key columns of the
    head pair, 1024 columns to the right of the query's. -/
theorem iblk1_1_apply (c : Dev nD) (t : Fin cfg1.N) (p : Fin 1024) (k : Fin 128) (r : Fin 2048) (j : Fin 3072)
    (hr : r.val = t.val / 8 * 1024 + p.val) (hj : j.val = (t.val % 8 + 8) * 128 + k.val) :
    (iblk1 V c 1 t : Vec Ideal S1024x128 .f32) (ix2 p k) = arrIn1_0 V c (ix2 r j) := by
  obtain ⟨-, -, e0, e1, -⟩ := idx_facts1 t
  show arrIn1_0 V c (((cfg1.win 1).blk t).view.emb (ix2 p k)) = _
  refine congrArg _ (funext fun a => Fin.ext ?_)
  match a with
  | ⟨0, _⟩ => show win1_1.index t (0 : Fin 2) * 1024 + 1 * p.val = r.val; rw [e0, hr]; omega
  | ⟨1, _⟩ => show win1_1.index t (1 : Fin 2) * 128 + 1 * k.val = j.val; rw [e1, hj]; omega

/-- Window 2's block at point `t` is the same rows, columns `128 (t % 8 + 16) …` of the SAME array: the value columns of
    the head pair, 2048 columns to the right of the query's. -/
theorem iblk1_2_apply (c : Dev nD) (t : Fin cfg1.N) (p : Fin 1024) (k : Fin 128) (r : Fin 2048) (j : Fin 3072)
    (hr : r.val = t.val / 8 * 1024 + p.val) (hj : j.val = (t.val % 8 + 16) * 128 + k.val) :
    (iblk1 V c 2 t : Vec Ideal S1024x128 .f32) (ix2 p k) = arrIn1_0 V c (ix2 r j) := by
  obtain ⟨-, -, -, -, e0, e1, -⟩ := idx_facts1 t
  show arrIn1_0 V c (((cfg1.win 2).blk t).view.emb (ix2 p k)) = _
  refine congrArg _ (funext fun a => Fin.ext ?_)
  match a with
  | ⟨0, _⟩ => show win1_2.index t (0 : Fin 2) * 1024 + 1 * p.val = r.val; rw [e0, hr]; omega
  | ⟨1, _⟩ => show win1_2.index t (1 : Fin 2) * 128 + 1 * k.val = j.val; rw [e1, hj]; omega

/-- Window 3's block at point `t` is the two heads `2 (t % 8)`, `2 (t % 8) + 1` of batch element `t / 8` of the noise. -/
theorem iblk1_3_apply (c : Dev nD) (t : Fin cfg1.N) (u : Fin 1) (h' : Fin 2) (q k : Fin 1024) (n : Fin 2) (h : Fin 16)
    (hn : n.val = t.val / 8) (hh : h.val = t.val % 8 * 2 + h'.val) :
    (iblk1 V c 3 t : Vec Ideal S1x2x1024x1024 .f32) (ix4 u h' q k) = arrIn1_3 V c (ix4 n h q k) := by
  obtain ⟨-, -, -, -, -, -, e0, e1, e2, e3, -⟩ := idx_facts1 t
  show arrIn1_3 V c (((cfg1.win 3).blk t).view.emb (ix4 u h' q k)) = _
  refine congrArg _ (funext fun a => Fin.ext ?_)
  match a with
  | ⟨0, _⟩ => show win1_3.index t (0 : Fin 4) * 1 + 1 * u.val = n.val; rw [e0, hn]; omega
  | ⟨1, _⟩ => show win1_3.index t (1 : Fin 4) * 2 + 1 * h'.val = h.val; rw [e1, hh]; omega
  | ⟨2, _⟩ => show win1_3.index t (2 : Fin 4) * 1024 + 1 * q.val = q.val; rw [e2]; omega
  | ⟨3, _⟩ => show win1_3.index t (3 : Fin 4) * 1024 + 1 * k.val = k.val; rw [e3]; omega

/-- Window 4's block at point `t` is batch element `t / 8` of the query-side mask. -/
theorem iblk1_4_apply (c : Dev nD) (t : Fin cfg1.N) (u : Fin 1) (q : Fin 1024) (u' : Fin 1) (n : Fin 2) (hn : n.val = t.val / 8) :
    (iblk1 V c 4 t : Vec Ideal S1x1024x1 .f32) (ix3 u q u') = arrIn1_4 V c (ix3 n q u') := by
  obtain ⟨-, -, -, -, -, -, -, -, -, -, e0, e1, e2, -⟩ := idx_facts1 t
  show arrIn1_4 V c (((cfg1.win 4).blk t).view.emb (ix3 u q u')) = _
  refine congrArg _ (funext fun a => Fin.ext ?_)
  match a with
  | ⟨0, _⟩ => show win1_4.index t (0 : Fin 3) * 1 + 1 * u.val = n.val; rw [e0, hn]; omega
  | ⟨1, _⟩ => show win1_4.index t (1 : Fin 3) * 1024 + 1 * q.val = q.val; rw [e1]; omega
  | ⟨2, _⟩ => show win1_4.index t (2 : Fin 3) * 1 + 1 * u'.val = u'.val; rw [e2]; omega

/-- Window 5's block at point `t` is batch element `t / 8` of the key-side mask. -/
theorem iblk1_5_apply (c : Dev nD) (t : Fin cfg1.N) (u u' : Fin 1) (k : Fin 1024) (n : Fin 2) (hn : n.val = t.val / 8) :
    (iblk1 V c 5 t : Vec Ideal S1x1x1024 .f32) (ix3 u u' k) = arrIn1_5 V c (ix3 n u' k) := by
  obtain ⟨-, -, -, -, -, -, -, -, -, -, -, -, -, e0, e1, e2, -⟩ := idx_facts1 t
  show arrIn1_5 V c (((cfg1.win 5).blk t).view.emb (ix3 u u' k)) = _
  refine congrArg _ (funext fun a => Fin.ext ?_)
  match a with
  | ⟨0, _⟩ => show win1_5.index t (0 : Fin 3) * 1 + 1 * u.val = n.val; rw [e0, hn]; omega
  | ⟨1, _⟩ => show win1_5.index t (1 : Fin 3) * 1 + 1 * u'.val = u'.val; rw [e1]; omega
  | ⟨2, _⟩ => show win1_5.index t (2 : Fin 3) * 1024 + 1 * k.val = k.val; rw [e2]; omega

/-! ## The output array as one function of the four arrays -/

/-- The attention output at row `(n, s)`, column `col`, from the four arrays: the projections `[Q | K | V]` (the query
    panel its columns `0…1023`, the key panel `1024…2047`, the value panel `2048…3071`), the noise and the two masks. -/
def attnArr (a0 : S2048x3072.Idx → EReal) (a3 : S2x16x1024x1024.Idx → EReal) (a4 : S2x1024x1.Idx → EReal)
    (a5 : S2x1x1024.Idx → EReal) (n : Fin 2) (s col : Fin 1024) : EReal :=
  Cert.Spec.attnAfter
    (Cert.Spec.soft (Cert.Spec.logit
      (fun r c' => a0 (ix2 r ⟨c'.val, by have := c'.isLt; omega⟩))
      (fun r c' => a0 (ix2 r ⟨1024 + c'.val, by have := c'.isLt; omega⟩))
      (fun n h q k => a3 (ix4 n h q k))
      n (Cert.Spec.headOf col) s))
    (fun k => a5 (ix3 n (0 : Fin 1) k))
    (fun k => a0 (ix2 (Cert.Spec.row n k) ⟨2048 + col.val, by have := col.isLt; omega⟩))
    (a4 (ix3 n s (0 : Fin 1)))

/-- The batch element and the position of a flat row. -/
def rowBatch (r : Fin 2048) : Fin 2 := ⟨r.val / 1024, by have := r.isLt; omega⟩
def rowPos (r : Fin 2048) : Fin 1024 := ⟨r.val % 1024, by omega⟩

/-- The output array as ONE function of the four arrays as the region finds them. -/
def outArr1 (c : Dev nD) : S2048x1024.Idx → EReal := fun i =>
  attnArr (arrIn1_0 V c) (arrIn1_3 V c) (arrIn1_4 V c) (arrIn1_5 V c)
    (rowBatch ⟨(i 0).val, (i 0).isLt⟩) (rowPos ⟨(i 0).val, (i 0).isLt⟩) ⟨(i 1).val, (i 1).isLt⟩

/-- The output array at an index whose row is `(n, s)` and whose column is `col`. -/
theorem outArr1_apply (c : Dev nD) (i : S2048x1024.Idx) (n : Fin 2) (s col : Fin 1024)
    (h0 : (i 0).val = 1024 * n.val + s.val) (h1 : (i 1).val = col.val) :
    outArr1 V c i = attnArr (arrIn1_0 V c) (arrIn1_3 V c) (arrIn1_4 V c) (arrIn1_5 V c) n s col := by
  have hn := n.isLt
  have hs := s.isLt
  have e0 : rowBatch ⟨(i 0).val, (i 0).isLt⟩ = n := Fin.ext (by show (i 0).val / 1024 = n.val; omega)
  have e1 : rowPos ⟨(i 0).val, (i 0).isLt⟩ = s := Fin.ext (by show (i 0).val % 1024 = s.val; omega)
  have e2 : (⟨(i 1).val, (i 1).isLt⟩ : Fin 1024) = col := Fin.ext h1
  unfold outArr1
  rw [e0, e1, e2]

/-- WHAT POINT `t` WRITES BACK is block `t` of the output array's function: at point `t = (b, p)` the block's row `q` is
    row `(b, q)`, its column `col'` is column `128 p + col'`, of head `2 p + col' / 64`, whose 64 columns are
    `128 p + 64 (col' / 64) + e`: the block's columns of that head of the pair. -/
theorem flushed1_6_eq (hblock : OutBlock1) (c : Dev nD) (t : Fin cfg1.N) :
    (dat1 (F := Ideal) V c).flushed 6 t = ((cfg1.win 6).blk t).view.read (Elt Ideal) (outArr1 V c) := by
  show (cfg1.win 6).cut (grid1.coords t) ((dat1 V c).after 6 t) = _
  rw [after1_6]
  obtain ⟨-, -, -, -, -, -, -, -, -, -, -, -, -, -, -, -, e60, e61⟩ := idx_facts1 t
  have hN : t.val < 16 := Nat.lt_of_lt_of_eq t.isLt N_1
  funext j
  obtain ⟨q, col', rfl⟩ : ∃ (q : Fin 1024) (col' : Fin 128), j = ix2 q col' := ⟨j 0, j 1, eq_ix2 j⟩
  show out1_6 (iblk1 V c 0 t) (iblk1 V c 1 t) (iblk1 V c 2 t) (iblk1 V c 3 t) (iblk1 V c 4 t) (iblk1 V c 5 t) (ix2 q col')
    = outArr1 V c (((cfg1.win 6).blk t).view.emb (ix2 q col'))
  refine (hblock _ _ _ _ _ _ q col').trans ?_
  have hq : q.val < 1024 := q.isLt
  have hc : col'.val < 128 := col'.isLt
  refine Eq.trans ?_ (outArr1_apply V c _ ⟨t.val / 8, by omega⟩ q ⟨t.val % 8 * 128 + col'.val, by omega⟩ ?_ ?_).symm
  · unfold attnArr
    refine congr (congr (congr (congrArg Cert.Spec.attnAfter (congrArg Cert.Spec.soft (funext fun k => ?_))) (funext fun k => ?_)) (funext fun k => ?_)) ?_
    · simp only [Cert.Spec.logit]
      refine congrArg₂ (· + ·) (Finset.sum_congr rfl fun e _ => congrArg₂ (· * ·) ?_ ?_) (congrArg Cert.Spec.gum ?_)
      · exact iblk1_0_apply V c t q _ _ _
          (by show 1024 * (t.val / 8) + q.val = t.val / 8 * 1024 + q.val; omega)
          (by show 64 * ((t.val % 8 * 128 + col'.val) / 64) + e.val = t.val % 8 * 128 + (64 * (col'.val / 64) + e.val); omega)
      · exact iblk1_1_apply V c t k _ _ _
          (by show 1024 * (t.val / 8) + k.val = t.val / 8 * 1024 + k.val; omega)
          (by show 1024 + (64 * ((t.val % 8 * 128 + col'.val) / 64) + e.val) = (t.val % 8 + 8) * 128 + (64 * (col'.val / 64) + e.val); omega)
      · exact iblk1_3_apply V c t 0 _ q k _ _ rfl
          (by show (t.val % 8 * 128 + col'.val) / 64 = t.val % 8 * 2 + col'.val / 64; omega)
    · exact iblk1_5_apply V c t 0 0 k _ rfl
    · exact iblk1_2_apply V c t k col' _ _
        (by show 1024 * (t.val / 8) + k.val = t.val / 8 * 1024 + k.val; omega)
        (by show 2048 + (t.val % 8 * 128 + col'.val) = (t.val % 8 + 16) * 128 + col'.val; omega)
    · exact iblk1_4_apply V c t 0 q 0 _ rfl
  · show win1_6.index t (0 : Fin 2) * 1024 + 1 * q.val = 1024 * (t.val / 8) + q.val
    rw [e60]; omega
  · show win1_6.index t (1 : Fin 2) * 128 + 1 * col'.val = t.val % 8 * 128 + col'.val
    rw [e61]; omega

/-- An index of the output array is in point `t`'s block iff each coordinate is in the block's range on its axis. -/
theorem mem_blk1_6 (t : Fin cfg1.N) (i : S2048x1024.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v11).slice (win1_6.rect t)).set ↔ _
  rw [View.set_slice_whole, Rect.mem_set_unit]
  exact Iff.rfl

/-- Every index of the output array is in the block of the point its row's batch element and its column's head pair
    name: point `8 (r / 1024) + col / 128`. -/
theorem arrCover1_6 (i : S2048x1024.Idx) : ∃ t : Fin cfg1.N, (cfg1.win 6).flush t = true ∧ i ∈ ((cfg1.win 6).blk t).view.set := by
  have hi0 : (i 0).val < 2048 := (i 0).isLt
  have hi1 : (i 1).val < 1024 := (i 1).isLt
  have hN : cfg1.N = 16 := N_1
  obtain ⟨-, -, -, -, -, -, -, -, -, -, -, -, -, -, -, -, e60, e61⟩ := idx_facts1 ⟨(i 0).val / 1024 * 8 + (i 1).val / 128, by rw [hN]; omega⟩
  refine ⟨⟨(i 0).val / 1024 * 8 + (i 1).val / 128, by rw [hN]; omega⟩, flush1_6 _, ?_⟩
  rw [mem_blk1_6]
  intro a
  match a with
  | ⟨0, _⟩ =>
    show win1_6.index ⟨(i 0).val / 1024 * 8 + (i 1).val / 128, _⟩ (0 : Fin 2) * 1024 ≤ (i 0).val ∧ (i 0).val < win1_6.index ⟨(i 0).val / 1024 * 8 + (i 1).val / 128, _⟩ (0 : Fin 2) * 1024 + 1024
    rw [e60]; show ((i 0).val / 1024 * 8 + (i 1).val / 128) / 8 * 1024 ≤ (i 0).val ∧ (i 0).val < ((i 0).val / 1024 * 8 + (i 1).val / 128) / 8 * 1024 + 1024; omega
  | ⟨1, _⟩ =>
    show win1_6.index ⟨(i 0).val / 1024 * 8 + (i 1).val / 128, _⟩ (1 : Fin 2) * 128 ≤ (i 1).val ∧ (i 1).val < win1_6.index ⟨(i 0).val / 1024 * 8 + (i 1).val / 128, _⟩ (1 : Fin 2) * 128 + 128
    rw [e61]; show ((i 0).val / 1024 * 8 + (i 1).val / 128) % 8 * 128 ≤ (i 1).val ∧ (i 1).val < ((i 0).val / 1024 * 8 + (i 1).val / 128) % 8 * 128 + 128; omega

/-- THE OUTPUT ARRAY after the region is the attention of the four arrays, row by row and column by column. -/
theorem arr1_6_eq (hblock : OutBlock1) (c : Dev nD) : (dat1 (F := Ideal) V c).arrAt 6 cfg1.N = outArr1 V c :=
  (dat1 (F := Ideal) V c).arrAt_eq_of_cover 6 (outArr1 V c) (fun t _ => flushed1_6_eq V hblock c t) (arrCover1_6)

/-- THE VALUE OF REGION 1, from the body's output block at an index: the output array at row `(n, s)`, column `col` is
    the masked weighted sum over the keys, the weights the softmax of the logits of `col`'s head, over the four arrays as
    the region finds them (windows 0, 1, 2 the three panels of the projections' array, 3 the noise, 4 the query-side
    mask, 5 the key-side mask). -/
theorem final1_of (hblock : OutBlock1) (c : Dev nD) (n : Fin 2) (s : Fin 1024) (col : Fin 1024) :
    ((dat1 (F := Ideal) V c).arrAt 6 cfg1.N : S2048x1024.Idx → EReal) (ix2 (Cert.Spec.row n s) col)
      = Cert.Spec.attnAfter
          (Cert.Spec.soft (Cert.Spec.logit
            (fun r c' => (V c (Pipeline.arrRef spec1 0) : S2048x3072.Idx → EReal) (ix2 r ⟨c'.val, by have := c'.isLt; omega⟩))
            (fun r c' => (V c (Pipeline.arrRef spec1 0) : S2048x3072.Idx → EReal) (ix2 r ⟨1024 + c'.val, by have := c'.isLt; omega⟩))
            (fun n h q k => (V c (Pipeline.arrRef spec1 3) : S2x16x1024x1024.Idx → EReal) (ix4 n h q k))
            n (Cert.Spec.headOf col) s))
          (fun k => (V c (Pipeline.arrRef spec1 5) : S2x1x1024.Idx → EReal) (ix3 n (0 : Fin 1) k))
          (fun k => (V c (Pipeline.arrRef spec1 0) : S2048x3072.Idx → EReal) (ix2 (Cert.Spec.row n k) ⟨2048 + col.val, by have := col.isLt; omega⟩))
          ((V c (Pipeline.arrRef spec1 4) : S2x1024x1.Idx → EReal) (ix3 n s (0 : Fin 1))) := by
  rw [arr1_6_eq V hblock c]
  exact outArr1_apply V c _ n s col rfl rfl

end Cert.KernelIdeal.Fr

end
-- ==== Proof.KI.Val1.Head.lean ====
/- One head of the attention kernel's body, read at an index of its [1024, 64] result.

   The body treats the two heads of a pair alike: from the head's 64 query, key and value columns (cut out of the
   three [1024, 128] blocks and cast), its [1024, 1024] noise slab and the two masks it forms the scores q · k, adds the
   doubly logarithmic transform of the noise, takes the row softmax shifted by the row maximum, multiplies by the key
   mask, sums against the values and multiplies by the query mask. Here that chain is one term (`headTerm`), both
   stores' payloads are shown to be it, and it is read at an index as `Spec.attnAfter (Spec.soft …) …` of the rows and
   columns it depends on. -/
import proofs.«416712_j77146202571310_3_alg».proof.Proof.Gen.KernelIdeal.Skeleton
import proofs.«416712_j77146202571310_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Fr

open Idealize.ShloMosaic Idealize.ShloMosaic.ValueIdx
open Cert.KernelIdeal Cert.KernelIdeal.Gen
open scoped BigOperators

/-! ## The head's chain as one term -/

section Term
variable {F : FTy → Type} [FloatOps F]

/-- The logits of one head: scores plus the transformed noise, times the word for one. -/
def logitsV (q k : FVec F S1024x64 .bf16) (u : Vec F S1x1x1024x1024 .f32) : FVec F S1024x1024 .f32 :=
  mulf
    (addf
      (matmul dot_S1024x64_S1024x64_S1024x1024_1_1_0_0_n_n none q k (constant S1024x1024 .f32 0x00000000#32))
      (subf (broadcast S1024x1024 (Scalar.ofBits .f32 0x00000000#32))
        (log (subf (broadcast S1024x1024 (Scalar.ofBits .f32 0x00000000#32))
          (log (shapeCast S1024x1024 u shapeCasts_S1x1x1024x1024_S1024x1024))))))
    (broadcast S1024x1024 (Scalar.ofBits .f32 0x3F800000#32))

/-- The exponentials of a [1024, 1024] array shifted by its row maxima. -/
def expV (L : FVec F S1024x1024 .f32) : FVec F S1024x1024 .f32 :=
  exp (subf L (broadcastTo S1024x1024
    (shapeCast S1024x1 (multiReduction .maximumf [1] S1024 L 0xFF800000#32 reduces_S1024x1024_S1024 (.inl rfl) rfl) shapeCasts_S1024_S1024x1)
    broadcasts_S1024x1_S1024x1024))

/-- The row sums of a [1024, 1024] array, spread back over the rows. -/
def rowSumV (E : FVec F S1024x1024 .f32) : FVec F S1024x1024 .f32 :=
  broadcastTo S1024x1024
    (shapeCast S1024x1 (multiReduction .add [1] S1024 E 0x00000000#32 reduces_S1024x1024_S1024 (.inl rfl) rfl) shapeCasts_S1024_S1024x1)
    broadcasts_S1024x1_S1024x1024

/-- The masked weighted sum of the values: weights `E / R` times the key mask, against the value columns, times the
    query mask. -/
def outV (E R : FVec F S1024x1024 .f32) (v7 : FVec F S1x1024 .f32) (v9 : FVec F S1024x1 .f32) (v : FVec F S1024x64 .bf16) :
    FVec F S1024x64 .f32 :=
  mulf
    (matmul dot_S1024x1024_S1024x64_S1024x64_1_0_0_1_n_n none
      (truncf .bf16 (mulf (divf E R) (broadcastTo S1024x1024 v7 broadcasts_S1x1024_S1024x1024)) bitsLt_bf16_f32)
      v (constant S1024x64 .f32 0x00000000#32))
    (broadcastTo S1024x64 v9 broadcasts_S1024x1_S1024x64)

/-- One head's result from its query, key and value columns, its noise slab and the two masks. -/
def headTerm (q k v : FVec F S1024x64 .bf16) (u : Vec F S1x1x1024x1024 .f32) (v7 : FVec F S1x1024 .f32) (v9 : FVec F S1024x1 .f32) :
    FVec F S1024x64 .f32 :=
  outV (expV (logitsV q k u)) (rowSumV (expV (logitsV q k u))) v7 v9 v

/-- Columns `o … o + 63` of a [1024, 128] block, cast: a head's query, key or value columns. -/
abbrev cols0 (x : FVec F S1024x128 .f32) : FVec F S1024x64 .bf16 :=
  truncf .bf16 (extractStridedSlice S1024x64 ![0, 0] x slices_S1024x128_o0_0_S1024x64) bitsLt_bf16_f32
abbrev cols64 (x : FVec F S1024x128 .f32) : FVec F S1024x64 .bf16 :=
  truncf .bf16 (extractStridedSlice S1024x64 ![0, 64] x slices_S1024x128_o0_64_S1024x64) bitsLt_bf16_f32

/-- The first store's payload, over the values the first part of the body hands on, is the first head's term. -/
theorem pay9_eq_headTerm (v0 v2 v4 : Vec F S1024x128 .f32) (v7 : FVec F S1x1024 .f32) (v9 : FVec F S1024x1 .f32)
    (v17 : Vec F S1x1x1024x1024 .f32) :
    k1_pay9 v7 v9 (k1_pay6 v4) (k1_pay7 v0 v2 v17) (k1_pay8 v0 v2 v17)
      = headTerm (cols0 (k1_pay1 v0)) (cols0 (k1_pay2 v2)) (cols0 (k1_pay3 v4)) v17 v7 v9 := rfl

/-- The second store's payload is the second head's term. -/
theorem pay10_eq_headTerm (v1 v3 v5 : FVec F S1024x128 .f32) (v7 : FVec F S1x1024 .f32) (v9 : FVec F S1024x1 .f32)
    (v51 : Vec F S1x1x1024x1024 .f32) :
    k1_pay10 v1 v3 v5 v7 v9 v51 = headTerm (cols64 v1) (cols64 v3) (cols64 v5) v51 v7 v9 := rfl

end Term

/-! ## Layout steps of the chain read at an index -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, 1, a]` array cast to `[1, a]` reads, at `(u, k)`, the operand at `(0, 0, k)`. -/
theorem shapeCast_11a_1a_apply {a : ℕ} (x : (⟨3, ![1, 1, a]⟩ : Shape).Idx → α)
    (h : (⟨3, ![1, 1, a]⟩ : Shape).ShapeCasts ⟨2, ![1, a]⟩) (u : Fin 1) (k : Fin a) :
    shapeCast ⟨2, ![1, a]⟩ x h (ix2 u k) = x (ix3 (0 : Fin 1) (0 : Fin 1) k) :=
  shapeCast_apply x h _ _ (by
    have hu : u.val = 0 := by omega
    rw [Shape.rowMajor_val_three, Shape.rowMajor_val_two]
    show (0 * 1 + 0) * a + k.val = u.val * a + k.val
    rw [hu])

/-- A `[1, a, 1]` array cast to `[a, 1]` reads, at `(p, u)`, the operand at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    rw [hu, Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[1024, 1]` broadcast to `[1024, b]` reads, at `(p, c)`, the column at `p`. -/
theorem broadcastTo_col_apply {b : ℕ} (v : (⟨2, ![1024, 1]⟩ : Shape).Idx → α)
    (h : (⟨2, ![1024, 1]⟩ : Shape).Broadcasts ⟨2, ![1024, b]⟩) (p : Fin 1024) (c : Fin b) :
    broadcastTo ⟨2, ![1024, b]⟩ v h (ix2 p c) = v (ix2 p (0 : Fin 1)) := by
  refine broadcastTo_apply v h (ix2 p c) (ix2 p (0 : Fin 1)) fun ax => ?_
  match ax with
  | ⟨0, _⟩ =>
    show p.val = if (1024 : ℕ) = 1 then 0 else p.val
    rw [if_neg (by decide)]
  | ⟨1, _⟩ => rfl

end Layout

/-! ## The chain at the ideal values, read at an index -/

section AtIdeal

/-- On the left operand of the scores the row is the result's row, … -/
theorem lhs_scores_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- … the column the contraction's coordinate; -/
theorem lhs_scores_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
/-- on the right operand the row is the result's column, … -/
theorem rhs_scores_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- … the column the contraction's coordinate. -/
theorem rhs_scores_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The scores: query row `p` against key row `kk` over the 64 columns of the head. -/
theorem scores_apply (q k : FVec Ideal S1024x64 .bf16) (p kk : Fin 1024) :
    matmul dot_S1024x64_S1024x64_S1024x1024_1_1_0_0_n_n none q k (constant (F := Ideal) S1024x1024 .f32 0x00000000#32) (ix2 p kk)
      = ∑ e : Fin 64, q (ix2 p e) * k (ix2 kk e) := by
  show FloatOps.matmul _ _ _ _ _ _ = _
  rw [Ideal.matmul_constant_zero_apply, ← Equiv.sum_comp (contrEquiv1 dot_S1024x64_S1024x64_S1024x1024_1_1_0_0_n_n 64 rfl rfl).symm]
  refine Finset.sum_congr rfl fun e _ => ?_
  have hk := contrEquiv1_symm_val dot_S1024x64_S1024x64_S1024x1024_1_1_0_0_n_n 64 rfl rfl e
  have el : dot_S1024x64_S1024x64_S1024x1024_1_1_0_0_n_n.lhsIdx (ix2 p kk) ((contrEquiv1 dot_S1024x64_S1024x64_S1024x1024_1_1_0_0_n_n 64 rfl rfl).symm e) = ix2 p e := funext fun a => Fin.ext (by
    match a with
    | ⟨0, _⟩ => exact lhs_scores_0 _ _
    | ⟨1, _⟩ => exact (lhs_scores_1 _ _).trans hk)
  have er : dot_S1024x64_S1024x64_S1024x1024_1_1_0_0_n_n.rhsIdx (ix2 p kk) ((contrEquiv1 dot_S1024x64_S1024x64_S1024x1024_1_1_0_0_n_n 64 rfl rfl).symm e) = ix2 kk e := funext fun a => Fin.ext (by
    match a with
    | ⟨0, _⟩ => exact rhs_scores_0 _ _
    | ⟨1, _⟩ => exact (rhs_scores_1 _ _).trans hk)
  rw [el, er]

/-- On the weighted sum's left operand the row is the result's row, … -/
theorem lhs_wsum_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- … the column the contraction's coordinate; -/
theorem lhs_wsum_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- on the right operand the row is the contraction's coordinate, … -/
theorem rhs_wsum_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- … the column the result's column. -/
theorem rhs_wsum_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The weighted sum: weight row `p` against value column `d` over the 1024 keys. -/
theorem wsum_apply (w : FVec Ideal S1024x1024 .bf16) (v : FVec Ideal S1024x64 .bf16) (p : Fin 1024) (d : Fin 64) :
    matmul dot_S1024x1024_S1024x64_S1024x64_1_0_0_1_n_n none w v (constant (F := Ideal) S1024x64 .f32 0x00000000#32) (ix2 p d)
      = ∑ kk : Fin 1024, w (ix2 p kk) * v (ix2 kk d) := by
  show FloatOps.matmul _ _ _ _ _ _ = _
  rw [Ideal.matmul_constant_zero_apply, ← Equiv.sum_comp (contrEquiv1 dot_S1024x1024_S1024x64_S1024x64_1_0_0_1_n_n 1024 rfl rfl).symm]
  refine Finset.sum_congr rfl fun kk _ => ?_
  have hk := contrEquiv1_symm_val dot_S1024x1024_S1024x64_S1024x64_1_0_0_1_n_n 1024 rfl rfl kk
  have el : dot_S1024x1024_S1024x64_S1024x64_1_0_0_1_n_n.lhsIdx (ix2 p d) ((contrEquiv1 dot_S1024x1024_S1024x64_S1024x64_1_0_0_1_n_n 1024 rfl rfl).symm kk) = ix2 p kk := funext fun a => Fin.ext (by
    match a with
    | ⟨0, _⟩ => exact lhs_wsum_0 _ _
    | ⟨1, _⟩ => exact (lhs_wsum_1 _ _).trans hk)
  have er : dot_S1024x1024_S1024x64_S1024x64_1_0_0_1_n_n.rhsIdx (ix2 p d) ((contrEquiv1 dot_S1024x1024_S1024x64_S1024x64_1_0_0_1_n_n 1024 rfl rfl).symm kk) = ix2 kk d := funext fun a => Fin.ext (by
    match a with
    | ⟨0, _⟩ => exact (rhs_wsum_0 _ _).trans hk
    | ⟨1, _⟩ => exact rhs_wsum_1 _ _)
  rw [el, er]

/-- The reduced index `p` with key `k` put back is `(p, k)`. -/
theorem lift_row (h : S1024x1024.Reduces [1] S1024) (p : Fin 1024) (k : Fin (S1024x1024.size 1)) :
    h.lift (ix1 p) k = ix2 p (⟨k.val, k.isLt⟩ : Fin 1024) := by
  funext c; apply Fin.ext
  fin_cases c <;> rfl

/-- The word of minus infinity. -/
theorem ofBits_ninf_f32 : Ideal.ofBits .f32 0xFF800000#32 = ⊥ := by simp [Ideal.ofBits, Ideal.ieee]

/-- A row's maximum from minus infinity. -/
theorem rowMaxV_apply (L : FVec Ideal S1024x1024 .f32) (h : S1024x1024.Reduces [1] S1024) (hφ : FKind.Formats .f32)
    (hacc : (0xFF800000#32 : BitVec 32) = FKind.maximumf.neutral .f32 hφ) (p : Fin 1024) :
    multiReduction .maximumf [1] S1024 L 0xFF800000#32 h hφ hacc (ix1 p) = Cert.Spec.rowMax (fun kk => L (ix2 p kk)) := by
  refine (Ideal.multiReduction_maximumf_single L _ h hφ hacc (ix1 p)).trans ?_
  show (Finset.univ : Finset (Fin 1024)).fold max (Ideal.ofBits .f32 0xFF800000#32) (fun k => L (h.lift (ix1 p) k)) = _
  rw [ofBits_ninf_f32]
  unfold Cert.Spec.rowMax
  congr 1
  funext k
  exact congrArg L (lift_row h p k)

/-- A row's sum. -/
theorem rowSum_apply (E : FVec Ideal S1024x1024 .f32) (h : S1024x1024.Reduces [1] S1024) (hφ : FKind.Formats .f32)
    (hacc : (0x00000000#32 : BitVec 32) = FKind.add.neutral .f32 hφ) (p : Fin 1024) :
    multiReduction .add [1] S1024 E 0x00000000#32 h hφ hacc (ix1 p) = ∑ kk : Fin 1024, E (ix2 p kk) := by
  refine (Ideal.multiReduction_add_single E _ h hφ hacc (ix1 p)).trans ?_
  show ∑ k : Fin 1024, E (h.lift (ix1 p) k) = _
  exact Finset.sum_congr rfl fun k _ => congrArg E (lift_row h p k)

/-- The logits at `(p, kk)`: the scores plus the transformed noise. -/
theorem logitsV_apply (q k : FVec Ideal S1024x64 .bf16) (u : Vec Ideal S1x1x1024x1024 .f32) (p kk : Fin 1024) :
    logitsV (F := Ideal) q k u (ix2 p kk)
      = (∑ e : Fin 64, q (ix2 p e) * k (ix2 kk e)) + Cert.Spec.gum (u (ix4 (0 : Fin 1) (0 : Fin 1) p kk)) := by
  unfold logitsV
  rw [mulf_apply, addf_apply, scores_apply]
  show (_ + (Ideal.ofBits .f32 0x00000000#32 - Ideal.log (Ideal.ofBits .f32 0x00000000#32
    - Ideal.log (shapeCast S1024x1024 u shapeCasts_S1x1x1024x1024_S1024x1024 (ix2 p kk))))) * Ideal.ofBits .f32 0x3F800000#32 = _
  rw [shapeCast_11ab_ab_apply, Ideal.ofBits_zero_f32, Ideal.ofBits_one_f32, zero_sub, zero_sub, mul_one]
  rfl

/-- The shifted exponentials at `(p, kk)`. -/
theorem expV_apply (L : FVec Ideal S1024x1024 .f32) (p kk : Fin 1024) :
    expV (F := Ideal) L (ix2 p kk) = Ideal.exp (L (ix2 p kk) - Cert.Spec.rowMax (fun k2 => L (ix2 p k2))) := by
  unfold expV
  show Ideal.exp (L (ix2 p kk) - broadcastTo S1024x1024 _ broadcasts_S1024x1_S1024x1024 (ix2 p kk)) = _
  rw [broadcastTo_col_apply, shapeCast_a_a1_apply]
  exact congrArg (fun m => Ideal.exp (L (ix2 p kk) - m)) (rowMaxV_apply L _ _ _ p)

/-- The row sums at `(p, kk)`. -/
theorem rowSumV_apply (E : FVec Ideal S1024x1024 .f32) (p kk : Fin 1024) :
    rowSumV (F := Ideal) E (ix2 p kk) = ∑ k2 : Fin 1024, E (ix2 p k2) := by
  unfold rowSumV
  rw [broadcastTo_col_apply, shapeCast_a_a1_apply]
  exact rowSum_apply E _ _ _ p

/-- The masked weighted sum at `(p, d)`. -/
theorem outV_apply (E R : FVec Ideal S1024x1024 .f32) (v7 : FVec Ideal S1x1024 .f32) (v9 : FVec Ideal S1024x1 .f32)
    (v : FVec Ideal S1024x64 .bf16) (p : Fin 1024) (d : Fin 64) :
    outV (F := Ideal) E R v7 v9 v (ix2 p d)
      = (∑ kk : Fin 1024, (Ideal.div (E (ix2 p kk)) (R (ix2 p kk)) * v7 (ix2 (0 : Fin 1) kk)) * v (ix2 kk d)) * v9 (ix2 p (0 : Fin 1)) := by
  unfold outV
  rw [mulf_apply, wsum_apply, broadcastTo_col_apply]
  refine congrArg (· * v9 (ix2 p (0 : Fin 1))) (Finset.sum_congr rfl fun kk _ => ?_)
  show (Ideal.div (E (ix2 p kk)) (R (ix2 p kk)) * broadcastTo S1024x1024 v7 broadcasts_S1x1024_S1024x1024 (ix2 p kk)) * v (ix2 kk d) = _
  rw [broadcastTo_1b_ab_apply]

/-- ONE HEAD AT AN INDEX: query row `p`, value column `d` — the softmax of the row's logits, times the key mask,
    summed against the values' column, times the query mask. -/
theorem headTerm_apply (q k v : FVec Ideal S1024x64 .bf16) (u : Vec Ideal S1x1x1024x1024 .f32) (v7 : FVec Ideal S1x1024 .f32)
    (v9 : FVec Ideal S1024x1 .f32) (p : Fin 1024) (d : Fin 64) :
    headTerm (F := Ideal) q k v u v7 v9 (ix2 p d)
      = Cert.Spec.attnAfter
          (Cert.Spec.soft (fun kk => (∑ e : Fin 64, q (ix2 p e) * k (ix2 kk e)) + Cert.Spec.gum (u (ix4 (0 : Fin 1) (0 : Fin 1) p kk))))
          (fun kk => v7 (ix2 (0 : Fin 1) kk)) (fun kk => v (ix2 kk d)) (v9 (ix2 p (0 : Fin 1))) := by
  unfold headTerm
  rw [outV_apply]
  simp only [rowSumV_apply, expV_apply, logitsV_apply]
  rfl

end AtIdeal

end Cert.KernelIdeal.Fr

end
-- ==== Proof.KI.Val1.Block.lean ====
/- The output block of the attention body at an index, from the six input blocks.

   The body's two stores tile the [1024, 128] output block by column halves: columns 0…63 hold the first head of the
   pair, columns 64…127 the second. Each half is one head's chain (`headTerm`) over that head's 64 columns of the
   query, key and value blocks, its slab of the noise block and the two masks; read at an index it is
   `Spec.attnAfter (Spec.soft …) …` of the block rows and columns it depends on (`out1_6_apply`). -/
import proofs.«416712_j77146202571310_3_alg».proof.Proof.KI.Dat1
import proofs.«416712_j77146202571310_3_alg».proof.Proof.KI.Val1.Head
import proofs.«416712_j77146202571310_3_alg».proof.Proof.KI.Val1.Pair

set_option maxRecDepth 16384

noncomputable section

namespace Cert.KernelIdeal.Fr

open Idealize.ShloMosaic Idealize.ShloMosaic.ValueIdx
open Cert.KernelIdeal Cert.KernelIdeal.Gen
open scoped BigOperators

/-- One head of the pair at query row `q` and value column `d`, from the six blocks. -/
def headVal (x0 x1 x2 : Vec Ideal S1024x128 .f32) (x3 : Vec Ideal S1x2x1024x1024 .f32)
    (x4 : Vec Ideal S1x1024x1 .f32) (x5 : Vec Ideal S1x1x1024 .f32) (h' : Fin 2) (q : Fin 1024) (d : Fin 64) : EReal :=
  Cert.Spec.attnAfter
    (Cert.Spec.soft (fun k : Fin 1024 =>
      (∑ e : Fin 64, x0 (ix2 q (pairCol h' e)) * x1 (ix2 k (pairCol h' e)))
        + Cert.Spec.gum (x3 (ix4 (0 : Fin 1) h' q k))))
    (fun k : Fin 1024 => x5 (ix3 (0 : Fin 1) (0 : Fin 1) k))
    (fun k : Fin 1024 => x2 (ix2 k (pairCol h' d)))
    (x4 (ix3 (0 : Fin 1) q (0 : Fin 1)))

/-! ## The loads and casts of the body read at an index -/

theorem hz2 : (![0, 0] : Fin 2 → Nat) = fun _ => 0 := funext fun a => by fin_cases a <;> rfl
theorem hz3 : (![0, 0, 0] : Fin 3 → Nat) = fun _ => 0 := funext fun a => by fin_cases a <;> rfl

/-- The first head's columns of a block. -/
theorem cols0_apply (x : FVec Ideal S1024x128 .f32) (p : Fin 1024) (e : Fin 64) :
    cols0 (F := Ideal) x (ix2 p e) = x (ix2 p (pairCol 0 e)) := by
  show extractStridedSlice S1024x64 ![0, 0] x slices_S1024x128_o0_0_S1024x64 (ix2 p e) = _
  exact slice2_axis1_apply 0 x slices_S1024x128_o0_0_S1024x64 p e (pairCol 0 e) (by show 64 * 0 + e.val = 0 + e.val; omega)

/-- The second head's columns of a block. -/
theorem cols64_apply (x : FVec Ideal S1024x128 .f32) (p : Fin 1024) (e : Fin 64) :
    cols64 (F := Ideal) x (ix2 p e) = x (ix2 p (pairCol 1 e)) := by
  show extractStridedSlice S1024x64 ![0, 64] x slices_S1024x128_o0_64_S1024x64 (ix2 p e) = _
  exact slice2_axis1_apply 64 x slices_S1024x128_o0_64_S1024x64 p e (pairCol 1 e) (by show 64 * 1 + e.val = 64 + e.val; omega)

/-- The three blocks' casts to their own shape change nothing. -/
theorem pay1_eq (v : Vec Ideal S1024x128 .f32) : k1_pay1 (F := Ideal) v = v := shapeCast_self v _
theorem pay2_eq (v : Vec Ideal S1024x128 .f32) : k1_pay2 (F := Ideal) v = v := shapeCast_self v _
theorem pay3_eq (v : Vec Ideal S1024x128 .f32) : k1_pay3 (F := Ideal) v = v := shapeCast_self v _

/-- The key mask's block as a row. -/
theorem pay4_apply (v6 : Vec Ideal S1x1x1024 .f32) (u : Fin 1) (k : Fin 1024) :
    k1_pay4 (F := Ideal) v6 (ix2 u k) = v6 (ix3 (0 : Fin 1) (0 : Fin 1) k) :=
  shapeCast_11a_1a_apply v6 shapeCasts_S1x1x1024_S1x1024 u k

/-- The query mask's block as a column. -/
theorem pay5_apply (v8 : Vec Ideal S1x1024x1 .f32) (p : Fin 1024) (u : Fin 1) :
    k1_pay5 (F := Ideal) v8 (ix2 p u) = v8 (ix3 (0 : Fin 1) p (0 : Fin 1)) :=
  shapeCast_1a1_a1_apply v8 shapeCasts_S1x1024x1_S1024x1 p u

/-- The first noise slab of the block. -/
theorem ld_slab0 (x3 : Vec Ideal S1x2x1024x1024 .f32) (q k : Fin 1024) :
    View.ld x3 r1_3 (ix4 (0 : Fin 1) (0 : Fin 1) q k) = x3 (ix4 (0 : Fin 1) (0 : Fin 2) q k) := by
  show x3 _ = x3 _
  refine congrArg x3 (funext fun a => Fin.ext ?_)
  match a with
  | ⟨0, _⟩ => rfl
  | ⟨1, _⟩ => rfl
  | ⟨2, _⟩ => show 0 + 1 * q.val = q.val; omega
  | ⟨3, _⟩ => show 0 + 1 * k.val = k.val; omega

/-- The second noise slab of the block. -/
theorem ld_slab1 (x3 : Vec Ideal S1x2x1024x1024 .f32) (q k : Fin 1024) :
    View.ld x3 r1_5 (ix4 (0 : Fin 1) (0 : Fin 1) q k) = x3 (ix4 (0 : Fin 1) (1 : Fin 2) q k) := by
  show x3 _ = x3 _
  refine congrArg x3 (funext fun a => Fin.ext ?_)
  match a with
  | ⟨0, _⟩ => rfl
  | ⟨1, _⟩ => rfl
  | ⟨2, _⟩ => show 0 + 1 * q.val = q.val; omega
  | ⟨3, _⟩ => show 0 + 1 * k.val = k.val; omega

/-! ## The two stores' payloads at an index -/

/-- The head read through any noise slab `u` that, on the query's row, is the block's slab of head `h'`. -/
theorem headVal_of (x0 x1 x2 : Vec Ideal S1024x128 .f32) (x3 : Vec Ideal S1x2x1024x1024 .f32)
    (x4 : Vec Ideal S1x1024x1 .f32) (x5 : Vec Ideal S1x1x1024 .f32) (h' : Fin 2) (q : Fin 1024) (d : Fin 64)
    (u : Vec Ideal S1x1x1024x1024 .f32)
    (hu : ∀ kk : Fin 1024, u (ix4 (0 : Fin 1) (0 : Fin 1) q kk) = x3 (ix4 (0 : Fin 1) h' q kk)) :
    Cert.Spec.attnAfter
        (Cert.Spec.soft (fun kk : Fin 1024 =>
          (∑ e : Fin 64, x0 (ix2 q (pairCol h' e)) * x1 (ix2 kk (pairCol h' e)))
            + Cert.Spec.gum (u (ix4 (0 : Fin 1) (0 : Fin 1) q kk))))
        (fun kk : Fin 1024 => x5 (ix3 (0 : Fin 1) (0 : Fin 1) kk))
        (fun kk : Fin 1024 => x2 (ix2 kk (pairCol h' d)))
        (x4 (ix3 (0 : Fin 1) q (0 : Fin 1)))
      = headVal x0 x1 x2 x3 x4 x5 h' q d := by
  unfold headVal
  simp only [hu]

/-- The first store's payload: the first head. -/
theorem store0_apply (x0 x1 x2 : Vec Ideal S1024x128 .f32) (x3 : Vec Ideal S1x2x1024x1024 .f32)
    (x4 : Vec Ideal S1x1024x1 .f32) (x5 : Vec Ideal S1x1x1024 .f32) (q : Fin 1024) (d : Fin 64) :
    k1_pay9 (F := Ideal) (k1_pay4 (View.ld x5 r1_1)) (k1_pay5 (View.ld x4 r1_2)) (k1_pay6 (View.ld x2 r1_0))
        (k1_pay7 (View.ld x0 r1_0) (View.ld x1 r1_0) (View.ld x3 r1_3))
        (k1_pay8 (View.ld x0 r1_0) (View.ld x1 r1_0) (View.ld x3 r1_3)) (ix2 q d)
      = headVal x0 x1 x2 x3 x4 x5 0 q d := by
  simp only [View.ld_unit_zero (S := S1024x128) hz2, View.ld_unit_zero (S := S1x1x1024) hz3, View.ld_unit_zero (S := S1x1024x1) hz3]
  rw [pay9_eq_headTerm, headTerm_apply]
  simp only [cols0_apply, pay1_eq, pay2_eq, pay3_eq, pay4_apply, pay5_apply]
  exact headVal_of x0 x1 x2 x3 x4 x5 0 q d (View.ld x3 r1_3) (fun kk => ld_slab0 x3 q kk)

/-- The second store's payload: the second head. -/
theorem store1_apply (x0 x1 x2 : Vec Ideal S1024x128 .f32) (x3 : Vec Ideal S1x2x1024x1024 .f32)
    (x4 : Vec Ideal S1x1024x1 .f32) (x5 : Vec Ideal S1x1x1024 .f32) (q : Fin 1024) (d : Fin 64) :
    k1_pay10 (F := Ideal) (k1_pay1 (View.ld x0 r1_0)) (k1_pay2 (View.ld x1 r1_0)) (k1_pay3 (View.ld x2 r1_0))
        (k1_pay4 (View.ld x5 r1_1)) (k1_pay5 (View.ld x4 r1_2)) (View.ld x3 r1_5) (ix2 q d)
      = headVal x0 x1 x2 x3 x4 x5 1 q d := by
  simp only [View.ld_unit_zero (S := S1024x128) hz2, View.ld_unit_zero (S := S1x1x1024) hz3, View.ld_unit_zero (S := S1x1024x1) hz3]
  rw [pay10_eq_headTerm, headTerm_apply]
  simp only [cols64_apply, pay1_eq, pay2_eq, pay3_eq, pay4_apply, pay5_apply]
  exact headVal_of x0 x1 x2 x3 x4 x5 1 q d (View.ld x3 r1_5) (fun kk => ld_slab1 x3 q kk)

/-! ## A buffer written by two stores -/

section TwoStores
variable {Val : EltTy → Type} [∀ e, Nonempty (Val e)] {S : Shape} {e : EltTy}

/-- An index under the LAST store reads its payload. -/
theorem canon2_last (r1 r2 : Rect S) (w1 : r1.shape.Idx → Val e) (w2 : r2.shape.Idx → Val e)
    (x : r1.shape.Idx) (y : S.Idx) (hy : y = r1.emb x) :
    View.canon (Val := Val) (s := S) (e := e) [⟨r1, w1⟩, ⟨r2, w2⟩] y = w1 x := by
  rw [hy, View.canon_cons_emb]

/-- An index under the FIRST store that the last one misses reads the first one's payload. -/
theorem canon2_first (r1 r2 : Rect S) (w1 : r1.shape.Idx → Val e) (w2 : r2.shape.Idx → Val e)
    (x : r2.shape.Idx) (y : S.Idx) (hy : y = r2.emb x) (h1 : y ∉ r1.set) :
    View.canon (Val := Val) (s := S) (e := e) [⟨r1, w1⟩, ⟨r2, w2⟩] y = w2 x := by
  rw [View.canon_cons_of_not_mem _ _ h1, hy, View.canon_cons_emb]

end TwoStores

/-! ## The block at an index -/

/-- Where the second store's rectangle puts its `(q, d)`. -/
theorem emb_store1 (q : Fin 1024) (d : Fin 64) : r1_6.emb (ix2 q d) = ix2 q (pairCol 1 d) := by
  funext a; apply Fin.ext
  match a with
  | ⟨0, _⟩ => show 0 + 1 * q.val = q.val; omega
  | ⟨1, _⟩ => show 64 + 1 * d.val = 64 * 1 + d.val; omega

/-- Where the first store's rectangle puts its `(q, d)`. -/
theorem emb_store0 (q : Fin 1024) (d : Fin 64) : r1_4.emb (ix2 q d) = ix2 q (pairCol 0 d) := by
  funext a; apply Fin.ext
  match a with
  | ⟨0, _⟩ => show 0 + 1 * q.val = q.val; omega
  | ⟨1, _⟩ => show 0 + 1 * d.val = 64 * 0 + d.val; omega

/-- A column of the first head is outside the second store's rectangle. -/
theorem not_mem_store1 (q : Fin 1024) (d : Fin 64) : ix2 q (pairCol 0 d) ∉ r1_6.set := by
  rw [Rect.mem_set_unit]
  intro h
  have h1 := (h 1).1
  have : (64 : ℕ) ≤ 64 * 0 + d.val := h1
  have := d.isLt
  omega

/-- THE BLOCK BY HEADS: column `d` of head `h'` of the pair, at query row `q`. -/
theorem out1_6_pair (x0 x1 x2 : Vec Ideal S1024x128 .f32) (x3 : Vec Ideal S1x2x1024x1024 .f32)
    (x4 : Vec Ideal S1x1024x1 .f32) (x5 : Vec Ideal S1x1x1024 .f32) (h' : Fin 2) (q : Fin 1024) (d : Fin 64) :
    out1_6 (F := Ideal) x0 x1 x2 x3 x4 x5 (ix2 q (pairCol h' d)) = headVal x0 x1 x2 x3 x4 x5 h' q d := by
  unfold out1_6
  match h' with
  | ⟨0, _⟩ =>
    exact (canon2_first r1_6 r1_4 _ _ (ix2 q d) (ix2 q (pairCol 0 d)) (emb_store0 q d).symm (not_mem_store1 q d)).trans
      (store0_apply x0 x1 x2 x3 x4 x5 q d)
  | ⟨1, _⟩ =>
    exact (canon2_last r1_6 r1_4 _ _ (ix2 q d) (ix2 q (pairCol 1 d)) (emb_store1 q d).symm).trans
      (store1_apply x0 x1 x2 x3 x4 x5 q d)

/-- THE OUTPUT BLOCK AT AN INDEX: query row `q`, block column `col'`. -/
theorem out1_6_apply (x0 x1 x2 : Vec Ideal S1024x128 .f32) (x3 : Vec Ideal S1x2x1024x1024 .f32)
    (x4 : Vec Ideal S1x1024x1 .f32) (x5 : Vec Ideal S1x1x1024 .f32) (q : Fin 1024) (col' : Fin 128) :
    out1_6 (F := Ideal) x0 x1 x2 x3 x4 x5 (ix2 q col')
      = Cert.Spec.attnAfter
          (Cert.Spec.soft (fun k : Fin 1024 =>
            (∑ e : Fin 64, x0 (ix2 q (pairCol (pairHead col') e)) * x1 (ix2 k (pairCol (pairHead col') e)))
              + Cert.Spec.gum (x3 (ix4 (0 : Fin 1) (pairHead col') q k))))
          (fun k : Fin 1024 => x5 (ix3 (0 : Fin 1) (0 : Fin 1) k))
          (fun k : Fin 1024 => x2 (ix2 k col'))
          (x4 (ix3 (0 : Fin 1) q (0 : Fin 1))) := by
  have hc : pairCol (pairHead col') ⟨col'.val % 64, Nat.mod_lt _ (by decide)⟩ = col' :=
    Fin.ext (by show 64 * (col'.val / 64) + col'.val % 64 = col'.val; omega)
  have e := out1_6_pair x0 x1 x2 x3 x4 x5 (pairHead col') q ⟨col'.val % 64, Nat.mod_lt _ (by decide)⟩
  rw [hc] at e
  rw [e]
  unfold headVal
  rw [hc]

end Cert.KernelIdeal.Fr

end
-- ==== Proof.KI.Val2.lean ====
/- REGION 2 of @main — custom_call 2 (output projection, residual, row normalisation) — THE VALUE at the ideal
   instance: the body's layout operations and its product read at an index, the body's arithmetic in stages and its
   payload at an index (the row normalisation of the projected row plus bias plus residual), each input window's block as
   rows of its array, what a point writes back as a block of one function of the six arrays, the cover, and the output
   array after the region index by index. -/
import proofs.«416712_j77146202571310_3_alg».proof.Proof.KI.Dat2
import proofs.«416712_j77146202571310_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! # The value of region 2 (output projection, residual, row normalisation) at the ideal instance -/

/-! ## Layout operations of the body at an index -/

/-- A `[512]` vector cast to the column `[512, 1]` reads, at `(p, u)`, the vector at `p`. -/
theorem colCast_apply {α : Type} (x : S512.Idx → α) (p : Fin 512) (u : Fin 1) :
    shapeCast S512x1 x shapeCasts_S512_S512x1 (ix2 p u) = x (ix1 p) :=
  shapeCast_apply x _ _ _ (by
    have hu : u.val = 0 := by omega
    rw [Shape.rowMajor_val_two, Shape.rowMajor_val_one]
    show p.val = p.val * 1 + u.val
    omega)

/-- A column `[512, 1]` broadcast over the 1024 lanes reads, at `(p, q)`, the column at `p`. -/
theorem colBroadcast_apply {α : Type} (v : S512x1.Idx → α) (p : Fin 512) (q : Fin 1024) :
    broadcastTo S512x1024 v broadcasts_S512x1_S512x1024 (ix2 p q) = v (ix2 p (0 : Fin 1)) := by
  refine broadcastTo_apply v _ (ix2 p q) (ix2 p (0 : Fin 1)) fun ax => ?_
  match ax with
  | ⟨0, _⟩ => show p.val = if (512 : Nat) = 1 then 0 else p.val; rw [if_neg (by decide)]
  | ⟨1, _⟩ => show (0 : Nat) = if (1 : Nat) = 1 then 0 else q.val; rw [if_pos rfl]

/-- A sum over the 1024 lanes of a block reads, at row `p`, the sum of the row's entries. -/
theorem laneSum_apply (src : FVec Ideal S512x1024 .f32) (p : Fin 512) :
    multiReduction .add [1] S512 src 0x00000000#32 reduces_S512x1024_S512 (.inl rfl) rfl (ix1 p)
      = ∑ k : Fin 1024, src (ix2 p k) := by
  refine (Ideal.multiReduction_add_single src 0x00000000#32 reduces_S512x1024_S512 (.inl rfl) rfl (ix1 p)).trans ?_
  show (∑ k : Fin 1024, src (reduces_S512x1024_S512.lift (ix1 p) k)) = _
  refine Finset.sum_congr rfl fun k _ => congrArg src (funext fun a => Fin.ext ?_)
  match a with
  | ⟨0, _⟩ => rfl
  | ⟨1, _⟩ => rfl

/-! ## The output projection's product at an index -/

theorem lhs_outProj_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_outProj_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_outProj_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_outProj_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of a `[512, 1024]` block by the transposed `[1024, 1024]` weight, into zero: at `(p, q)`
    the sum over `k` of row `p` of the block times row `q` of the weight. -/
theorem outProj_apply (lhs : FVec Ideal S512x1024 .bf16) (rhs : FVec Ideal S1024x1024 .bf16) (p : Fin 512) (q : Fin 1024) :
    matmul dot_S512x1024_S1024x1024_S512x1024_1_1_0_0_n_n none lhs rhs (constant (F := Ideal) S512x1024 .f32 0x00000000#32) (ix2 p q)
      = ∑ k : Fin 1024, lhs (ix2 p k) * rhs (ix2 q k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_outProj_0 _ _
    | ⟨1, _⟩ => exact (lhs_outProj_1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_outProj_0 _ _
    | ⟨1, _⟩ => exact (rhs_outProj_1 _ _).trans hk)
  rw [el, er]

/-- A reciprocal square root at an index is the element's. -/
theorem rsqrt_apply {s : Shape} {φ : FTy} (a : FVec Ideal s φ) (i : s.Idx) : rsqrt a i = Ideal.rsqrt (a i) := rfl

/-! ## The body's arithmetic, in stages -/

/-- The block fed to the normalisation: the attention block times the transposed weight, plus the bias row, plus the
    residual block. -/
def preBlk (x0 : Vec Ideal S512x1024 .f32) (x1 : Vec Ideal S1024x1024 .bf16) (x2 : Vec Ideal S1x1024 .f32)
    (x3 : Vec Ideal S512x1024 .f32) : FVec Ideal S512x1024 .f32 :=
  addf (addf (matmul dot_S512x1024_S1024x1024_S512x1024_1_1_0_0_n_n none
        (truncf .bf16 (shapeCast S512x1024 x0 shapeCasts_S512x1024_S512x1024 : FVec Ideal S512x1024 .f32) bitsLt_bf16_f32)
        (shapeCast S1024x1024 x1 shapeCasts_S1024x1024_S1024x1024 : FVec Ideal S1024x1024 .bf16)
        (constant (F := Ideal) S512x1024 .f32 0x00000000#32))
      (broadcastTo S512x1024 (shapeCast S1x1024 x2 shapeCasts_S1x1024_S1x1024 : FVec Ideal S1x1024 .f32) broadcasts_S1x1024_S512x1024))
    (shapeCast S512x1024 x3 shapeCasts_S512x1024_S512x1024 : FVec Ideal S512x1024 .f32)

/-- The column of row means: each row's lane sum over 1024.0. -/
def meanCol (y : FVec Ideal S512x1024 .f32) : FVec Ideal S512x1 .f32 :=
  divf (shapeCast S512x1 (multiReduction .add [1] S512 y 0x00000000#32 reduces_S512x1024_S512 (.inl rfl) rfl) shapeCasts_S512_S512x1)
    (broadcast S512x1 (Scalar.ofBits .f32 0x44800000#32))

/-- The block with each row's mean taken off. -/
def centred (y : FVec Ideal S512x1024 .f32) : FVec Ideal S512x1024 .f32 :=
  subf y (broadcastTo S512x1024 (meanCol y) broadcasts_S512x1_S512x1024)

/-- The column of row scales: the reciprocal square root of each row's variance plus the stabiliser. -/
def scaleCol (y : FVec Ideal S512x1024 .f32) : FVec Ideal S512x1 .f32 :=
  rsqrt (addf
    (divf (shapeCast S512x1 (multiReduction .add [1] S512 (mulf (centred y) (centred y)) 0x00000000#32 reduces_S512x1024_S512 (.inl rfl) rfl) shapeCasts_S512_S512x1)
      (broadcast S512x1 (Scalar.ofBits .f32 0x44800000#32)))
    (broadcast S512x1 (Scalar.ofBits .f32 0x3727C5AC#32)))

/-- The normalised block: centred, scaled, times the gain row plus the bias row. -/
def normBlk (y : FVec Ideal S512x1024 .f32) (g b : Vec Ideal S1x1024 .f32) : FVec Ideal S512x1024 .f32 :=
  addf (mulf (mulf (centred y) (broadcastTo S512x1024 (scaleCol y) broadcasts_S512x1_S512x1024))
      (broadcastTo S512x1024 (shapeCast S1x1024 g shapeCasts_S1x1024_S1x1024 : FVec Ideal S1x1024 .f32) broadcasts_S1x1024_S512x1024))
    (broadcastTo S512x1024 (shapeCast S1x1024 b shapeCasts_S1x1024_S1x1024 : FVec Ideal S1x1024 .f32) broadcasts_S1x1024_S512x1024)

/-- The body's payload is the normalisation of the pre-normalisation block. -/
theorem k2_pay1_eq (x0 : Vec Ideal S512x1024 .f32) (x1 : Vec Ideal S1024x1024 .bf16) (x2 : Vec Ideal S1x1024 .f32)
    (x3 : Vec Ideal S512x1024 .f32) (x4 x5 : Vec Ideal S1x1024 .f32) :
    k2_pay1 x0 x1 x2 x3 x4 x5 = normBlk (preBlk x0 x1 x2 x3) x4 x5 := rfl

/-- The pre-normalisation block at `(p, q)`. -/
theorem preBlk_apply (x0 : Vec Ideal S512x1024 .f32) (x1 : Vec Ideal S1024x1024 .bf16) (x2 : Vec Ideal S1x1024 .f32)
    (x3 : Vec Ideal S512x1024 .f32) (p : Fin 512) (q : Fin 1024) :
    preBlk x0 x1 x2 x3 (ix2 p q)
      = Cert.Spec.pre (fun c' => x0 (ix2 p c')) (fun o' c' => x1 (ix2 o' c')) (fun o' => x2 (ix2 (0 : Fin 1) o')) (fun o' => x3 (ix2 p o')) q := by
  unfold preBlk Cert.Spec.pre
  rw [addf_apply, addf_apply, outProj_apply, broadcastTo_1b_ab_apply]
  simp only [shapeCast_self, truncf_apply]

/-- The mean column at row `p`. -/
theorem meanCol_apply (y : FVec Ideal S512x1024 .f32) (p : Fin 512) (u : Fin 1) :
    meanCol y (ix2 p u) = Ideal.div (∑ k : Fin 1024, y (ix2 p k)) Cert.Spec.c1024 := by
  unfold meanCol
  rw [divf_apply, colCast_apply, laneSum_apply, broadcast_apply]
  rfl

/-- The centred block at `(p, q)`. -/
theorem centred_apply (y : FVec Ideal S512x1024 .f32) (p : Fin 512) (q : Fin 1024) :
    centred y (ix2 p q) = y (ix2 p q) - Ideal.div (∑ k : Fin 1024, y (ix2 p k)) Cert.Spec.c1024 := by
  unfold centred
  rw [subf_apply, colBroadcast_apply, meanCol_apply]

/-- The scale column at row `p`. -/
theorem scaleCol_apply (y : FVec Ideal S512x1024 .f32) (p : Fin 512) (u : Fin 1) :
    scaleCol y (ix2 p u)
      = Ideal.rsqrt (Ideal.div (∑ k : Fin 1024, (y (ix2 p k) - Ideal.div (∑ k' : Fin 1024, y (ix2 p k')) Cert.Spec.c1024)
            * (y (ix2 p k) - Ideal.div (∑ k' : Fin 1024, y (ix2 p k')) Cert.Spec.c1024)) Cert.Spec.c1024 + Cert.Spec.cEps) := by
  unfold scaleCol
  rw [rsqrt_apply, addf_apply, divf_apply, colCast_apply, laneSum_apply, broadcast_apply, broadcast_apply]
  simp only [mulf_apply, centred_apply]
  rfl

/-- The normalised block at `(p, q)` is the row normalisation of row `p`. -/
theorem normBlk_apply (y : FVec Ideal S512x1024 .f32) (g b : Vec Ideal S1x1024 .f32) (p : Fin 512) (q : Fin 1024) :
    normBlk y g b (ix2 p q)
      = Cert.Spec.lnRow Cert.Spec.c1024 Cert.Spec.cEps (fun o' => y (ix2 p o')) (fun o' => g (ix2 (0 : Fin 1) o')) (fun o' => b (ix2 (0 : Fin 1) o')) q := by
  unfold normBlk Cert.Spec.lnRow
  rw [addf_apply, mulf_apply, mulf_apply, centred_apply, colBroadcast_apply, scaleCol_apply, broadcastTo_1b_ab_apply, broadcastTo_1b_ab_apply]
  simp only [shapeCast_self]

/-- THE PAYLOAD AT AN INDEX: the row normalisation of the projected row plus bias plus residual. -/
theorem k2_pay1_apply (x0 : Vec Ideal S512x1024 .f32) (x1 : Vec Ideal S1024x1024 .bf16) (x2 : Vec Ideal S1x1024 .f32)
    (x3 : Vec Ideal S512x1024 .f32) (x4 x5 : Vec Ideal S1x1024 .f32) (p : Fin 512) (q : Fin 1024) :
    k2_pay1 x0 x1 x2 x3 x4 x5 (ix2 p q)
      = Cert.Spec.lnRow Cert.Spec.c1024 Cert.Spec.cEps
          (Cert.Spec.pre (fun c' => x0 (ix2 p c')) (fun o' c' => x1 (ix2 o' c')) (fun o' => x2 (ix2 (0 : Fin 1) o')) (fun o' => x3 (ix2 p o')))
          (fun o' => x4 (ix2 (0 : Fin 1) o')) (fun o' => x5 (ix2 (0 : Fin 1) o')) q := by
  rw [k2_pay1_eq, normBlk_apply]
  simp only [preBlk_apply]

/-! ## From blocks to the array -/

-- the TensorCore's buffer contents when region 2 is entered
variable (V : (c : Dev nD) → (b : Ref sig .tc) → Buf (Elt Ideal) ((c : Thread nD τ).loc b))

/-- The six arrays the region reads, as it finds them, as functions of their indices. -/
abbrev arrIn2_0 (c : Dev nD) : S2048x1024.Idx → EReal := V c (Pipeline.arrRef spec2 0)   -- the attention output
abbrev arrIn2_1 (c : Dev nD) : S1024x1024.Idx → EReal := V c (Pipeline.arrRef spec2 1)   -- the output weight
abbrev arrIn2_2 (c : Dev nD) : S1x1024.Idx → EReal := V c (Pipeline.arrRef spec2 2)   -- the projection's bias row
abbrev arrIn2_3 (c : Dev nD) : S2048x1024.Idx → EReal := V c (Pipeline.arrRef spec2 3)   -- the residual
abbrev arrIn2_4 (c : Dev nD) : S1x1024.Idx → EReal := V c (Pipeline.arrRef spec2 4)   -- the gain row
abbrev arrIn2_5 (c : Dev nD) : S1x1024.Idx → EReal := V c (Pipeline.arrRef spec2 5)   -- the normalisation's bias row

theorem zeroOffsets2 : (![0, 0] : Fin 2 → Nat) = fun _ => 0 := funext fun a => by fin_cases a <;> rfl

/-- The normalised output at row `r`, column `o`, from six arrays: the attention output, the output weight, its bias, the
    residual, the gain and the bias of the normalisation. -/
def lnArr (a0 : S2048x1024.Idx → EReal) (a1 : S1024x1024.Idx → EReal) (a2 : S1x1024.Idx → EReal)
    (a3 : S2048x1024.Idx → EReal) (a4 a5 : S1x1024.Idx → EReal) (r : Fin 2048) (o : Fin 1024) : EReal :=
  Cert.Spec.lnRow Cert.Spec.c1024 Cert.Spec.cEps
    (Cert.Spec.pre (fun c' => a0 (ix2 r c')) (fun o' c' => a1 (ix2 o' c')) (fun o' => a2 (ix2 (0 : Fin 1) o')) (fun o' => a3 (ix2 r o')))
    (fun o' => a4 (ix2 (0 : Fin 1) o')) (fun o' => a5 (ix2 (0 : Fin 1) o')) o

/-- The output array as ONE function of the six arrays as the region finds them. -/
def outArr (c : Dev nD) : S2048x1024.Idx → EReal := fun i =>
  lnArr (arrIn2_0 V c) (arrIn2_1 V c) (arrIn2_2 V c)
    (arrIn2_3 V c) (arrIn2_4 V c) (arrIn2_5 V c)
    ⟨(i 0).val, (i 0).isLt⟩ ⟨(i 1).val, (i 1).isLt⟩

/-- The output array at an index whose coordinates are `r` and `o`. -/
theorem outArr_apply (c : Dev nD) (i : S2048x1024.Idx) (r : Fin 2048) (o : Fin 1024) (h0 : (i 0).val = r.val) (h1 : (i 1).val = o.val) :
    outArr V c i = lnArr (arrIn2_0 V c) (arrIn2_1 V c) (arrIn2_2 V c)
      (arrIn2_3 V c) (arrIn2_4 V c) (arrIn2_5 V c) r o := by
  have e0 : (⟨(i 0).val, (i 0).isLt⟩ : Fin 2048) = r := Fin.ext h0
  have e1 : (⟨(i 1).val, (i 1).isLt⟩ : Fin 1024) = o := Fin.ext h1
  unfold outArr
  rw [e0, e1]

/-- The printed index maps, decided over the grid: the row-blocked windows (the attention output, the residual, the
    output) sit at block `t` of the rows at point `t`, every other window at its one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point `t` is rows `512 t … 512 t + 511` of the attention output. -/
theorem iblk2_0_apply (c : Dev nD) (t : Fin cfg2.N) (p : Fin 512) (k : Fin 1024) (r : Fin 2048) (hr : r.val = t.val * 512 + p.val) :
    (iblk2 V c 0 t : Vec Ideal S512x1024 .f32) (ix2 p k) = arrIn2_0 V c (ix2 r k) := by
  obtain ⟨e0, e1, -⟩ := idx_facts2 t
  show arrIn2_0 V c (((cfg2.win 0).blk t).view.emb (ix2 p k)) = _
  refine congrArg _ (funext fun a => Fin.ext ?_)
  match a with
  | ⟨0, _⟩ => show win2_0.index t (0 : Fin 2) * 512 + 1 * p.val = r.val; rw [e0, hr]; omega
  | ⟨1, _⟩ => show win2_0.index t (1 : Fin 2) * 1024 + 1 * k.val = k.val; rw [e1]; omega

/-- Window 3's block at point `t` is rows `512 t … 512 t + 511` of the residual. -/
theorem iblk2_3_apply (c : Dev nD) (t : Fin cfg2.N) (p : Fin 512) (k : Fin 1024) (r : Fin 2048) (hr : r.val = t.val * 512 + p.val) :
    (iblk2 V c 3 t : Vec Ideal S512x1024 .f32) (ix2 p k) = arrIn2_3 V c (ix2 r k) := by
  obtain ⟨-, -, -, -, -, -, e0, e1, -⟩ := idx_facts2 t
  show arrIn2_3 V c (((cfg2.win 3).blk t).view.emb (ix2 p k)) = _
  refine congrArg _ (funext fun a => Fin.ext ?_)
  match a with
  | ⟨0, _⟩ => show win2_3.index t (0 : Fin 2) * 512 + 1 * p.val = r.val; rw [e0, hr]; omega
  | ⟨1, _⟩ => show win2_3.index t (1 : Fin 2) * 1024 + 1 * k.val = k.val; rw [e1]; omega

/-- Window 1's block at every point is the whole output weight. -/
theorem iblk2_1_apply (c : Dev nD) (t : Fin cfg2.N) (o k : Fin 1024) :
    (iblk2 V c 1 t : Vec Ideal S1024x1024 .bf16) (ix2 o k) = arrIn2_1 V c (ix2 o k) := by
  obtain ⟨-, -, e0, e1, -⟩ := idx_facts2 t
  show arrIn2_1 V c (((cfg2.win 1).blk t).view.emb (ix2 o k)) = _
  refine congrArg _ (funext fun a => Fin.ext ?_)
  match a with
  | ⟨0, _⟩ => show win2_1.index t (0 : Fin 2) * 1024 + 1 * o.val = o.val; rw [e0]; omega
  | ⟨1, _⟩ => show win2_1.index t (1 : Fin 2) * 1024 + 1 * k.val = k.val; rw [e1]; omega

/-- Window 2's block at every point is the whole bias row of the projection. -/
theorem iblk2_2_apply (c : Dev nD) (t : Fin cfg2.N) (u : Fin 1) (k : Fin 1024) :
    (iblk2 V c 2 t : Vec Ideal S1x1024 .f32) (ix2 u k) = arrIn2_2 V c (ix2 u k) := by
  obtain ⟨-, -, -, -, e0, e1, -⟩ := idx_facts2 t
  show arrIn2_2 V c (((cfg2.win 2).blk t).view.emb (ix2 u k)) = _
  refine congrArg _ (funext fun a => Fin.ext ?_)
  match a with
  | ⟨0, _⟩ => show win2_2.index t (0 : Fin 2) * 1 + 1 * u.val = u.val; rw [e0]; omega
  | ⟨1, _⟩ => show win2_2.index t (1 : Fin 2) * 1024 + 1 * k.val = k.val; rw [e1]; omega

/-- Window 4's block at every point is the whole gain row. -/
theorem iblk2_4_apply (c : Dev nD) (t : Fin cfg2.N) (u : Fin 1) (k : Fin 1024) :
    (iblk2 V c 4 t : Vec Ideal S1x1024 .f32) (ix2 u k) = arrIn2_4 V c (ix2 u k) := by
  obtain ⟨-, -, -, -, -, -, -, -, e0, e1, -⟩ := idx_facts2 t
  show arrIn2_4 V c (((cfg2.win 4).blk t).view.emb (ix2 u k)) = _
  refine congrArg _ (funext fun a => Fin.ext ?_)
  match a with
  | ⟨0, _⟩ => show win2_4.index t (0 : Fin 2) * 1 + 1 * u.val = u.val; rw [e0]; omega
  | ⟨1, _⟩ => show win2_4.index t (1 : Fin 2) * 1024 + 1 * k.val = k.val; rw [e1]; omega

/-- Window 5's block at every point is the whole bias row of the normalisation. -/
theorem iblk2_5_apply (c : Dev nD) (t : Fin cfg2.N) (u : Fin 1) (k : Fin 1024) :
    (iblk2 V c 5 t : Vec Ideal S1x1024 .f32) (ix2 u k) = arrIn2_5 V c (ix2 u k) := by
  obtain ⟨-, -, -, -, -, -, -, -, -, -, e0, e1, -⟩ := idx_facts2 t
  show arrIn2_5 V c (((cfg2.win 5).blk t).view.emb (ix2 u k)) = _
  refine congrArg _ (funext fun a => Fin.ext ?_)
  match a with
  | ⟨0, _⟩ => show win2_5.index t (0 : Fin 2) * 1 + 1 * u.val = u.val; rw [e0]; omega
  | ⟨1, _⟩ => show win2_5.index t (1 : Fin 2) * 1024 + 1 * k.val = k.val; rw [e1]; omega

/-- WHAT POINT `t` WRITES BACK is block `t` of the output array's function. -/
theorem flushed2_6_eq (c : Dev nD) (t : Fin cfg2.N) :
    (dat2 (F := Ideal) V c).flushed 6 t = ((cfg2.win 6).blk t).view.read (Elt Ideal) (outArr V c) := by
  show (cfg2.win 6).cut (grid2.coords t) ((dat2 V c).after 6 t) = _
  rw [after2_6]
  unfold out2_6
  rw [View.canon_unit_zero zeroOffsets2]
  simp only [View.ld_unit_zero (S := S512x1024) zeroOffsets2, View.ld_unit_zero (S := S1024x1024) zeroOffsets2, View.ld_unit_zero (S := S1x1024) zeroOffsets2]
  obtain ⟨-, -, -, -, -, -, -, -, -, -, -, -, e60, e61⟩ := idx_facts2 t
  have hN : t.val < 4 := Nat.lt_of_lt_of_eq t.isLt N_2
  funext j
  obtain ⟨p, q, rfl⟩ : ∃ (p : Fin 512) (q : Fin 1024), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
    = outArr V c (((cfg2.win 6).blk t).view.emb (ix2 p q))
  refine (k2_pay1_apply _ _ _ _ _ _ p q).trans ?_
  have hp : p.val < 512 := p.isLt
  refine Eq.trans ?_ (outArr_apply V c _ ⟨t.val * 512 + p.val, by omega⟩ q ?_ ?_).symm
  · unfold lnArr
    simp only [iblk2_0_apply V c t p _ ⟨t.val * 512 + p.val, by omega⟩ rfl, iblk2_3_apply V c t p _ ⟨t.val * 512 + p.val, by omega⟩ rfl,
      iblk2_1_apply V c t, iblk2_2_apply V c t, iblk2_4_apply V c t, iblk2_5_apply V c t]
  · show win2_6.index t (0 : Fin 2) * 512 + 1 * p.val = t.val * 512 + p.val
    rw [e60]; omega
  · show win2_6.index t (1 : Fin 2) * 1024 + 1 * q.val = q.val
    rw [e61]; omega

/-- An index of the output array is in point `t`'s block iff each coordinate is in the block's range on its axis. -/
theorem mem_blk2_6 (t : Fin cfg2.N) (i : S2048x1024.Idx) :
    i ∈ ((cfg2.win 6).blk t).view.set ↔ ∀ a : Fin 2, win2_6.index t a * S512x1024.size a ≤ (i a).val ∧ (i a).val < win2_6.index t a * S512x1024.size a + S512x1024.size a := by
  show i ∈ ((View.whole main_v15).slice (win2_6.rect t)).set ↔ _
  rw [View.set_slice_whole, Rect.mem_set_unit]
  exact Iff.rfl

/-- Every index of the output array is in the block of the point its row falls in. -/
theorem arrCover2_6 (i : S2048x1024.Idx) : ∃ t : Fin cfg2.N, (cfg2.win 6).flush t = true ∧ i ∈ ((cfg2.win 6).blk t).view.set := by
  have hi0 : (i 0).val < 2048 := (i 0).isLt
  have hi1 : (i 1).val < 1024 := (i 1).isLt
  have hN : cfg2.N = 4 := N_2
  obtain ⟨-, -, -, -, -, -, -, -, -, -, -, -, e60, e61⟩ := idx_facts2 ⟨(i 0).val / 512, by rw [hN]; omega⟩
  refine ⟨⟨(i 0).val / 512, by rw [hN]; omega⟩, flush2_6 _, ?_⟩
  rw [mem_blk2_6]
  intro a
  match a with
  | ⟨0, _⟩ =>
    show win2_6.index ⟨(i 0).val / 512, _⟩ (0 : Fin 2) * 512 ≤ (i 0).val ∧ (i 0).val < win2_6.index ⟨(i 0).val / 512, _⟩ (0 : Fin 2) * 512 + 512
    rw [e60]; show (i 0).val / 512 * 512 ≤ (i 0).val ∧ (i 0).val < (i 0).val / 512 * 512 + 512; omega
  | ⟨1, _⟩ =>
    show win2_6.index ⟨(i 0).val / 512, _⟩ (1 : Fin 2) * 1024 ≤ (i 1).val ∧ (i 1).val < win2_6.index ⟨(i 0).val / 512, _⟩ (1 : Fin 2) * 1024 + 1024
    rw [e61]; omega

/-- THE OUTPUT ARRAY after the region is the row normalisation of the projected rows. -/
theorem arr2_6_eq (c : Dev nD) : (dat2 (F := Ideal) V c).arrAt 6 cfg2.N = outArr V c :=
  (dat2 (F := Ideal) V c).arrAt_eq_of_cover 6 (outArr V c) (fun t _ => flushed2_6_eq V c t) (arrCover2_6)

/-- THE VALUE OF REGION 2: the output array at row `r`, column `o`, over the six arrays as the region finds them (window 0 the
    attention output, 1 the output weight, 2 its bias row, 3 the residual, 4 and 5 the gain and bias rows). -/
theorem final2 (c : Dev nD) (r : Fin 2048) (o : Fin 1024) :
    (dat2 (F := Ideal) V c).arrAt 6 cfg2.N (ix2 r o)
      = Cert.Spec.lnRow Cert.Spec.c1024 Cert.Spec.cEps
          (Cert.Spec.pre (fun c' => V c (Pipeline.arrRef spec2 0) (ix2 r c')) (fun o' c' => V c (Pipeline.arrRef spec2 1) (ix2 o' c'))
            (fun o' => V c (Pipeline.arrRef spec2 2) (ix2 0 o')) (fun o' => V c (Pipeline.arrRef spec2 3) (ix2 r o')))
          (fun o' => V c (Pipeline.arrRef spec2 4) (ix2 0 o')) (fun o' => V c (Pipeline.arrRef spec2 5) (ix2 0 o')) o := by
  rw [arr2_6_eq]
  rfl

end Cert.KernelIdeal.Fr

end
-- ==== Proof.KI.Result.lean ====
/- The kernel program's result on the extended reals: the three kernels' values — the three projections side by side, the
   masked softmax-weighted sum of values per head, the normalised output projection — put into the composition through the
   host stretches. At (n, s, o) the result array reads the attention block of the thirteen arguments, the query mask applied
   after the sum over keys. -/
import proofs.«416712_j77146202571310_3_alg».proof.Proof.KI.Compose
import proofs.«416712_j77146202571310_3_alg».proof.Proof.KI.Val0
import proofs.«416712_j77146202571310_3_alg».proof.Proof.KI.Val1
import proofs.«416712_j77146202571310_3_alg».proof.Proof.KI.Val1.Block
import proofs.«416712_j77146202571310_3_alg».proof.Proof.KI.Val2

set_option maxRecDepth 16384

noncomputable section

namespace Cert.KernelIdeal.Fr

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ) (ρ : Dev nD → PrngReg)

/-- The projection kernel's output array is the three projections of its input arrays, side by side. -/
theorem final0_holds : Final0 := fun V c r j => final0 V c r j

/-- The attention kernel's output array is, entry by entry, the masked weighted sum over the keys. -/
theorem final1_holds : Final1 := fun V c n s col => final1_of V out1_6_apply c n s col

/-- The output kernel's output array is the row normalisation of the projected rows plus residual. -/
theorem final2_holds : Final2 := fun V c r o => final2 V c r o

/-- THE PROGRAM'S RESULT at `(n, s, o)`: the attention block of the thirteen arguments as launched, the query mask applied
    after the sum over keys. -/
theorem result_eq (c : Dev nD) (n : Fin 2) (s o : Fin 1024) :
    (W7 m ρ c main_v16 : S2x1024x1024.Idx → EReal) (ix3 n s o)
      = Cert.Spec.blockOf Cert.Spec.attnAfter (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) n s o :=
  result_eq_of m ρ final0_holds final1_holds final2_holds c n s o

end Cert.KernelIdeal.Fr

end
-- ==== Proof.RefSide.lean ====
import proofs.«416712_j77146202571310_3_alg».proof.Proof.Gen.ReferenceIdeal.Read
import proofs.«416712_j77146202571310_3_alg».proof.Proof.Spec
import Idealize.ShloMosaic.PureOps.Ideal.Laws
import Idealize.ShloMosaic.PureOps.Reduce
import Idealize.ShloMosaic.Lib.ValueIdx

/-!
# The reference program is the attention block

The reference computes, entry by entry, the block of `Cert.Spec` with the query mask applied inside
the sum over keys. Each stage of the program is read at explicit coordinates and identified with the
corresponding function of the specification: the three affine projections (split into heads), the
logits, the row maximum and the shifted softmax, the masks, the weighted sum of values, the output
projection with bias and residual, and the row normalisation.
-/

open scoped BigOperators

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Constants and small facts on the extended reals -/

/-- The word of `1.0` denotes `1`. -/
theorem ofBits_one : Ideal.ofBits .f32 0x3F800000#32 = 1 := by
  simp [Ideal.ofBits, Ideal.ieee, -EReal.coe_mul]; norm_num

/-- The word of `-∞` denotes `⊥`. -/
theorem ofBits_neg_inf : Ideal.ofBits .f32 0xFF800000#32 = ⊥ := by
  simp [Ideal.ofBits, Ideal.ieee]

/-- Division by one is the identity. -/
theorem div_one' (x : EReal) : Ideal.div x 1 = x := by
  unfold Ideal.div
  rw [if_neg one_ne_zero, inv_one, mul_one]

/-! ## Coordinates -/

/-- The flattened input at row `(n, q)` is the input at `(n, q, ·)`. -/
theorem x2d_row (a : (⟨3, ![2, 1024, 1024]⟩ : Shape).Idx → EReal) (n : Fin 2) (q k : Fin 1024) :
    Cert.Spec.x2d a (Cert.Spec.row n q) k = a (ix3 n q k) := by
  show a (ix3 _ _ k) = a (ix3 n q k)
  refine congrArg a (funext fun d => ?_)
  match d with
  | ⟨0, _⟩ => exact Fin.ext (by show (1024 * n.val + q.val) / 1024 = n.val; have := q.isLt; omega)
  | ⟨1, _⟩ => exact Fin.ext (by show (1024 * n.val + q.val) % 1024 = q.val; have := q.isLt; omega)
  | ⟨2, _⟩ => rfl

/-- A model column is column `offOf c` of head `headOf c`. -/
theorem hcol_head_off (c : Fin 1024) : Cert.Spec.hcol (Cert.Spec.headOf c) (Cert.Spec.offOf c) = c :=
  Fin.ext (by show 64 * (c.val / 64) + c.val % 64 = c.val; omega)

/-- An affine projection read at `(n, q, c)`. -/
theorem proj_eq (a : (⟨3, ![2, 1024, 1024]⟩ : Shape).Idx → EReal) (W : (⟨2, ![1024, 1024]⟩ : Shape).Idx → EReal)
    (b : (⟨1, ![1024]⟩ : Shape).Idx → EReal) (n : Fin 2) (q c : Fin 1024) :
    (∑ k : Fin 1024, a (ix3 n q k) * W (ix2 c k)) + b (ix1 c)
      = Cert.Spec.proj (Cert.Spec.x2d a) (Cert.Spec.w2d W) (Cert.Spec.v1d b) (Cert.Spec.row n q) c := by
  unfold Cert.Spec.proj
  simp only [x2d_row]
  rfl

/-! ## Index functions at explicit coordinates

Two indices of the same rank are equal when their coordinates are. -/

macro "idx1" : tactic => `(tactic| (funext a; match a with | ⟨0, _⟩ => rfl))
macro "idx2" : tactic => `(tactic| (funext a; match a with | ⟨0, _⟩ => rfl | ⟨1, _⟩ => rfl))
macro "idx3" : tactic => `(tactic| (funext a; match a with | ⟨0, _⟩ => rfl | ⟨1, _⟩ => rfl | ⟨2, _⟩ => rfl))
macro "idx4" : tactic => `(tactic| (funext a; match a with | ⟨0, _⟩ => rfl | ⟨1, _⟩ => rfl | ⟨2, _⟩ => rfl | ⟨3, _⟩ => rfl))

section

variable (x0 : (⟨S2x1024x1024, .f32⟩ : BufTy).Contents (Elt Ideal)) (x1 : (⟨S2x1024, .f32⟩ : BufTy).Contents (Elt Ideal))
  (x2 : (⟨S2x16x1024x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))
  (x9 : (⟨S1024x1024, .f32⟩ : BufTy).Contents (Elt Ideal)) (x10 x11 x12 : (⟨S1024, .f32⟩ : BufTy).Contents (Elt Ideal))

/-! ## The three projections, split into heads -/

/-- The query projection at `(n, q, c)`. -/
theorem v3_at (n : Fin 2) (q c : Fin 1024) :
    val_main_v3 (F := Ideal) x0 x3 x4 (ix3 n q c)
      = Cert.Spec.proj (Cert.Spec.x2d x0) (Cert.Spec.w2d x3) (Cert.Spec.v1d x4) (Cert.Spec.row n q) c := by
  rw [val_main_v3_apply, val_main_v0_apply, val_main_v2_apply, val_main_v1_apply, Ideal.addf_def]
  have e1 : ∀ k, lidx_main_v0 (ix3 n q c) k = ix3 n q k := fun k => by idx3
  have e2 : ∀ k, ridx_main_v0 (ix3 n q c) k = ix2 c k := fun k => by idx2
  have e3 : idx_main_v1 (idx_main_v2 (ix3 n q c)) = ix1 c := by idx1
  simp only [e1, e2, e3]
  exact proj_eq x0 x3 x4 n q c

/-- The query projection of head `h` at offset `d` is the flat projection at column `64 h + d`. -/
theorem v5_at (n : Fin 2) (h : Fin 16) (q : Fin 1024) (d : Fin 64) :
    val_main_v5 (F := Ideal) x0 x3 x4 (ix4 n h q d)
      = Cert.Spec.proj (Cert.Spec.x2d x0) (Cert.Spec.w2d x3) (Cert.Spec.v1d x4) (Cert.Spec.row n q) (Cert.Spec.hcol h d) := by
  rw [val_main_v5_apply, val_main_v4_apply, ← v3_at]
  refine congrArg (val_main_v3 (F := Ideal) x0 x3 x4) (funext fun a => ?_)
  have := n.isLt; have := h.isLt; have := q.isLt; have := d.isLt
  match a with
  | ⟨0, _⟩ => exact Fin.ext (by show (((n.val * 1024 + q.val) * 16 + h.val) * 64 + d.val) / 1048576 = n.val; omega)
  | ⟨1, _⟩ => exact Fin.ext (by show (((n.val * 1024 + q.val) * 16 + h.val) * 64 + d.val) / 1024 % 1024 = q.val; omega)
  | ⟨2, _⟩ => exact Fin.ext (by show (((n.val * 1024 + q.val) * 16 + h.val) * 64 + d.val) % 1024 = 64 * h.val + d.val; omega)

/-- The key projection at `(n, q, c)`. -/
theorem v9_at (n : Fin 2) (q c : Fin 1024) :
    val_main_v9 (F := Ideal) x0 x5 x6 (ix3 n q c)
      = Cert.Spec.proj (Cert.Spec.x2d x0) (Cert.Spec.w2d x5) (Cert.Spec.v1d x6) (Cert.Spec.row n q) c := by
  rw [val_main_v9_apply, val_main_v6_apply, val_main_v8_apply, val_main_v7_apply, Ideal.addf_def]
  have e1 : ∀ k, lidx_main_v6 (ix3 n q c) k = ix3 n q k := fun k => by idx3
  have e2 : ∀ k, ridx_main_v6 (ix3 n q c) k = ix2 c k := fun k => by idx2
  have e3 : idx_main_v7 (idx_main_v8 (ix3 n q c)) = ix1 c := by idx1
  simp only [e1, e2, e3]
  exact proj_eq x0 x5 x6 n q c

/-- The key projection of head `h` at offset `d`. -/
theorem v11_at (n : Fin 2) (h : Fin 16) (q : Fin 1024) (d : Fin 64) :
    val_main_v11 (F := Ideal) x0 x5 x6 (ix4 n h q d)
      = Cert.Spec.proj (Cert.Spec.x2d x0) (Cert.Spec.w2d x5) (Cert.Spec.v1d x6) (Cert.Spec.row n q) (Cert.Spec.hcol h d) := by
  rw [val_main_v11_apply, val_main_v10_apply, ← v9_at]
  refine congrArg (val_main_v9 (F := Ideal) x0 x5 x6) (funext fun a => ?_)
  have := n.isLt; have := h.isLt; have := q.isLt; have := d.isLt
  match a with
  | ⟨0, _⟩ => exact Fin.ext (by show (((n.val * 1024 + q.val) * 16 + h.val) * 64 + d.val) / 1048576 = n.val; omega)
  | ⟨1, _⟩ => exact Fin.ext (by show (((n.val * 1024 + q.val) * 16 + h.val) * 64 + d.val) / 1024 % 1024 = q.val; omega)
  | ⟨2, _⟩ => exact Fin.ext (by show (((n.val * 1024 + q.val) * 16 + h.val) * 64 + d.val) % 1024 = 64 * h.val + d.val; omega)

/-- The value projection at `(n, q, c)`. -/
theorem v15_at (n : Fin 2) (q c : Fin 1024) :
    val_main_v15 (F := Ideal) x0 x7 x8 (ix3 n q c)
      = Cert.Spec.proj (Cert.Spec.x2d x0) (Cert.Spec.w2d x7) (Cert.Spec.v1d x8) (Cert.Spec.row n q) c := by
  rw [val_main_v15_apply, val_main_v12_apply, val_main_v14_apply, val_main_v13_apply, Ideal.addf_def]
  have e1 : ∀ k, lidx_main_v12 (ix3 n q c) k = ix3 n q k := fun k => by idx3
  have e2 : ∀ k, ridx_main_v12 (ix3 n q c) k = ix2 c k := fun k => by idx2
  have e3 : idx_main_v13 (idx_main_v14 (ix3 n q c)) = ix1 c := by idx1
  simp only [e1, e2, e3]
  exact proj_eq x0 x7 x8 n q c

/-- The value projection of head `h` at offset `d`. -/
theorem v17_at (n : Fin 2) (h : Fin 16) (q : Fin 1024) (d : Fin 64) :
    val_main_v17 (F := Ideal) x0 x7 x8 (ix4 n h q d)
      = Cert.Spec.proj (Cert.Spec.x2d x0) (Cert.Spec.w2d x7) (Cert.Spec.v1d x8) (Cert.Spec.row n q) (Cert.Spec.hcol h d) := by
  rw [val_main_v17_apply, val_main_v16_apply, ← v15_at]
  refine congrArg (val_main_v15 (F := Ideal) x0 x7 x8) (funext fun a => ?_)
  have := n.isLt; have := h.isLt; have := q.isLt; have := d.isLt
  match a with
  | ⟨0, _⟩ => exact Fin.ext (by show (((n.val * 1024 + q.val) * 16 + h.val) * 64 + d.val) / 1048576 = n.val; omega)
  | ⟨1, _⟩ => exact Fin.ext (by show (((n.val * 1024 + q.val) * 16 + h.val) * 64 + d.val) / 1024 % 1024 = q.val; omega)
  | ⟨2, _⟩ => exact Fin.ext (by show (((n.val * 1024 + q.val) * 16 + h.val) * 64 + d.val) % 1024 = 64 * h.val + d.val; omega)

/-! ## Logits, row maximum, softmax -/

/-- The specification's logits of query `q` in head `h` of batch element `n`, over the argument arrays. -/
abbrev specL (n : Fin 2) (h : Fin 16) (q : Fin 1024) : Fin 1024 → EReal :=
  Cert.Spec.logit (Cert.Spec.proj (Cert.Spec.x2d x0) (Cert.Spec.w2d x3) (Cert.Spec.v1d x4))
    (Cert.Spec.proj (Cert.Spec.x2d x0) (Cert.Spec.w2d x5) (Cert.Spec.v1d x6)) (Cert.Spec.u4d x2) n h q

/-- The logits: scores plus transformed noise; the division by one is the identity. -/
theorem v25_at (n : Fin 2) (h : Fin 16) (q k : Fin 1024) :
    val_main_v25 (F := Ideal) x0 x2 x3 x4 x5 x6 (ix4 n h q k) = specL x0 x2 x3 x4 x5 x6 n h q k := by
  rw [val_main_v25_apply, val_main_v24_apply, val_main_cst_apply, val_main_v23_apply, val_main_v22_apply,
    val_main_v21_apply, val_main_v20_apply, val_main_v19_apply, val_main_v18_apply]
  have e1 : ∀ d, lidx_main_v18 (ix4 n h q k) d = ix4 n h q d := fun d => by idx4
  have e2 : ∀ d, ridx_main_v18 (ix4 n h q k) d = ix4 n h k d := fun d => by idx4
  simp only [e1, e2, v5_at, v11_at, Ideal.hostDivf_def, Ideal.ofBits_def, ofBits_one, div_one', Ideal.addf_def,
    Ideal.hostNegf_def, Ideal.negf_def, Ideal.hostUnary_log_def]
  rfl

/-- Putting coordinate `k` back on the reduced axis of `(n, h, q)`. -/
theorem lift_ix3 (hr : S2x16x1024x1024.Reduces [3] S2x16x1024) (n : Fin 2) (h : Fin 16) (q : Fin 1024)
    (k : Fin (S2x16x1024x1024.size 3)) : hr.lift (ix3 n h q) k = ix4 n h q (⟨k.val, k.isLt⟩ : Fin 1024) := by
  funext c; apply Fin.ext
  fin_cases c <;> rfl

/-- The row maximum: a maximum with `-∞` of the fold of maxima from `-∞`. -/
theorem v28_at (n : Fin 2) (h : Fin 16) (q : Fin 1024) :
    val_main_v28 (F := Ideal) x0 x2 x3 x4 x5 x6 (ix3 n h q) = Cert.Spec.rowMax (specL x0 x2 x3 x4 x5 x6 n h q) := by
  rw [val_main_v28_apply, val_main_v27_apply, val_main_cst_1_apply, Ideal.maximumf_def, Ideal.ofBits_def, ofBits_neg_inf,
    max_bot_left]
  unfold val_main_v26
  have hr : S2x16x1024x1024.Reduces [3] S2x16x1024 := by decide
  rw [Host.reduce_eq_fold_single FloatOps.maximumf _ _ reducesTo_S2x16x1024x1024_S2x16x1024_d3 hr h_S_,
    val_main_cst_0_apply, Ideal.ofBits_def, ofBits_neg_inf]
  have hf : (val_main_v25 (F := Ideal) x0 x2 x3 x4 x5 x6 ∘ hr.lift (ix3 n h q))
      = fun k : Fin 1024 => specL x0 x2 x3 x4 x5 x6 n h q k := funext fun k => by
    show val_main_v25 (F := Ideal) x0 x2 x3 x4 x5 x6 (hr.lift (ix3 n h q) k) = _
    rw [lift_ix3, v25_at]
    rfl
  exact congrArg (fun f => Finset.fold max (⊥ : EReal) f (Finset.univ : Finset (Fin 1024))) hf

/-- The shifted exponentials. -/
theorem v32_at (n : Fin 2) (h : Fin 16) (q k : Fin 1024) :
    val_main_v32 (F := Ideal) x0 x2 x3 x4 x5 x6 (ix4 n h q k)
      = Ideal.exp (specL x0 x2 x3 x4 x5 x6 n h q k - Cert.Spec.rowMax (specL x0 x2 x3 x4 x5 x6 n h q)) := by
  rw [val_main_v32_apply, val_main_v31_apply, val_main_v30_apply, val_main_v29_apply]
  have e1 : idx_main_v29 (idx_main_v30 (ix4 n h q k)) = ix3 n h q := by idx3
  rw [e1, v25_at, v28_at, Ideal.hostUnary_exp_def, Ideal.subf_def]

/-- The softmax weights. -/
theorem v36_at (n : Fin 2) (h : Fin 16) (q k : Fin 1024) :
    val_main_v36 (F := Ideal) x0 x2 x3 x4 x5 x6 (ix4 n h q k) = Cert.Spec.soft (specL x0 x2 x3 x4 x5 x6 n h q) k := by
  rw [val_main_v36_apply, val_main_v35_apply, val_main_v34_apply, val_main_v33_apply, val_main_cst_2_apply]
  have e1 : idx_main_v34 (idx_main_v35 (ix4 n h q k)) = ix3 n h q := by idx3
  have e2 : ∀ k', idx_main_v33 (ix3 n h q) k' = ix4 n h q k' := fun k' => by idx4
  simp only [e1, e2, v32_at, Ideal.ofBits_def, Ideal.ofBits_zero_f32, zero_add, Ideal.hostDivf_def]
  rfl

/-! ## Masks, weighted sum of values, output projection -/

/-- The masked softmax weights: the query mask times the key mask multiplies the weight. -/
theorem v43_at (n : Fin 2) (h : Fin 16) (q k : Fin 1024) :
    val_main_v43 (F := Ideal) x0 x1 x2 x3 x4 x5 x6 (ix4 n h q k)
      = Cert.Spec.soft (specL x0 x2 x3 x4 x5 x6 n h q) k * (Cert.Spec.m2d x1 n q * Cert.Spec.m2d x1 n k) := by
  rw [val_main_v43_apply, val_main_v42_apply, val_main_v41_apply, val_main_v39_apply, val_main_v40_apply,
    val_main_v37_apply, val_main_v38_apply, v36_at]
  have e1 : idx_main_v37 (idx_main_v39 (idx_main_v42 (ix4 n h q k))) = ix2 n q := by idx2
  have e2 : idx_main_v38 (idx_main_v40 (idx_main_v42 (ix4 n h q k))) = ix2 n k := by idx2
  rw [e1, e2, Ideal.mulf_def, Ideal.mulf_def]
  rfl

/-- The specification's attention row at `(n, s)`, the query mask inside the sum over keys. -/
abbrev specA (n : Fin 2) (s : Fin 1024) : Fin 1024 → EReal :=
  Cert.Spec.attn Cert.Spec.attnInside (Cert.Spec.proj (Cert.Spec.x2d x0) (Cert.Spec.w2d x3) (Cert.Spec.v1d x4))
    (Cert.Spec.proj (Cert.Spec.x2d x0) (Cert.Spec.w2d x5) (Cert.Spec.v1d x6))
    (Cert.Spec.proj (Cert.Spec.x2d x0) (Cert.Spec.w2d x7) (Cert.Spec.v1d x8)) (Cert.Spec.u4d x2) (Cert.Spec.m2d x1) n s

/-- The weighted sum of values per head. -/
theorem v44_at (n : Fin 2) (h : Fin 16) (q : Fin 1024) (d : Fin 64) :
    val_main_v44 (F := Ideal) x0 x1 x2 x3 x4 x5 x6 x7 x8 (ix4 n h q d)
      = ∑ k : Fin 1024, (Cert.Spec.soft (specL x0 x2 x3 x4 x5 x6 n h q) k * (Cert.Spec.m2d x1 n q * Cert.Spec.m2d x1 n k))
          * Cert.Spec.proj (Cert.Spec.x2d x0) (Cert.Spec.w2d x7) (Cert.Spec.v1d x8) (Cert.Spec.row n k) (Cert.Spec.hcol h d) := by
  rw [val_main_v44_apply]
  have e1 : ∀ k, lidx_main_v44 (ix4 n h q d) k = ix4 n h q k := fun k => by idx4
  have e2 : ∀ k, ridx_main_v44 (ix4 n h q d) k = ix4 n h k d := fun k => by idx4
  simp only [e1, e2, v43_at, v17_at]

/-- The heads merged back: the attention output at `(n, s, c)` is the specification's. -/
theorem v46_at (n : Fin 2) (s c : Fin 1024) :
    val_main_v46 (F := Ideal) x0 x1 x2 x3 x4 x5 x6 x7 x8 (ix3 n s c) = specA x0 x1 x2 x3 x4 x5 x6 x7 x8 n s c := by
  rw [val_main_v46_apply, val_main_v45_apply]
  have e1 : idx_main_v45 (idx_main_v46 (ix3 n s c)) = ix4 n (Cert.Spec.headOf c) s (Cert.Spec.offOf c) := by
    have := n.isLt; have := s.isLt; have := c.isLt
    funext a
    match a with
    | ⟨0, _⟩ => exact Fin.ext (by show ((n.val * 1024 + s.val) * 1024 + c.val) / 1048576 = n.val; omega)
    | ⟨1, _⟩ => exact Fin.ext (by show ((n.val * 1024 + s.val) * 1024 + c.val) / 64 % 16 = c.val / 64; omega)
    | ⟨2, _⟩ => exact Fin.ext (by show ((n.val * 1024 + s.val) * 1024 + c.val) / 1024 % 1024 = s.val; omega)
    | ⟨3, _⟩ => exact Fin.ext (by show ((n.val * 1024 + s.val) * 1024 + c.val) % 64 = c.val % 64; omega)
  rw [e1, v44_at]
  simp only [hcol_head_off]
  rfl

/-- The specification's row fed to the normalisation at `(n, s)`. -/
abbrev specP (n : Fin 2) (s : Fin 1024) : Fin 1024 → EReal :=
  Cert.Spec.pre (specA x0 x1 x2 x3 x4 x5 x6 x7 x8 n s) (Cert.Spec.w2d x9) (Cert.Spec.v1d x10) (Cert.Spec.x2d x0 (Cert.Spec.row n s))

/-- The output projection plus bias plus residual. -/
theorem v51_at (n : Fin 2) (s o : Fin 1024) :
    val_main_v51 (F := Ideal) x0 x1 x2 x3 x4 x5 x6 x7 x8 x9 x10 (ix3 n s o) = specP x0 x1 x2 x3 x4 x5 x6 x7 x8 x9 x10 n s o := by
  rw [val_main_v51_apply, val_main_v50_apply, val_main_v47_apply, val_main_v49_apply, val_main_v48_apply]
  have e1 : ∀ k, lidx_main_v47 (ix3 n s o) k = ix3 n s k := fun k => by idx3
  have e2 : ∀ k, ridx_main_v47 (ix3 n s o) k = ix2 o k := fun k => by idx2
  have e3 : idx_main_v48 (idx_main_v49 (ix3 n s o)) = ix1 o := by idx1
  simp only [e1, e2, e3, v46_at, Ideal.addf_def]
  rw [← x2d_row x0 n s o]
  rfl

/-! ## The row normalisation -/

/-- The mean of the row. -/
theorem v55_at (n : Fin 2) (s : Fin 1024) :
    val_main_v55 (F := Ideal) x0 x1 x2 x3 x4 x5 x6 x7 x8 x9 x10 (ix3 n s (0 : Fin 1))
      = Ideal.div (∑ o' : Fin 1024, specP x0 x1 x2 x3 x4 x5 x6 x7 x8 x9 x10 n s o') Cert.Spec.c1024 := by
  rw [val_main_v55_apply, val_main_v53_apply, val_main_v52_apply, val_main_v54_apply, val_main_cst_3_apply, val_main_cst_4_apply]
  have e1 : ∀ k, idx_main_v52 (idx_main_v53 (ix3 n s (0 : Fin 1))) k = ix3 n s k := fun k => by idx3
  simp only [e1, v51_at, Ideal.ofBits_def, Ideal.ofBits_zero_f32, zero_add, Ideal.hostDivf_def]
  rfl

/-- The centred row. -/
theorem v57_at (n : Fin 2) (s o : Fin 1024) :
    val_main_v57 (F := Ideal) x0 x1 x2 x3 x4 x5 x6 x7 x8 x9 x10 (ix3 n s o)
      = specP x0 x1 x2 x3 x4 x5 x6 x7 x8 x9 x10 n s o
          - Ideal.div (∑ o' : Fin 1024, specP x0 x1 x2 x3 x4 x5 x6 x7 x8 x9 x10 n s o') Cert.Spec.c1024 := by
  rw [val_main_v57_apply, val_main_v56_apply]
  have e1 : idx_main_v56 (ix3 n s o) = ix3 n s (0 : Fin 1) := by idx3
  rw [e1, v51_at, v55_at, Ideal.subf_def]

/-- The centred row, as the program computes it a second time. -/
theorem v64_at (n : Fin 2) (s o : Fin 1024) :
    val_main_v64 (F := Ideal) x0 x1 x2 x3 x4 x5 x6 x7 x8 x9 x10 (ix3 n s o)
      = specP x0 x1 x2 x3 x4 x5 x6 x7 x8 x9 x10 n s o
          - Ideal.div (∑ o' : Fin 1024, specP x0 x1 x2 x3 x4 x5 x6 x7 x8 x9 x10 n s o') Cert.Spec.c1024 := by
  rw [val_main_v64_apply, val_main_v63_apply]
  have e1 : idx_main_v63 (ix3 n s o) = ix3 n s (0 : Fin 1) := by idx3
  rw [e1, v51_at, v55_at, Ideal.subf_def]

/-- The squared centred row. -/
theorem v58_at (n : Fin 2) (s o : Fin 1024) :
    val_main_v58 (F := Ideal) x0 x1 x2 x3 x4 x5 x6 x7 x8 x9 x10 (ix3 n s o)
      = (specP x0 x1 x2 x3 x4 x5 x6 x7 x8 x9 x10 n s o
          - Ideal.div (∑ o' : Fin 1024, specP x0 x1 x2 x3 x4 x5 x6 x7 x8 x9 x10 n s o') Cert.Spec.c1024)
        * (specP x0 x1 x2 x3 x4 x5 x6 x7 x8 x9 x10 n s o
          - Ideal.div (∑ o' : Fin 1024, specP x0 x1 x2 x3 x4 x5 x6 x7 x8 x9 x10 n s o') Cert.Spec.c1024) := by
  rw [val_main_v58_apply, v57_at, Ideal.mulf_def]

/-- The reciprocal square root of the variance plus the stabiliser. -/
theorem v67_at (n : Fin 2) (s : Fin 1024) :
    val_main_v67 (F := Ideal) x0 x1 x2 x3 x4 x5 x6 x7 x8 x9 x10 (ix3 n s (0 : Fin 1))
      = Ideal.rsqrt (Ideal.div (∑ o' : Fin 1024,
            (specP x0 x1 x2 x3 x4 x5 x6 x7 x8 x9 x10 n s o'
              - Ideal.div (∑ o'' : Fin 1024, specP x0 x1 x2 x3 x4 x5 x6 x7 x8 x9 x10 n s o'') Cert.Spec.c1024)
            * (specP x0 x1 x2 x3 x4 x5 x6 x7 x8 x9 x10 n s o'
              - Ideal.div (∑ o'' : Fin 1024, specP x0 x1 x2 x3 x4 x5 x6 x7 x8 x9 x10 n s o'') Cert.Spec.c1024)) Cert.Spec.c1024
          + Cert.Spec.cEps) := by
  rw [val_main_v67_apply, val_main_v66_apply, val_main_v62_apply, val_main_v60_apply, val_main_v59_apply, val_main_v61_apply,
    val_main_v65_apply, val_main_cst_5_apply, val_main_cst_6_apply, val_main_cst_7_apply]
  have e1 : ∀ k, idx_main_v59 (idx_main_v60 (ix3 n s (0 : Fin 1))) k = ix3 n s k := fun k => by idx3
  simp only [e1, v58_at, Ideal.ofBits_def, Ideal.ofBits_zero_f32, zero_add, Ideal.hostDivf_def, Ideal.addf_def,
    Ideal.hostUnary_rsqrt_def]
  rfl

/-- **The reference is the block**, the query mask inside the sum over keys. -/
theorem ref_block (n : Fin 2) (s o : Fin 1024) :
    Cert.ReferenceIdeal.Read.val_main_v75 (F := Ideal) x0 x1 x2 x3 x4 x5 x6 x7 x8 x9 x10 x11 x12 (ValueIdx.ix3 n s o)
      = Cert.Spec.blockOf Cert.Spec.attnInside x0 x1 x2 x3 x4 x5 x6 x7 x8 x9 x10 x11 x12 n s o := by
  rw [val_main_v75_apply, val_main_v72_apply, val_main_v69_apply, val_main_v68_apply, val_main_v71_apply, val_main_v70_apply,
    val_main_v74_apply, val_main_v73_apply]
  have e1 : idx_main_v68 (ix3 n s o) = ix3 n s (0 : Fin 1) := by idx3
  have e2 : idx_main_v70 (idx_main_v71 (ix3 n s o)) = ix1 o := by idx1
  have e3 : idx_main_v73 (idx_main_v74 (ix3 n s o)) = ix1 o := by idx1
  rw [e1, e2, e3, v64_at, v67_at, Ideal.addf_def, Ideal.mulf_def, Ideal.mulf_def]
  rfl

end

end Cert.ReferenceIdeal.RefValue

end
-- ==== Proof.Law.lean ====
import proofs.«416712_j77146202571310_3_alg».proof.Proof.Spec
import Mathlib.Data.EReal.Operations
import Mathlib.Algebra.BigOperators.Group.Finset.Basic
import Mathlib.Algebra.BigOperators.Ring.Finset

/-!
# Moving the query mask through the sum over keys

The two spellings of the masked weighted sum differ in where the query mask `mq` multiplies: after
the sum over keys, `(∑ k, t k) * mq`, or inside it, `∑ k, mq * t k`. On the reals these agree by
distributivity. On the extended reals multiplication does not distribute over addition (a sum may
hold `⊤` and `⊥` together, and the softmax weights may themselves be infinite), so the two sums need
not be equal. What survives is a weaker relation `Sim`: two extended reals are related when they are
equal, or when both are infinite (possibly of opposite sign).

* For a real mask the two spellings are related (`attn_sim`): a zero mask makes both sides `0`; if all
  terms are real the identity is the one of `ℝ`; if some term is infinite then so is the whole sum,
  and an infinite value times a nonzero real is infinite, on both sides.
* The relation is kept by multiplying with one real, by finite sums, and by adding one extended real
  on both sides; hence by the affine output projection plus residual (`pre_sim`).
* The row normalisation forgets the difference (`lnRow_congr`): a row with an infinite entry has an
  infinite mean, every centred entry is then infinite, every square is `⊤`, the variance is `⊤`, its
  reciprocal square root is `0`, and the normalised row is `0 * γ + β` whatever the entries were.

Together: the whole block is the same function for both spellings (`block_eq`).
-/

open scoped BigOperators

noncomputable section

namespace Cert.Law

open Cert.Spec
open Idealize.ShloMosaic

/-- An extended real is infinite when it is one of the two ends of the line. -/
abbrev Inf (a : EReal) : Prop := a = ⊤ ∨ a = ⊥

/-- Equal, or both infinite. -/
def Sim (a b : EReal) : Prop := a = b ∨ ((a = ⊤ ∨ a = ⊥) ∧ (b = ⊤ ∨ b = ⊥))

/-! ## Infinite values under sums and real factors -/

/-- An infinite value plus anything is infinite: `⊥` absorbs, and `⊤` yields only to `⊥`. -/
theorem inf_add_right {a : EReal} (h : Inf a) (b : EReal) : Inf (a + b) := by
  rcases h with rfl | rfl
  · by_cases hb : b = ⊥
    · subst hb; exact Or.inr (EReal.add_bot _)
    · exact Or.inl (EReal.top_add_of_ne_bot hb)
  · exact Or.inr (EReal.bot_add b)

/-- An infinite value times a nonzero real is infinite. -/
theorem inf_mul_coe {a : EReal} (h : Inf a) {r : ℝ} (hr : r ≠ 0) : Inf (a * (r : EReal)) := by
  rcases lt_or_gt_of_ne hr with hneg | hpos
  · rcases h with rfl | rfl
    · exact Or.inr (EReal.top_mul_coe_of_neg hneg)
    · exact Or.inl (EReal.bot_mul_coe_of_neg hneg)
  · rcases h with rfl | rfl
    · exact Or.inl (EReal.top_mul_coe_of_pos hpos)
    · exact Or.inr (EReal.bot_mul_coe_of_pos hpos)

/-- A finite sum with an infinite term is infinite: split that term off. -/
theorem inf_sum {ι : Type*} {s : Finset ι} {f : ι → EReal} {i : ι} (hi : i ∈ s) (h : Inf (f i)) :
    Inf (∑ j ∈ s, f j) := by
  classical
  rw [← Finset.add_sum_erase s f hi]
  exact inf_add_right h _

/-- The inclusion of the reals commutes with finite sums. -/
theorem coe_sum {ι : Type*} (s : Finset ι) (g : ι → ℝ) :
    ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

/-! ## A real factor through a finite sum -/

/-- A real factor `m` outside a finite sum against the same factor on every term: equal, or both
    infinite. -/
theorem sum_mul_sim {ι : Type*} (s : Finset ι) (t : ι → EReal) (m : ℝ) :
    Sim ((∑ k ∈ s, t k) * (m : EReal)) (∑ k ∈ s, (m : EReal) * t k) := by
  by_cases hm : m = 0
  · -- a zero factor: both sides vanish
    subst hm
    left
    simp
  by_cases hinf : ∃ k ∈ s, Inf (t k)
  · -- an infinite term: both sums are infinite, and stay so under the nonzero real factor
    obtain ⟨k, hk, hkinf⟩ := hinf
    right
    refine ⟨inf_mul_coe (inf_sum hk hkinf) hm, ?_⟩
    refine inf_sum (f := fun k => (m : EReal) * t k) hk ?_
    show Inf ((m : EReal) * t k)
    rw [mul_comm]
    exact inf_mul_coe hkinf hm
  · -- all terms real: distributivity in `ℝ`
    left
    obtain ⟨g, hg⟩ : ∃ g : ι → ℝ, ∀ k ∈ s, t k = (g k : EReal) := by
      refine ⟨fun k => (t k).toReal, fun k hk => ?_⟩
      have hk' : ¬ Inf (t k) := fun h => hinf ⟨k, hk, h⟩
      exact (EReal.coe_toReal (fun h => hk' (Or.inl h)) (fun h => hk' (Or.inr h))).symm
    calc (∑ k ∈ s, t k) * (m : EReal)
        = (∑ k ∈ s, (g k : EReal)) * (m : EReal) := by rw [Finset.sum_congr rfl hg]
      _ = ((∑ k ∈ s, m * g k : ℝ) : EReal) := by
          rw [← coe_sum, ← EReal.coe_mul, mul_comm (∑ k ∈ s, g k) m, Finset.mul_sum]
      _ = ∑ k ∈ s, (m : EReal) * (g k : EReal) := by
          rw [coe_sum]
          exact Finset.sum_congr rfl (fun k _ => EReal.coe_mul _ _)
      _ = ∑ k ∈ s, (m : EReal) * t k :=
          (Finset.sum_congr rfl (fun k hk => by rw [hg k hk])).symm

/-! ## What keeps the relation -/

/-- Multiplying both sides by one real. -/
theorem sim_mul_real {a b : EReal} (h : Sim a b) {w : EReal} (hwT : w ≠ ⊤) (hwB : w ≠ ⊥) :
    Sim (a * w) (b * w) := by
  rcases h with rfl | ⟨ha, hb⟩
  · exact Or.inl rfl
  · lift w to ℝ using ⟨hwT, hwB⟩
    by_cases hw : w = 0
    · subst hw
      left
      simp
    · exact Or.inr ⟨inf_mul_coe ha hw, inf_mul_coe hb hw⟩

/-- Finite sums of related terms. -/
theorem sim_sum {ι : Type*} {s : Finset ι} {f g : ι → EReal} (h : ∀ i ∈ s, Sim (f i) (g i)) :
    Sim (∑ i ∈ s, f i) (∑ i ∈ s, g i) := by
  by_cases heq : ∀ i ∈ s, f i = g i
  · exact Or.inl (Finset.sum_congr rfl heq)
  · push Not at heq
    obtain ⟨i, hi, hne⟩ := heq
    rcases h i hi with he | ⟨ha, hb⟩
    · exact absurd he hne
    · exact Or.inr ⟨inf_sum hi ha, inf_sum hi hb⟩

/-- Adding one extended real to both sides. -/
theorem sim_add_right {a b : EReal} (h : Sim a b) (c : EReal) : Sim (a + c) (b + c) := by
  rcases h with rfl | ⟨ha, hb⟩
  · exact Or.inl rfl
  · exact Or.inr ⟨inf_add_right ha c, inf_add_right hb c⟩

/-! ## The two spellings of the masked sum -/

/-- With a real query mask, the mask after the sum and the mask inside it are related. -/
theorem attn_sim (s mk v : Fin 1024 → EReal) (mq : EReal) (hT : mq ≠ ⊤) (hB : mq ≠ ⊥) :
    Sim (attnAfter s mk v mq) (attnInside s mk v mq) := by
  lift mq to ℝ using ⟨hT, hB⟩
  -- the inside term is the mask times the unmasked term, by commutativity and associativity alone
  have hterm : ∀ k : Fin 1024,
      (s k * ((mq : EReal) * mk k)) * v k = (mq : EReal) * ((s k * mk k) * v k) := by
    intro k
    ac_rfl
  unfold attnAfter attnInside
  rw [Finset.sum_congr rfl (fun k _ => hterm k)]
  exact sum_mul_sim Finset.univ (fun k => (s k * mk k) * v k) mq

/-- The output projection plus bias plus residual keeps the relation, the weights being real. -/
theorem pre_sim (A A' : Fin 1024 → EReal) (hA : ∀ c, Sim (A c) (A' c))
    (Wo : Fin 1024 → Fin 1024 → EReal) (hWo : ∀ o c, Wo o c ≠ ⊤ ∧ Wo o c ≠ ⊥)
    (bo xr : Fin 1024 → EReal) (o : Fin 1024) :
    Sim (pre A Wo bo xr o) (pre A' Wo bo xr o) := by
  unfold pre
  exact sim_add_right
    (sim_add_right (sim_sum (fun c _ => sim_mul_real (hA c) (hWo o c).1 (hWo o c).2)) (bo o)) (xr o)

/-! ## The row normalisation -/

/-- A row with an infinite entry normalises to `0 * γ + β`: the mean is infinite, so every centred
    entry is infinite, every square is `⊤`, the variance plus the stabiliser is `⊤`, and its reciprocal
    square root is `0`. -/
theorem lnRow_of_inf (N eps : EReal) (hN : ∃ r : ℝ, 0 < r ∧ N = (r : EReal)) (heps : eps ≠ ⊥)
    (x g b : Fin 1024 → EReal) {o₀ : Fin 1024} (h₀ : Inf (x o₀)) (o : Fin 1024) :
    lnRow N eps x g b o = 0 * g o + b o := by
  obtain ⟨r, hr, rfl⟩ := hN
  have hrpos : 0 < (1 / r : ℝ) := one_div_pos.2 hr
  obtain ⟨μ, hμ⟩ : ∃ μ : EReal, μ = Ideal.div (∑ o' : Fin 1024, x o') (r : EReal) := ⟨_, rfl⟩
  -- the mean is infinite
  have hμinf : Inf μ := by
    rw [hμ, Ideal.div_coe hr.ne']
    exact inf_mul_coe (inf_sum (Finset.mem_univ o₀) h₀) hrpos.ne'
  -- so is every centred entry
  have hd : ∀ o' : Fin 1024, Inf (x o' - μ) := by
    intro o'
    rcases hμinf with h | h
    · rw [h]
      exact Or.inr (EReal.sub_top _)
    · rw [h]
      by_cases hx : x o' = ⊥
      · rw [hx]
        exact Or.inr (EReal.bot_sub _)
      · exact Or.inl (EReal.sub_bot hx)
  -- every square is the top
  have hsq : ∀ o' : Fin 1024, (x o' - μ) * (x o' - μ) = ⊤ := by
    intro o'
    rcases hd o' with h | h <;> rw [h]
    · exact EReal.top_mul_top
    · exact EReal.bot_mul_bot
  -- and so is their sum, the row being nonempty
  have hV : (∑ o' : Fin 1024, (x o' - μ) * (x o' - μ)) = ⊤ := by
    refine Finset.sum_induction_nonempty _ (fun y => y = ⊤) ?_ ⟨o, Finset.mem_univ o⟩
      (fun o' _ => hsq o')
    intro a c ha hc
    rw [ha, hc]
    exact EReal.top_add_top
  unfold lnRow
  rw [← hμ, hV, Ideal.div_coe hr.ne', EReal.top_mul_coe_of_pos hrpos,
    EReal.top_add_of_ne_bot heps, Ideal.rsqrt_top, mul_zero]

/-- The normalisation takes related rows to the same row. -/
theorem lnRow_congr (N eps : EReal) (hN : ∃ r : ℝ, 0 < r ∧ N = (r : EReal)) (heps : eps ≠ ⊥)
    (x x' g b : Fin 1024 → EReal) (h : ∀ o, Sim (x o) (x' o)) (o : Fin 1024) :
    lnRow N eps x g b o = lnRow N eps x' g b o := by
  by_cases heq : ∀ o', x o' = x' o'
  · have hxx : x = x' := funext heq
    rw [hxx]
  · push Not at heq
    obtain ⟨o₀, hne⟩ := heq
    rcases h o₀ with he | ⟨ha, hb⟩
    · exact absurd he hne
    · rw [lnRow_of_inf N eps hN heps x g b ha o, lnRow_of_inf N eps hN heps x' g b hb o]

/-! ## The two constants -/

/-- The word `0x44800000`: sign `0`, exponent field `137`, fraction `0`, that is `2 ^ 10`. -/
theorem c1024_eq : c1024 = ((1024 : ℝ) : EReal) := by
  unfold c1024
  simp [Ideal.ofBits, Ideal.ieee, -EReal.coe_mul]
  norm_num

theorem c1024_pos : ∃ r : ℝ, 0 < r ∧ c1024 = (r : EReal) :=
  ⟨1024, by norm_num, c1024_eq⟩

/-- The word `0x3727C5AC` has exponent field `110`, neither all ones nor zero: it denotes a real. -/
theorem cEps_ne_bot : cEps ≠ ⊥ := by
  unfold cEps
  simp [Ideal.ofBits, Ideal.ieee, -EReal.coe_mul]

/-! ## The whole block -/

/-- The block is the same function whichever way the masked sum is spelled, the mask and the output
    weights being real. -/
theorem block_eq (x : Fin 2048 → Fin 1024 → EReal) (mask : Fin 2 → Fin 1024 → EReal)
    (u : Fin 2 → Fin 16 → Fin 1024 → Fin 1024 → EReal)
    (Wq : Fin 1024 → Fin 1024 → EReal) (bq : Fin 1024 → EReal)
    (Wk : Fin 1024 → Fin 1024 → EReal) (bk : Fin 1024 → EReal)
    (Wv : Fin 1024 → Fin 1024 → EReal) (bv : Fin 1024 → EReal)
    (Wo : Fin 1024 → Fin 1024 → EReal) (bo g b : Fin 1024 → EReal)
    (hmask : ∀ n s, mask n s ≠ ⊤ ∧ mask n s ≠ ⊥) (hWo : ∀ o c, Wo o c ≠ ⊤ ∧ Wo o c ≠ ⊥)
    (n : Fin 2) (s o : Fin 1024) :
    block attnAfter x mask u Wq bq Wk bk Wv bv Wo bo g b n s o
      = block attnInside x mask u Wq bq Wk bk Wv bv Wo bo g b n s o := by
  unfold block
  refine lnRow_congr c1024 cEps c1024_pos cEps_ne_bot _ _ g b
    (fun o' => pre_sim _ _ (fun c => ?_) Wo hWo bo _ o') o
  unfold attn
  exact attn_sim _ _ _ _ (hmask n s).1 (hmask n s).2

end Cert.Law

end
-- ==== Proof.Finite.lean ====
/- The precondition read back. `Cert.Pre_KernelIdeal m` says that on every device the printed predicate `finite_inputs`
   of the thirteen argument arrays is all ones: a conjunction, joined left to right, of thirteen terms
   `all (|a| < +∞)`, one per argument. Read at the ideal instance (floats are extended reals), one such term says
   that every entry of `a` is a real number — neither `⊤` nor `⊥`. Decoded here once for an array of any shape
   (`all_real`), then for the two arguments the proof uses: the mask `main_arg1` and the output weight `main_arg9`. -/
import proofs.«416712_j77146202571310_3_alg».proof.Defs
import proofs.«416712_j77146202571310_3_alg».proof.Proof.Gen.Pre_finite_inputs
import Idealize.ShloMosaic.Lib.ReduceAll
import Idealize.ShloMosaic.Lib.ValueIdx

noncomputable section

namespace Cert.KernelIdeal.Fin

open Idealize.ShloMosaic Idealize.ShloMosaic.ValueIdx Cert.KernelIdeal

/-- The rank-0 shape has one index. -/
instance : Subsingleton Cert.Pre_finite_inputs.S_.Idx := ⟨fun a b => funext fun d => d.elim0⟩

/-- The f32 pattern of `+∞` denotes `⊤`. -/
theorem inf_eq_top : Ideal.ofBits .f32 0x7F800000#32 = (⊤ : EReal) := by simp [Ideal.ofBits, Ideal.ieee]

/-- On one value: `|x| < +∞` — `max x (−x)` strictly below `⊤` — says `x` is a real: at `x = ⊤` the maximum is `⊤`,
    at `x = ⊥` it is `−⊥ = ⊤`. -/
theorem real_of_abs_lt_inf (x : EReal)
    (h : Ideal.cmp .olt (max x (-x)) (Ideal.ofBits .f32 0x7F800000#32) = 1#1) : x ≠ ⊤ ∧ x ≠ ⊥ := by
  rw [inf_eq_top] at h
  induction x using EReal.rec with
  | bot => simp [Ideal.cmp] at h
  | coe r => exact ⟨EReal.coe_ne_top r, EReal.coe_ne_bot r⟩
  | top => simp [Ideal.cmp] at h

/-- One conjunct of the predicate, for an array `a` of any shape `s`: if the `and`-reduction over all axes of the
    comparison `|a| < +∞` (the `+∞` a scalar constant broadcast to `s`) is 1, every entry of `a` is a real. -/
theorem all_real {s : Shape} {axes : List (Fin s.rank)} (a : FVec Ideal s .f32)
    (bc : Cert.Pre_finite_inputs.S_.BroadcastsInDim s (![] : Fin 0 → Fin s.rank))
    (red : s.ReducesTo axes Cert.Pre_finite_inputs.S_) (h0 : 0 < Cert.Pre_finite_inputs.S_.numel)
    (j : Cert.Pre_finite_inputs.S_.Idx)
    (e : Host.reduce IntOp.andi
          (cmpf .olt (Host.absf a) (broadcastInDim s ![] bc (constant Cert.Pre_finite_inputs.S_ .f32 0x7F800000#32)))
          (constantI Cert.Pre_finite_inputs.S_ 1 1#1) red h0 j = 1#1)
    (i : s.Idx) : (a i : EReal) ≠ ⊤ ∧ (a i : EReal) ≠ ⊥ :=
  real_of_abs_lt_inf (a i) (Host.reduce_andi_all _ _ red h0 j e i)

/-- A conjunction of two rank-0 truth values that is 1 has both 1. -/
theorem and_ix0 (x y : IVec Cert.Pre_finite_inputs.S_ 1) (h : andi x y ix0 = 1#1) : x ix0 = 1#1 ∧ y ix0 = 1#1 :=
  IntOp.andi_eq_one.1 h

/-- Every entry of the mask (`main_arg1`, [2, 1024]) is a real: the predicate's second conjunct. -/
theorem mask_real [Cert.Pre_finite_inputs.Facts] (m : (ℓ : Loc nD τ sig) → Buf (Elt Ideal) ℓ) (h : Cert.Pre_KernelIdeal m)
    (c : Dev nD) (n : Fin 2) (s : Fin 1024) :
    (m ((c.tc : Thread nD τ).loc main_arg1) : S2x1024.Idx → EReal) (ix2 n s) ≠ (⊤ : EReal)
      ∧ (m ((c.tc : Thread nD τ).loc main_arg1) : S2x1024.Idx → EReal) (ix2 n s) ≠ (⊥ : EReal) := by
  have h63 := congrFun (h c) ix0
  dsimp only [Cert.Pre_finite_inputs.fn, Cert.Pre_finite_inputs.fn_part1, Cert.Pre_finite_inputs.fn_part2,
    Cert.Pre_finite_inputs.fn_part3] at h63
  have h58 := (and_ix0 _ _ h63).1
  have h53 := (and_ix0 _ _ h58).1
  have h48 := (and_ix0 _ _ h53).1
  have h43 := (and_ix0 _ _ h48).1
  have h38 := (and_ix0 _ _ h43).1
  have h33 := (and_ix0 _ _ h38).1
  have h28 := (and_ix0 _ _ h33).1
  have h23 := (and_ix0 _ _ h28).1
  have h18 := (and_ix0 _ _ h23).1
  have h13 := (and_ix0 _ _ h18).1
  have h8 := (and_ix0 _ _ h13).1
  exact all_real _ _ _ _ _ (and_ix0 _ _ h8).2 (ix2 n s)

/-- Every entry of the output weight (`main_arg9`, [1024, 1024]) is a real: the predicate's tenth conjunct. -/
theorem wo_real [Cert.Pre_finite_inputs.Facts] (m : (ℓ : Loc nD τ sig) → Buf (Elt Ideal) ℓ) (h : Cert.Pre_KernelIdeal m)
    (c : Dev nD) (o c' : Fin 1024) :
    (m ((c.tc : Thread nD τ).loc main_arg9) : S1024x1024.Idx → EReal) (ix2 o c') ≠ (⊤ : EReal)
      ∧ (m ((c.tc : Thread nD τ).loc main_arg9) : S1024x1024.Idx → EReal) (ix2 o c') ≠ (⊥ : EReal) := by
  have h63 := congrFun (h c) ix0
  dsimp only [Cert.Pre_finite_inputs.fn, Cert.Pre_finite_inputs.fn_part1, Cert.Pre_finite_inputs.fn_part2,
    Cert.Pre_finite_inputs.fn_part3] at h63
  have h58 := (and_ix0 _ _ h63).1
  have h53 := (and_ix0 _ _ h58).1
  have h48 := (and_ix0 _ _ h53).1
  exact all_real _ _ _ _ _ (and_ix0 _ _ h48).2 (ix2 o c')

end Cert.KernelIdeal.Fin

end
-- ==== Proof.lean ====
/-
  The stochastic self-attention block — three affine projections, per head a softmax of `q · k` plus a doubly
  logarithmic noise term, key and query masks, the weighted sum of values, an output projection with residual and a
  row normalisation — as three tiled kernels, against the same block written with whole-array operations.

  FRAMES. Each kernel reads its input blocks, computes, and stores its output block through rectangles that tile it, so
  each region's body is run symbolically once at a generic grid point (`Proof/K*/Body*.lean`); the regions and the host
  stretches between them chain from the launch memory to the end (`Proof/K*/Run.lean` over the fold of buffer contents
  `Proof/K*/Fold.lean`). The attention kernel reads ONE array — the flat `[Q | K | V]` — through three input windows; the
  array is held at three shares that compose to the whole (`Proof/K*/Share1.lean`). The word-level program and its
  idealization are one text, so the frame modules are written once, generic in the float instance.

  VALUES. At the ideal instance the kernel program's result is, index by index, the block with the query mask applied
  AFTER the sum over keys (`Proof/KI/Val*.lean`, `Proof/KI/Compose.lean`, `Proof/KI/Result.lean`), the reference's the block with the query mask
  INSIDE that sum (`Proof/RefSide.lean`); everything else — the projections, the logits, the shifted softmax, the
  normalisation with its divisor 1024 and stabiliser — is one function on both sides (`Proof/Spec.lean`).

  THE LAW (`Proof/Law.lean`). With `t k = (s k · mk k) · v k` the inside spelling's term is `mq · t k` by commutativity and
  associativity alone, so the two attention entries are `(∑ t) · mq` and `∑ mq · t`. On the extended reals these need
  not be equal — a softmax row whose maximum is infinite is `0 / 0` — but for a REAL `mq` they are equal OR BOTH
  INFINITE. That relation survives multiplying by a real weight, finite sums and adding anything, and the row
  normalisation sends every row with an infinite entry to `0 · γ + β` (the mean is infinite, every centred entry is
  infinite, the variance is `+∞`, its reciprocal square root is `0`). So the results agree wherever the mask and the
  output weight are real, which the precondition gives (`Proof/Finite.lean`).
-/
import proofs.«416712_j77146202571310_3_alg».proof.Defs
import proofs.«416712_j77146202571310_3_alg».proof.Proof.Gen.Kernel
import proofs.«416712_j77146202571310_3_alg».proof.Proof.Gen.KernelIdeal
import proofs.«416712_j77146202571310_3_alg».proof.Proof.Gen.ReferenceIdeal
import proofs.«416712_j77146202571310_3_alg».proof.Proof.Gen.Pre_finite_inputs
import proofs.«416712_j77146202571310_3_alg».proof.Proof.K.Run
import proofs.«416712_j77146202571310_3_alg».proof.Proof.KI.Run
import proofs.«416712_j77146202571310_3_alg».proof.Proof.KI.Result
import proofs.«416712_j77146202571310_3_alg».proof.Proof.RefSide
import proofs.«416712_j77146202571310_3_alg».proof.Proof.Law
import proofs.«416712_j77146202571310_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs' results are one array: the reference's is the block with the query mask inside the sum over keys,
    the kernel program's the block with it after the sum, and the two blocks agree where the mask and the output
    weight are real. -/
theorem results_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v75 m' c = Cert.KernelIdeal.Fr.W7 m ρ c Cert.KernelIdeal.main_v16 := by
  obtain ⟨h0, h1, h2, h3, h4, h5, h6, h7, h8, h9, h10, h11, h12⟩ := hagree
  funext i
  obtain ⟨n, s, o, rfl⟩ : ∃ (n : Fin 2) (s o : Fin 1024), i = ix3 n s o := ⟨i 0, i 1, i 2, eq_ix3 i⟩
  rw [Cert.ReferenceIdeal.Read.val_main_v75_eq, h0, h1, h2, h3, h4, h5, h6, h7, h8, h9, h10, h11, h12]
  refine (Cert.ReferenceIdeal.RefValue.ref_block _ _ _ _ _ _ _ _ _ _ _ _ _ n s o).trans ?_
  refine Eq.trans ?_ (Cert.KernelIdeal.Fr.result_eq m ρ c n s o).symm
  unfold Cert.Spec.blockOf
  exact (Cert.Law.block_eq _ _ _ _ _ _ _ _ _ _ _ _ _
    (fun n s => Cert.KernelIdeal.Fin.mask_real m hpre c n s) (fun o c' => Cert.KernelIdeal.Fin.wo_real m hpre c o c') n s o).symm

theorem algebraic : Cert.algebraic_KernelIdeal_ReferenceIdeal := by
  intro m ρ m' ρ' hpre hagree
  refine ⟨fun c => Cert.KernelIdeal.Fr.W7 m ρ c Cert.KernelIdeal.main_v16, Cert.KernelIdeal.Fr.run_result (F := Ideal) m ρ, ?_⟩
  exact (θ_run Cert.ReferenceIdeal.defs _ _).mono (fun _ h c => ⟨(h c).1.trans (results_eq m ρ m' hpre c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
